-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.truncf_extf.Statement Cert.KernelIdeal.S5000x96 .f32 .bf16
  ∧ IdealRules.truncf_extf.Statement Cert.KernelIdeal.S96x96 .f32 .bf16
  ∧ IdealRules.truncf_extf.Statement Cert.KernelIdeal.S5000x96 .f32 .bf16
  ∧ IdealRules.truncf_extf.Statement Cert.KernelIdeal.S96x96 .f32 .bf16
  ∧ IdealRules.truncf_extf.Statement Cert.KernelIdeal.S5000x96 .f32 .bf16
  ∧ IdealRules.truncf_extf.Statement Cert.KernelIdeal.S96x96 .f32 .bf16
  ∧ IdealRules.truncf_extf.Statement Cert.KernelIdeal.S8000x96 .f32 .bf16
  ∧ IdealRules.truncf_extf.Statement Cert.KernelIdeal.S96x96 .f32 .bf16
  ∧ IdealRules.truncf_extf.Statement Cert.KernelIdeal.S8000x96 .f32 .bf16
  ∧ IdealRules.truncf_extf.Statement Cert.KernelIdeal.S96x96 .f32 .bf16
  ∧ IdealRules.sign_bit.Statement Cert.KernelIdeal.S8000x96 .f32
  ∧ IdealRules.truncf_extf.Statement Cert.KernelIdeal.S5000x96 .f32 .bf16
  ∧ IdealRules.truncf_extf.Statement Cert.KernelIdeal.S96x96 .f32 .bf16
  ∧ IdealRules.truncf_extf.Statement Cert.KernelIdeal.S5000x96 .f32 .bf16
  ∧ IdealRules.truncf_extf.Statement Cert.KernelIdeal.S96x96 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000x96 : Shape := ⟨2, ![800000, 96]⟩
abbrev S2x800000 : Shape := ⟨2, ![2, 800000]⟩
abbrev S288x96 : Shape := ⟨2, ![288, 96]⟩
abbrev S288 : Shape := ⟨1, ![288]⟩
abbrev S192x96 : Shape := ⟨2, ![192, 96]⟩
abbrev S192 : Shape := ⟨1, ![192]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x96 : S_.BroadcastsInDim S800000x96 (![] : Fin 0 → Fin S800000x96.rank)
  reducesTo_S800000x96_S_d0_1 : S800000x96.ReducesTo [0, 1] S_
  bcast_S_S288x96 : S_.BroadcastsInDim S288x96 (![] : Fin 0 → Fin S288x96.rank)
  reducesTo_S288x96_S_d0_1 : S288x96.ReducesTo [0, 1] S_
  bcast_S_S288 : S_.BroadcastsInDim S288 (![] : Fin 0 → Fin S288.rank)
  reducesTo_S288_S_d0 : S288.ReducesTo [0] S_
  bcast_S_S192x96 : S_.BroadcastsInDim S192x96 (![] : Fin 0 → Fin S192x96.rank)
  reducesTo_S192x96_S_d0_1 : S192x96.ReducesTo [0, 1] S_
  bcast_S_S192 : S_.BroadcastsInDim S192 (![] : Fin 0 → Fin S192.rank)
  reducesTo_S192_S_d0 : S192.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg2 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg2 main_v69
  let main_c_27 : IVec S_ 1 := constantI S_ 1 1#1
  let main_v71 : IVec S_ 1 := (fun x v => Host.reduce IntOp.andi x v reducesTo_S2x800000_S_d0_1 h_S_) main_v70 main_c_27
  let main_v72 : IVec S_ 1 := andi main_v68 main_v71
  let main_c_28 : IVec S_ 32 := constantI S_ 32 50000#32
  let main_v73 : IVec S2x800000 32 := broadcastInDim S2x800000 ![] bcast_S_S2x800000 main_c_28
  let main_v74 : IVec S2x800000 1 := cmpi .slt main_arg2 main_v73
  let main_c_29 : IVec S_ 1 := constantI S_ 1 1#1
  let main_v75 : IVec S_ 1 := (fun x v => Host.reduce IntOp.andi x v reducesTo_S2x800000_S_d0_1 h_S_) main_v74 main_c_29
  let main_v76 : IVec S_ 1 := andi main_v72 main_v75
  main_v76

def fn_part3 {F : FTy → Type} [FloatOps F] (main_arg2 : IVec S2x800000 32) (main_arg12 : FVec F S96 .f32) (main_arg13 : FVec F S96 .f32) (main_arg14 : FVec F S96 .f32) (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  let main_v54 : FVec F S96 .f32 := Host.absf main_arg12
  let main_cst_20 : FVec F S_ .f32 := constant S_ .f32 0x7F800000#32
  let main_v55 : FVec F S96 .f32 := broadcastInDim S96 ![] bcast_S_S96 main_cst_20
  let main_v56 : IVec S96 1 := cmpf .olt main_v54 main_v55
  let main_c_21 : IVec S_ 1 := constantI S_ 1 1#1
  let main_v57 : IVec S_ 1 := (fun x v => Host.reduce IntOp.andi x v reducesTo_S96_S_d0 h_S_) main_v56 main_c_21
  let main_v58 : IVec S_ 1 := andi main_v53 main_v57
  let main_v59 : FVec F S96 .f32 := Host.absf main_arg13
  let main_cst_22 : FVec F S_ .f32 := constant S_ .f32 0x7F800000#32
  let main_v60 : FVec F S96 .f32 := broadcastInDim S96 ![] bcast_S_S96 main_cst_22
  let main_v61 : IVec S96 1 := cmpf .olt main_v59 main_v60
  let main_c_23 : IVec S_ 1 := constantI S_ 1 1#1
  let main_v62 : IVec S_ 1 := (fun x v => Host.reduce IntOp.andi x v reducesTo_S96_S_d0 h_S_) main_v61 main_c_23
  let main_v63 : IVec S_ 1 := andi main_v58 main_v62
  let main_v64 : FVec F S96 .f32 := Host.absf main_arg14
  let main_cst_24 : FVec F S_ .f32 := constant S_ .f32 0x7F800000#32
  let main_v65 : FVec F S96 .f32 := broadcastInDim S96 ![] bcast_S_S96 main_cst_24
  let main_v66 : IVec S96 1 := cmpf .olt main_v64 main_v65
  let main_c_25 : IVec S_ 1 := constantI S_ 1 1#1
  let main_v67 : IVec S_ 1 := (fun x v => Host.reduce IntOp.andi x v reducesTo_S96_S_d0 h_S_) main_v66 main_c_25
  fn_part4 (F := F) main_arg2 main_v63 main_v67

def fn_part2 {F : FTy → Type} [FloatOps F] (main_arg2 : IVec S2x800000 32) (main_arg8 : FVec F S96 .f32) (main_arg9 : FVec F S96x96 .f32) (main_arg10 : FVec F S96 .f32) (main_arg11 : FVec F S96 .f32) (main_arg12 : FVec F S96 .f32) (main_arg13 : FVec F S96 .f32) (main_arg14 : FVec F S96 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x96 .f32 := Host.absf main_arg9
  let main_cst_14 : FVec F S_ .f32 := constant S_ .f32 0x7F800000#32
  let main_v40 : FVec F S96x96 .f32 := broadcastInDim S96x96 ![] bcast_S_S96x96 main_cst_14
  let main_v41 : IVec S96x96 1 := cmpf .olt main_v39 main_v40
  let main_c_15 : IVec S_ 1 := constantI S_ 1 1#1
  let main_v42 : IVec S_ 1 := (fun x v => Host.reduce IntOp.andi x v reducesTo_S96x96_S_d0_1 h_S_) main_v41 main_c_15
  let main_v43 : IVec S_ 1 := andi main_v38 main_v42
  let main_v44 : FVec F S96 .f32 := Host.absf main_arg10
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96 .f32 := Host.absf main_arg11
  let main_cst_18 : FVec F S_ .f32 := constant S_ .f32 0x7F800000#32
  let main_v50 : FVec F S96 .f32 := broadcastInDim S96 ![] bcast_S_S96 main_cst_18
  fn_part3 (F := F) main_arg2 main_arg12 main_arg13 main_arg14 main_v48 main_v49 main_v50

def fn_part1 {F : FTy → Type} [FloatOps F] (main_arg2 : IVec S2x800000 32) (main_arg5 : FVec F S192x96 .f32) (main_arg6 : FVec F S192 .f32) (main_arg7 : FVec F S96x96 .f32) (main_arg8 : FVec F S96 .f32) (main_arg9 : FVec F S96x96 .f32) (main_arg10 : FVec F S96 .f32) (main_arg11 : FVec F S96 .f32) (main_arg12 : FVec F S96 .f32) (main_arg13 : FVec F S96 .f32) (main_arg14 : FVec F S96 .f32) (main_v13 : IVec S_ 1) (main_v16 : IVec S288 1) : IVec S_ 1 :=
  let main_c_5 : IVec S_ 1 := constantI S_ 1 1#1
  let main_v17 : IVec S_ 1 := (fun x v => Host.reduce IntOp.andi x v reducesTo_S288_S_d0 h_S_) main_v16 main_c_5
  let main_v18 : IVec S_ 1 := andi main_v13 main_v17
  let main_v19 : FVec F S192x96 .f32 := Host.absf main_arg5
  let main_cst_6 : FVec F S_ .f32 := constant S_ .f32 0x7F800000#32
  let main_v20 : FVec F S192x96 .f32 := broadcastInDim S192x96 ![] bcast_S_S192x96 main_cst_6
  let main_v21 : IVec S192x96 1 := cmpf .olt main_v19 main_v20
  let main_c_7 : IVec S_ 1 := constantI S_ 1 1#1
  let main_v22 : IVec S_ 1 := (fun x v => Host.reduce IntOp.andi x v reducesTo_S192x96_S_d0_1 h_S_) main_v21 main_c_7
  let main_v23 : IVec S_ 1 := andi main_v18 main_v22
  let main_v24 : FVec F S192 .f32 := Host.absf main_arg6
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S96x96 .f32 := Host.absf main_arg7
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S50000x96 .f32) (main_arg1 : FVec F S800000x96 .f32) (main_arg2 : IVec S2x800000 32) (main_arg3 : FVec F S288x96 .f32) (main_arg4 : FVec F S288 .f32) (main_arg5 : FVec F S192x96 .f32) (main_arg6 : FVec F S192 .f32) (main_arg7 : FVec F S96x96 .f32) (main_arg8 : FVec F S96 .f32) (main_arg9 : FVec F S96x96 .f32) (main_arg10 : FVec F S96 .f32) (main_arg11 : FVec F S96 .f32) (main_arg12 : FVec F S96 .f32) (main_arg13 : FVec F S96 .f32) (main_arg14 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x96 .f32 := Host.absf main_arg1
  let main_cst_0 : FVec F S_ .f32 := constant S_ .f32 0x7F800000#32
  let main_v5 : FVec F S800000x96 .f32 := broadcastInDim S800000x96 ![] bcast_S_S800000x96 main_cst_0
  let main_v6 : IVec S800000x96 1 := cmpf .olt main_v4 main_v5
  let main_c_1 : IVec S_ 1 := constantI S_ 1 1#1
  let main_v7 : IVec S_ 1 := (fun x v => Host.reduce IntOp.andi x v reducesTo_S800000x96_S_d0_1 h_S_) main_v6 main_c_1
  let main_v8 : IVec S_ 1 := andi main_v3 main_v7
  let main_v9 : FVec F S288x96 .f32 := Host.absf main_arg3
  let main_cst_2 : FVec F S_ .f32 := constant S_ .f32 0x7F800000#32
  let main_v10 : FVec F S288x96 .f32 := broadcastInDim S288x96 ![] bcast_S_S288x96 main_cst_2
  let main_v11 : IVec S288x96 1 := cmpf .olt main_v9 main_v10
  let main_c_3 : IVec S_ 1 := constantI S_ 1 1#1
  let main_v12 : IVec S_ 1 := (fun x v => Host.reduce IntOp.andi x v reducesTo_S288x96_S_d0_1 h_S_) main_v11 main_c_3
  let main_v13 : IVec S_ 1 := andi main_v8 main_v12
  let main_v14 : FVec F S288 .f32 := Host.absf main_arg4
  let main_cst_4 : FVec F S_ .f32 := constant S_ .f32 0x7F800000#32
  let main_v15 : FVec F S288 .f32 := broadcastInDim S288 ![] bcast_S_S288 main_cst_4
  let main_v16 : IVec S288 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S50000x96 : Shape := ⟨2, ![50000, 96]⟩
abbrev S800000x96 : Shape := ⟨2, ![800000, 96]⟩
abbrev S2x800000 : Shape := ⟨2, ![2, 800000]⟩
abbrev S288x96 : Shape := ⟨2, ![288, 96]⟩
abbrev S288 : Shape := ⟨1, ![288]⟩
abbrev S192x96 : Shape := ⟨2, ![192, 96]⟩
abbrev S192 : Shape := ⟨1, ![192]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S1x96 : Shape := ⟨2, ![1, 96]⟩
abbrev S5000x96 : Shape := ⟨2, ![5000, 96]⟩
abbrev S50000x192 : Shape := ⟨2, ![50000, 192]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x192 : Shape := ⟨2, ![800000, 192]⟩
abbrev S8000x96 : Shape := ⟨2, ![8000, 96]⟩
abbrev S8000 : Shape := ⟨1, ![8000]⟩
abbrev S8000x1 : Shape := ⟨2, ![8000, 1]⟩
abbrev S5000 : Shape := ⟨1, ![5000]⟩
abbrev S5000x1 : Shape := ⟨2, ![5000, 1]⟩

abbrev nBuf : Space → Nat
  | .hbm => 109
  | .vmem => 44
  | .smem => 0
  | _ => 0

abbrev bufTy : (tb : Table) → Fin (tcTables nBuf tb) → BufTy
  | .hbm, ⟨0, _⟩ => ⟨S50000x96, .f32⟩
  | .hbm, ⟨1, _⟩ => ⟨S800000x96, .f32⟩
  | .hbm, ⟨2, _⟩ => ⟨S2x800000, .i32⟩
  | .hbm, ⟨3, _⟩ => ⟨S288x96, .f32⟩
  | .hbm, ⟨4, _⟩ => ⟨S288, .f32⟩
  | .hbm, ⟨5, _⟩ => ⟨S192x96, .f32⟩
  | .hbm, ⟨6, _⟩ => ⟨S192, .f32⟩
  | .hbm, ⟨7, _⟩ => ⟨S96x96, .f32⟩
  | .hbm, ⟨8, _⟩ => ⟨S96, .f32⟩
  | .hbm, ⟨9, _⟩ => ⟨S96x96, .f32⟩
  | .hbm, ⟨10, _⟩ => ⟨S96, .f32⟩
  | .hbm, ⟨11, _⟩ => ⟨S96, .f32⟩
  | .hbm, ⟨12, _⟩ => ⟨S96, .f32⟩
  | .hbm, ⟨13, _⟩ => ⟨S96, .f32⟩
  | .hbm, ⟨14, _⟩ => ⟨S96, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S96x96, .f32⟩
  | .hbm, ⟨20, _⟩ => ⟨S96x96, .f32⟩
  | .hbm, ⟨21, _⟩ => ⟨S96x96, .f32⟩
  | .hbm, ⟨22, _⟩ => ⟨S96, .f32⟩
  | .hbm, ⟨23, _⟩ => ⟨S1x96, .f32⟩
  | .hbm, ⟨24, _⟩ => ⟨S96, .f32⟩
  | .hbm, ⟨25, _⟩ => ⟨S1x96, .f32⟩
  | .hbm, ⟨26, _⟩ => ⟨S96, .f32⟩
  | .hbm, ⟨27, _⟩ => ⟨S1x96, .f32⟩
  | .hbm, ⟨28, _⟩ => ⟨S96x96, .f32⟩
  | .hbm, ⟨29, _⟩ => ⟨S96x96, .f32⟩
  | .hbm, ⟨30, _⟩ => ⟨S96, .f32⟩
  | .hbm, ⟨31, _⟩ => ⟨S1x96, .f32⟩
  | .hbm, ⟨32, _⟩ => ⟨S96, .f32⟩
  | .hbm, ⟨33, _⟩ => ⟨S1x96, .f32⟩
  | .hbm, ⟨34, _⟩ => ⟨S1x96, .f32⟩
  | .hbm, ⟨35, _⟩ => ⟨S1x96, .f32⟩
  | .hbm, ⟨36, _⟩ => ⟨S1x96, .f32⟩
  | .hbm, ⟨37, _⟩ => ⟨S1x96, .f32⟩
  | .hbm, ⟨38, _⟩ => ⟨S1x96, .f32⟩
  | .hbm, ⟨39, _⟩ => ⟨S1x96, .f32⟩
  | .hbm, ⟨40, _⟩ => ⟨S96x96, .f32⟩
  | .hbm, ⟨41, _⟩ => ⟨S96x96, .f32⟩
  | .hbm, ⟨42, _⟩ => ⟨S96x96, .f32⟩
  | .hbm, ⟨43, _⟩ => ⟨S50000x96, .f32⟩
  | .hbm, ⟨44, _⟩ => ⟨S50000x96, .f32⟩
  | .hbm, ⟨45, _⟩ => ⟨S50000x96, .f32⟩
  | .hbm, ⟨46, _⟩ => ⟨S50000x192, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S1, .i32⟩
  | .hbm, ⟨56, _⟩ => ⟨S_, .i32⟩
  | .hbm, ⟨57, _⟩ => ⟨S800000x1, .i32⟩
  | .hbm, ⟨58, _⟩ => ⟨S800000x1, .i1⟩
  | .hbm, ⟨59, _⟩ => ⟨S1x1, .i32⟩
  | .hbm, ⟨60, _⟩ => ⟨S800000x1, .i32⟩
  | .hbm, ⟨61, _⟩ => ⟨S800000x1, .i1⟩
  | .hbm, ⟨62, _⟩ => ⟨S800000x1, .i1⟩
  | .hbm, ⟨63, _⟩ => ⟨S_, .i1⟩
  | .hbm, ⟨64, _⟩ => ⟨S800000, .i1⟩
  | .hbm, ⟨65, _⟩ => ⟨S800000x96, .f32⟩
  | .hbm, ⟨66, _⟩ => ⟨S800000x96, .i1⟩
  | .hbm, ⟨67, _⟩ => ⟨S_, .f32⟩
  | .hbm, ⟨68, _⟩ => ⟨S800000x96, .f32⟩
  | .hbm, ⟨69, _⟩ => ⟨S800000x96, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S1, .i32⟩
  | .hbm, ⟨79, _⟩ => ⟨S_, .i32⟩
  | .hbm, ⟨80, _⟩ => ⟨S800000x1, .i32⟩
  | .hbm, ⟨81, _⟩ => ⟨S800000x1, .i1⟩
  | .hbm, ⟨82, _⟩ => ⟨S1x1, .i32⟩
  | .hbm, ⟨83, _⟩ => ⟨S800000x1, .i32⟩
  | .hbm, ⟨84, _⟩ => ⟨S800000x1, .i1⟩
  | .hbm, ⟨85, _⟩ => ⟨S800000x1, .i1⟩
  | .hbm, ⟨86, _⟩ => ⟨S_, .i1⟩
  | .hbm, ⟨87, _⟩ => ⟨S800000, .i1⟩
  | .hbm, ⟨88, _⟩ => ⟨S800000x192, .f32⟩
  | .hbm, ⟨89, _⟩ => ⟨S800000x192, .i1⟩
  | .hbm, ⟨90, _⟩ => ⟨S_, .f32⟩
  | .hbm, ⟨91, _⟩ => ⟨S800000x192, .f32⟩
  | .hbm, ⟨92, _⟩ => ⟨S800000x192, .f32⟩
  | .hbm, ⟨93, _⟩ => ⟨S800000x96, .f32⟩
  | .hbm, ⟨94, _⟩ => ⟨S800000x96, .f32⟩
  | .hbm, ⟨95, _⟩ => ⟨S96x96, .f32⟩
  | .hbm, ⟨96, _⟩ => ⟨S96x96, .f32⟩
  | .hbm, ⟨97, _⟩ => ⟨S800000x96, .f32⟩
  | .hbm, ⟨98, _⟩ => ⟨S800000x96, .f32⟩
  | .hbm, ⟨99, _⟩ => ⟨S800000x192, .f32⟩
  | .hbm, ⟨100, _⟩ => ⟨S_, .f32⟩
  | .hbm, ⟨101, _⟩ => ⟨S50000x192, .f32⟩
  | .hbm, ⟨102, _⟩ => ⟨S800000x1, .i32⟩
  | .hbm, ⟨103, _⟩ => ⟨S50000x192, .f32⟩
  | .hbm, ⟨104, _⟩ => ⟨S50000x96, .f32⟩
  | .hbm, ⟨105, _⟩ => ⟨S50000x96, .f32⟩
  | .hbm, ⟨106, _⟩ => ⟨S96x96, .f32⟩
  | .hbm, ⟨107, _⟩ => ⟨S96x96, .f32⟩
  | .hbm, ⟨108, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S96x96, .f32⟩
  | .local _ .vmem, ⟨4, _⟩ => ⟨S96x96, .f32⟩
  | .local _ .vmem, ⟨5, _⟩ => ⟨S1x96, .f32⟩
  | .local _ .vmem, ⟨6, _⟩ => ⟨S1x96, .f32⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S8000x96, .f32⟩
  | .local _ .vmem, ⟨15, _⟩ => ⟨S8000x96, .f32⟩
  | .local _ .vmem, ⟨16, _⟩ => ⟨S96x96, .f32⟩
  | .local _ .vmem, ⟨17, _⟩ => ⟨S96x96, .f32⟩
  | .local _ .vmem, ⟨18, _⟩ => ⟨S1x96, .f32⟩
  | .local _ .vmem, ⟨19, _⟩ => ⟨S1x96, .f32⟩
  | .local _ .vmem, ⟨20, _⟩ => ⟨S8000x96, .f32⟩
  | .local _ .vmem, ⟨21, _⟩ => ⟨S8000x96, .f32⟩
  | .local _ .vmem, ⟨22, _⟩ => ⟨S8000x96, .f32⟩
  | .local _ .vmem, ⟨23, _⟩ => ⟨S8000x96, .f32⟩
  | .local _ .vmem, ⟨24, _⟩ => ⟨S1x96, .f32⟩
  | .local _ .vmem, ⟨25, _⟩ => ⟨S1x96, .f32⟩
  | .local _ .vmem, ⟨26, _⟩ => ⟨S8000x96, .f32⟩
  | .local _ .vmem, ⟨27, _⟩ => ⟨S8000x96, .f32⟩
  | .local _ .vmem, ⟨28, _⟩ => ⟨S8000x96, .f32⟩
  | .local _ .vmem, ⟨29, _⟩ => ⟨S8000x96, .f32⟩
  | .local _ .vmem, ⟨30, _⟩ => ⟨S5000x96, .f32⟩
  | .local _ .vmem, ⟨31, _⟩ => ⟨S5000x96, .f32⟩
  | .local _ .vmem, ⟨32, _⟩ => ⟨S5000x96, .f32⟩
  | .local _ .vmem, ⟨33, _⟩ => ⟨S5000x96, .f32⟩
  | .local _ .vmem, ⟨34, _⟩ => ⟨S5000x96, .f32⟩
  | .local _ .vmem, ⟨35, _⟩ => ⟨S5000x96, .f32⟩
  | .local _ .vmem, ⟨36, _⟩ => ⟨S96x96, .f32⟩
  | .local _ .vmem, ⟨37, _⟩ => ⟨S1x96, .f32⟩
  | .local _ .vmem, ⟨38, _⟩ => ⟨S96x96, .f32⟩
  | .local _ .vmem, ⟨39, _⟩ => ⟨S1x96, .f32⟩
  | .local _ .vmem, ⟨40, _⟩ => ⟨S1x96, .f32⟩
  | .local _ .vmem, ⟨41, _⟩ => ⟨S1x96, .f32⟩
  | .local _ .vmem, ⟨42, _⟩ => ⟨S5000x96, .f32⟩
  | .local _ .vmem, ⟨43, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev main_v29 : Ref sig .tc := ⟨.hbm, 46, rfl⟩
abbrev main_call0_c : Ref sig .tc := ⟨.hbm, 47, rfl⟩
abbrev main_call0_v0 : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_c_1 : Ref sig .tc := ⟨.hbm, 55, rfl⟩
abbrev main_call0_c_2 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_3 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_call0_cst : Ref sig .tc := ⟨.hbm, 67, rfl⟩
abbrev main_call0_v15 : Ref sig .tc := ⟨.hbm, 68, rfl⟩
abbrev main_v30 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_c_2 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_3 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_cst : Ref sig .tc := ⟨.hbm, 90, rfl⟩
abbrev main_call1_v15 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36_0 : Ref sig .tc := ⟨.hbm, 97, rfl⟩
abbrev main_v36_1 : Ref sig .tc := ⟨.hbm, 98, rfl⟩
abbrev main_v37 : Ref sig .tc := ⟨.hbm, 99, rfl⟩
abbrev main_cst : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg9_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem9_1 : DmaSem sig := 43

abbrev nD : Nat := 1
abbrev τ : Topo := Topo.v7x

variable {F : FTy → Type} [BitOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x96 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x96 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8000x96 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8000x96 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S96x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S96x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x96 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x96 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x96 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x96 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S288x96_S96x96_0_0 : S288x96.Slices ![0, 0] S96x96
  slices_S288x96_S96x96_96_0 : S288x96.Slices ![96, 0] S96x96
  slices_S288x96_S96x96_192_0 : S288x96.Slices ![192, 0] S96x96
  slices_S288_S96_0 : S288.Slices ![0] S96
  shapeCasts_S96_S1x96 : S96.ShapeCasts S1x96
  slices_S288_S96_96 : S288.Slices ![96] S96
  slices_S288_S96_192 : S288.Slices ![192] S96
  slices_S192x96_S96x96_0_0 : S192x96.Slices ![0, 0] S96x96
  slices_S192x96_S96x96_96_0 : S192x96.Slices ![96, 0] S96x96
  slices_S192_S96_0 : S192.Slices ![0] S96
  slices_S192_S96_96 : S192.Slices ![96] S96
  transposes_S96x96_S96x96_1_0 : S96x96.Transposes [1, 0] S96x96
  inb_S5000x96_S5000x96_0_0 : ∀ a, (![0, 0] : Fin 2 → Nat) a + S5000x96.size a ≤ S5000x96.size a
  h_S5000x96 : 0 < S5000x96.numel
  inb_S96x96_S96x96_0_0 : ∀ a, (![0, 0] : Fin 2 → Nat) a + S96x96.size a ≤ S96x96.size a
  h_S96x96 : 0 < S96x96.numel
  shapeCasts_S96x96_S96x96 : S96x96.ShapeCasts S96x96
  bitsLt_bf16_f32 : FTy.bits .bf16 < FTy.bits .f32
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  concatenates_S50000x96_S50000x96_S50000x192_d1 : Shape.Concatenates [S50000x96, S50000x96] S50000x192 1
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x96_0 : S800000.BroadcastsInDim S800000x96 (![0] : Fin 1 → Fin S800000x96.rank)
  bcast_S_S800000x96 : S_.BroadcastsInDim S800000x96 (![] : Fin 0 → Fin S800000x96.rank)
  bcast_S800000_S800000x192_0 : S800000.BroadcastsInDim S800000x192 (![0] : Fin 1 → Fin S800000x192.rank)
  bcast_S_S800000x192 : S_.BroadcastsInDim S800000x192 (![] : Fin 0 → Fin S800000x192.rank)
  slices_S800000x192_S800000x96_0_0 : S800000x192.Slices ![0, 0] S800000x96
  slices_S800000x192_S800000x96_0_96 : S800000x192.Slices ![0, 96] S800000x96
  inb_S8000x96_S8000x96_0_0 : ∀ a, (![0, 0] : Fin 2 → Nat) a + S8000x96.size a ≤ S8000x96.size a
  h_S8000x96 : 0 < S8000x96.numel
  broadcasts_S1x96_S8000x96 : S1x96.Broadcasts S8000x96
  shapeCasts_S8000x96_S8000x96 : S8000x96.ShapeCasts S8000x96
  reduces_S8000x96_S8000 : S8000x96.Reduces [1] S8000
  shapeCasts_S8000_S8000x1 : S8000.ShapeCasts S8000x1
  broadcasts_S8000x1_S8000x96 : S8000x1.Broadcasts S8000x96
  concatenates_S800000x96_S800000x96_S800000x192_d1 : Shape.Concatenates [S800000x96, S800000x96] S800000x192 1
  bcast_S_S50000x192 : S_.BroadcastsInDim S50000x192 (![] : Fin 0 → Fin S50000x192.rank)
  slices_S50000x192_S50000x96_0_0 : S50000x192.Slices ![0, 0] S50000x96
  slices_S50000x192_S50000x96_0_96 : S50000x192.Slices ![0, 96] S50000x96
  shapeCasts_S5000x96_S5000x96 : S5000x96.ShapeCasts S5000x96
  reduces_S5000x96_S5000 : S5000x96.Reduces [1] S5000
  shapeCasts_S5000_S5000x1 : S5000.ShapeCasts S5000x1
  broadcasts_S5000x1_S5000x96 : S5000x1.Broadcasts S5000x96
  dot_S5000x96_S96x96_S5000x96_1_0_0_1_n_n_wf : DotDims.WF S5000x96 S96x96 S5000x96 [1] [0] [0] [1] [] []
  gather_S50000x96_S800000x1_S800000x96_1_0_n_n_0_1_196_wf : GatherDims.WF S50000x96 S800000x1 S800000x96 [1] [0] [] [0] [] 1 ![1, 96]
  gather_S50000x192_S800000x1_S800000x192_1_0_n_n_0_1_1192_wf : GatherDims.WF S50000x192 S800000x1 S800000x192 [1] [0] [] [0] [] 1 ![1, 192]
  dot_S8000x96_S96x96_S8000x96_1_0_0_1_n_n_wf : DotDims.WF S8000x96 S96x96 S8000x96 [1] [0] [0] [1] [] []
  scatter_S50000x192_S800000x1_S800000x192_1_0_0_1_wf : ScatterDims.WF S50000x192 S800000x1 S800000x192 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .f32 = 32 ∨ (Rect.block (s := S1x96) S1x96.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x96.size a ≤ S50000x96.size a
  hwx0_7 : ∀ i : grid0.Coords, EltTy.bits .f32 = 32 ∨ (Rect.block (s := S50000x96) S5000x96.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x96.size a ≤ S50000x96.size a
  hwx0_8 : ∀ i : grid0.Coords, EltTy.bits .f32 = 32 ∨ (Rect.block (s := S50000x96) S5000x96.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x96.size a ≤ S50000x96.size a
  hwx0_9 : ∀ i : grid0.Coords, EltTy.bits .f32 = 32 ∨ (Rect.block (s := S50000x96) S5000x96.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x96.size a ≤ S800000x96.size a
  hwx1_0 : ∀ i : grid1.Coords, EltTy.bits .f32 = 32 ∨ (Rect.block (s := S800000x96) S8000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x96.size a ≤ S800000x96.size a
  hwx1_5 : ∀ i : grid1.Coords, EltTy.bits .f32 = 32 ∨ (Rect.block (s := S800000x96) S8000x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x96.size a ≤ S800000x96.size a
  hwx1_6 : ∀ i : grid1.Coords, EltTy.bits .f32 = 32 ∨ (Rect.block (s := S800000x96) S8000x96.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x96.size a ≤ S1x96.size a
  hwx1_7 : ∀ i : grid1.Coords, EltTy.bits .f32 = 32 ∨ (Rect.block (s := S1x96) S1x96.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x96.size a ≤ S1x96.size a
  hwx1_8 : ∀ i : grid1.Coords, EltTy.bits .f32 = 32 ∨ (Rect.block (s := S1x96) S1x96.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8000x96.size a ≤ S800000x96.size a
  hwx1_9 : ∀ i : grid1.Coords, EltTy.bits .f32 = 32 ∨ (Rect.block (s := S800000x96) S8000x96.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S8000x96.size a ≤ S800000x96.size a
  hwx1_10 : ∀ i : grid1.Coords, EltTy.bits .f32 = 32 ∨ (Rect.block (s := S800000x96) S8000x96.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .f32 = 32 ∨ (Rect.block (s := S50000x96) S5000x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S50000x96.size a
  hwx2_2 : ∀ i : grid2.Coords, EltTy.bits .f32 = 32 ∨ (Rect.block (s := S50000x96) S5000x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x96.size a ≤ S96x96.size a
  hwx2_3 : ∀ i : grid2.Coords, EltTy.bits .f32 = 32 ∨ (Rect.block (s := S96x96) S96x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S96x96.size a ≤ S96x96.size a
  hwx2_5 : ∀ i : grid2.Coords, EltTy.bits .f32 = 32 ∨ (Rect.block (s := S96x96) S96x96.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x96.size a ≤ S1x96.size a
  hwx2_6 : ∀ i : grid2.Coords, EltTy.bits .f32 = 32 ∨ (Rect.block (s := S1x96) S1x96.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x96.size a ≤ S1x96.size a
  hwx2_7 : ∀ i : grid2.Coords, EltTy.bits .f32 = 32 ∨ (Rect.block (s := S1x96) S1x96.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x96.size a ≤ S1x96.size a
  hwx2_8 : ∀ i : grid2.Coords, EltTy.bits .f32 = 32 ∨ (Rect.block (s := S1x96) S1x96.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x96.size a ≤ S50000x96.size a
  hwx2_9 : ∀ i : grid2.Coords, EltTy.bits .f32 = 32 ∨ (Rect.block (s := S50000x96) S5000x96.size (cc2_transform_9 i) (hinb2_9 i)).WholeWords (EltTy.packing .f32)

variable [Facts₀]

def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def dot_S8000x96_S96x96_S8000x96_1_0_0_1_n_n : DotDims S8000x96 S96x96 S8000x96 where
  lhsContracting := [1]
  rhsContracting := [0]
  lhsNonContracting := [0]
  rhsNonContracting := [1]
  lhsBatch := []
  rhsBatch := []
  wf := dot_S8000x96_S96x96_S8000x96_1_0_0_1_n_n_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28_0) S5000x96.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_1) S5000x96.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v28_2) S5000x96.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S8000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S8000x96.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32) S8000x96.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x96.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S1x96.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36_0) S8000x96.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v36_1) S8000x96.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v41) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S5000x96.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S96x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S96x96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S1x96.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v21) S1x96.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v22) S1x96.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v45) S5000x96.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x96 : Shape := ⟨2, ![50000, 96]⟩
abbrev S800000x96 : Shape := ⟨2, ![800000, 96]⟩
abbrev S2x800000 : Shape := ⟨2, ![2, 800000]⟩
abbrev S288x96 : Shape := ⟨2, ![288, 96]⟩
abbrev S288 : Shape := ⟨1, ![288]⟩
abbrev S192x96 : Shape := ⟨2, ![192, 96]⟩
abbrev S192 : Shape := ⟨1, ![192]⟩
abbrev S96x96 : Shape := ⟨2, ![96, 96]⟩
abbrev S96 : Shape := ⟨1, ![96]⟩
abbrev S96x288 : Shape := ⟨2, ![96, 288]⟩
abbrev S50000x288 : Shape := ⟨2, ![50000, 288]⟩
abbrev S1x288 : Shape := ⟨2, ![1, 288]⟩
abbrev S96x192 : Shape := ⟨2, ![96, 192]⟩
abbrev S800000x192 : Shape := ⟨2, ![800000, 192]⟩
abbrev S1x192 : Shape := ⟨2, ![1, 192]⟩
abbrev S800000x2x96 : Shape := ⟨3, ![800000, 2, 96]⟩
abbrev S800000x1x96 : Shape := ⟨3, ![800000, 1, 96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x96 : Shape := ⟨2, ![1, 96]⟩
abbrev S50000 : Shape := ⟨1, ![50000]⟩
abbrev S50000x1 : Shape := ⟨2, ![50000, 1]⟩

abbrev nBuf : Space → Nat
  | .hbm => 153
  | .vmem => 0
  | .smem => 0
  | _ => 0

abbrev hbmTy0_0 (i : Nat) : BufTy := match i % 128 with
  | 0 => ⟨S50000x96, .f32⟩
  | 1 => ⟨S800000x96, .f32⟩
  | 2 => ⟨S2x800000, .i32⟩
  | 3 => ⟨S288x96, .f32⟩
  | 4 => ⟨S288, .f32⟩
  | 5 => ⟨S192x96, .f32⟩
  | 6 => ⟨S192, .f32⟩
  | 7 => ⟨S96x96, .f32⟩
  | 8 => ⟨S96, .f32⟩
  | 9 => ⟨S96x96, .f32⟩
  | 10 => ⟨S96, .f32⟩
  | 11 => ⟨S96, .f32⟩
  | 12 => ⟨S96, .f32⟩
  | 13 => ⟨S96, .f32⟩
  | 14 => ⟨S96, .f32⟩
  | 15 => ⟨S96x288, .f32⟩
  | 16 => ⟨S50000x288, .f32⟩
  | 17 => ⟨S1x288, .f32⟩
  | 18 => ⟨S50000x288, .f32⟩
  | 19 => ⟨S50000x288, .f32⟩
  | 20 => ⟨S50000x96, .f32⟩
  | 21 => ⟨S50000x96, .f32⟩
  | 22 => ⟨S50000x96, .f32⟩
  | 23 => ⟨S96x192, .f32⟩
  | 24 => ⟨S800000x192, .f32⟩
  | 25 => ⟨S1x192, .f32⟩
  | 26 => ⟨S800000x192, .f32⟩
  | 27 => ⟨S800000x192, .f32⟩
  | 28 => ⟨S800000x2x96, .f32⟩
  | 29 => ⟨S800000x1x96, .f32⟩
  | 30 => ⟨S800000x96, .f32⟩
  | 31 => ⟨S800000x1x96, .f32⟩
  | 32 => ⟨S800000x96, .f32⟩
  | 33 => ⟨S1x800000, .i32⟩
  | 34 => ⟨S800000, .i32⟩
  | 35 => ⟨S1x800000, .i32⟩
  | 36 => ⟨S800000, .i32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x96, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x96, .f32⟩
  | 55 => ⟨S800000x96, .f32⟩
  | 56 => ⟨S800000x96, .f32⟩
  | 57 => ⟨S800000x96, .f32⟩
  | 58 => ⟨S800000x96, .f32⟩
  | 59 => ⟨S800000x96, .f32⟩
  | 60 => ⟨S800000x96, .f32⟩
  | 61 => ⟨S800000x96, .f32⟩
  | 62 => ⟨S_, .f32⟩
  | 63 => ⟨S800000x96, .f32⟩
  | 64 => ⟨S800000x96, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x96, .f32⟩
  | 74 => ⟨S_, .f32⟩
  | 75 => ⟨S50000x96, .f32⟩
  | 76 => ⟨S800000x1, .i32⟩
  | 77 => ⟨S50000x96, .f32⟩
  | 78 => ⟨S_, .f32⟩
  | 79 => ⟨S50000x96, .f32⟩
  | 80 => ⟨S800000x1, .i32⟩
  | 81 => ⟨S50000x96, .f32⟩
  | 82 => ⟨S96x96, .f32⟩
  | 83 => ⟨S50000x96, .f32⟩
  | 84 => ⟨S1x96, .f32⟩
  | 85 => ⟨S50000x96, .f32⟩
  | 86 => ⟨S50000x96, .f32⟩
  | 87 => ⟨S50000x96, .f32⟩
  | 88 => ⟨S96x96, .f32⟩
  | 89 => ⟨S50000x96, .f32⟩
  | 90 => ⟨S1x96, .f32⟩
  | 91 => ⟨S50000x96, .f32⟩
  | 92 => ⟨S50000x96, .f32⟩
  | 93 => ⟨S50000x96, .f32⟩
  | 94 => ⟨S800000x96, .f32⟩
  | 95 => ⟨S_, .f32⟩
  | 96 => ⟨S50000, .f32⟩
  | 97 => ⟨S50000x1, .f32⟩
  | 98 => ⟨S_, .f32⟩
  | 99 => ⟨S50000x1, .f32⟩
  | 100 => ⟨S50000x1, .f32⟩
  | 101 => ⟨S50000x96, .f32⟩
  | 102 => ⟨S50000x96, .f32⟩
  | 103 => ⟨S50000x96, .f32⟩
  | 104 => ⟨S_, .f32⟩
  | 105 => ⟨S50000, .f32⟩
  | 106 => ⟨S50000x1, .f32⟩
  | 107 => ⟨S_, .f32⟩
  | 108 => ⟨S50000x1, .f32⟩
  | 109 => ⟨S50000x1, .f32⟩
  | 110 => ⟨S50000x96, .f32⟩
  | 111 => ⟨S50000x96, .f32⟩
  | 112 => ⟨S_, .f32⟩
  | 113 => ⟨S50000x1, .f32⟩
  | 114 => ⟨S50000x1, .f32⟩
  | 115 => ⟨S50000x1, .f32⟩
  | 116 => ⟨S50000x96, .f32⟩
  | 117 => ⟨S50000x96, .f32⟩
  | 118 => ⟨S1x96, .f32⟩
  | 119 => ⟨S50000x96, .f32⟩
  | 120 => ⟨S50000x96, .f32⟩
  | 121 => ⟨S1x96, .f32⟩
  | 122 => ⟨S50000x96, .f32⟩
  | 123 => ⟨S50000x96, .f32⟩
  | 124 => ⟨S_, .f32⟩
  | 125 => ⟨S800000, .f32⟩
  | 126 => ⟨S800000x1, .f32⟩
  | 127 => ⟨S_, .f32⟩
  | _ => ⟨S50000x96, .f32⟩

abbrev hbmTy0_1 (i : Nat) : BufTy := match i % 128 with
  | 0 => ⟨S800000x1, .f32⟩
  | 1 => ⟨S800000x1, .f32⟩
  | 2 => ⟨S800000x96, .f32⟩
  | 3 => ⟨S800000x96, .f32⟩
  | 4 => ⟨S800000x96, .f32⟩
  | 5 => ⟨S_, .f32⟩
  | 6 => ⟨S800000, .f32⟩
  | 7 => ⟨S800000x1, .f32⟩
  | 8 => ⟨S_, .f32⟩
  | 9 => ⟨S800000x1, .f32⟩
  | 10 => ⟨S800000x1, .f32⟩
  | 11 => ⟨S800000x96, .f32⟩
  | 12 => ⟨S800000x96, .f32⟩
  | 13 => ⟨S_, .f32⟩
  | 14 => ⟨S800000x1, .f32⟩
  | 15 => ⟨S800000x1, .f32⟩
  | 16 => ⟨S800000x1, .f32⟩
  | 17 => ⟨S800000x96, .f32⟩
  | 18 => ⟨S800000x96, .f32⟩
  | 19 => ⟨S1x96, .f32⟩
  | 20 => ⟨S800000x96, .f32⟩
  | 21 => ⟨S800000x96, .f32⟩
  | 22 => ⟨S1x96, .f32⟩
  | 23 => ⟨S800000x96, .f32⟩
  | 24 => ⟨S800000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_1 : Ref sig .tc := ⟨.hbm, 46, rfl⟩
abbrev main_v29 : Ref sig .tc := ⟨.hbm, 47, rfl⟩
abbrev main_v30 : Ref sig .tc := ⟨.hbm, 48, rfl⟩
abbrev main_c_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_cst : Ref sig .tc := ⟨.hbm, 62, rfl⟩
abbrev main_call0_v0 : Ref sig .tc := ⟨.hbm, 63, rfl⟩
abbrev main_v43 : Ref sig .tc := ⟨.hbm, 64, rfl⟩
abbrev main_c_3 : Ref sig .tc := ⟨.hbm, 65, rfl⟩
abbrev main_v44 : Ref sig .tc := ⟨.hbm, 66, rfl⟩
abbrev main_v45 : Ref sig .tc := ⟨.hbm, 67, rfl⟩
abbrev main_c_4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_6 : Ref sig .tc := ⟨.hbm, 95, rfl⟩
abbrev main_v70 : Ref sig .tc := ⟨.hbm, 96, rfl⟩
abbrev main_v71 : Ref sig .tc := ⟨.hbm, 97, rfl⟩
abbrev main_cst_7 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_8 : Ref sig .tc := ⟨.hbm, 104, rfl⟩
abbrev main_v77 : Ref sig .tc := ⟨.hbm, 105, rfl⟩
abbrev main_v78 : Ref sig .tc := ⟨.hbm, 106, rfl⟩
abbrev main_cst_9 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_10 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_11 : Ref sig .tc := ⟨.hbm, 124, rfl⟩
abbrev main_v94 : Ref sig .tc := ⟨.hbm, 125, rfl⟩
abbrev main_v95 : Ref sig .tc := ⟨.hbm, 126, rfl⟩
abbrev main_cst_12 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_13 : Ref sig .tc := ⟨.hbm, 133, rfl⟩
abbrev main_v101 : Ref sig .tc := ⟨.hbm, 134, rfl⟩
abbrev main_v102 : Ref sig .tc := ⟨.hbm, 135, rfl⟩
abbrev main_cst_14 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_15 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩

abbrev nD : Nat := 1
abbrev τ : Topo := Topo.v7x

variable {F : FTy → Type} [FloatOps F]

class Facts₀ : Prop where
  transposes_S288x96_S96x288_1_0 : S288x96.Transposes [1, 0] S96x288
  bcast_S288_S1x288_1 : S288.BroadcastsInDim S1x288 (![1] : Fin 1 → Fin S1x288.rank)
  bcast_S1x288_S50000x288_0_1 : S1x288.BroadcastsInDim S50000x288 (![0, 1] : Fin 2 → Fin S50000x288.rank)
  slices_S50000x288_S50000x96_0_0 : S50000x288.Slices ![0, 0] S50000x96
  slices_S50000x288_S50000x96_0_96 : S50000x288.Slices ![0, 96] S50000x96
  slices_S50000x288_S50000x96_0_192 : S50000x288.Slices ![0, 192] S50000x96
  transposes_S192x96_S96x192_1_0 : S192x96.Transposes [1, 0] S96x192
  bcast_S192_S1x192_1 : S192.BroadcastsInDim S1x192 (![1] : Fin 1 → Fin S1x192.rank)
  bcast_S1x192_S800000x192_0_1 : S1x192.BroadcastsInDim S800000x192 (![0, 1] : Fin 2 → Fin S800000x192.rank)
  shapeCasts_S800000x192_S800000x2x96 : S800000x192.ShapeCasts S800000x2x96
  slices_S800000x2x96_S800000x1x96_0_0_0 : S800000x2x96.Slices ![0, 0, 0] S800000x1x96
  shapeCasts_S800000x1x96_S800000x96 : S800000x1x96.ShapeCasts S800000x96
  slices_S800000x2x96_S800000x1x96_0_1_0 : S800000x2x96.Slices ![0, 1, 0] S800000x1x96
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x96 : S_.BroadcastsInDim S800000x96 (![] : Fin 0 → Fin S800000x96.rank)
  bcast_S_S50000x96 : S_.BroadcastsInDim S50000x96 (![] : Fin 0 → Fin S50000x96.rank)
  transposes_S96x96_S96x96_1_0 : S96x96.Transposes [1, 0] S96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  reducesTo_S50000x96_S50000_d1 : S50000x96.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  reducesTo_S800000x96_S800000_d1 : S800000x96.ReducesTo [1] S800000
  bcast_S_S800000x1 : S_.BroadcastsInDim S800000x1 (![] : Fin 0 → Fin S800000x1.rank)
  bcast_S800000x1_S800000x96_0_1 : S800000x1.BroadcastsInDim S800000x96 (![0, 1] : Fin 2 → Fin S800000x96.rank)
  bcast_S1x96_S800000x96_0_1 : S1x96.BroadcastsInDim S800000x96 (![0, 1] : Fin 2 → Fin S800000x96.rank)
  dot_S50000x96_S96x288_S50000x288_1_0_0_1_n_n_wf : DotDims.WF S50000x96 S96x288 S50000x288 [1] [0] [0] [1] [] []
  dot_S800000x96_S96x192_S800000x192_1_0_0_1_n_n_wf : DotDims.WF S800000x96 S96x192 S800000x192 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def dot_S50000x96_S96x288_S50000x288_1_0_0_1_n_n : DotDims S50000x96 S96x288 S50000x288 where
  lhsContracting := [1]
  rhsContracting := [0]
  lhsNonContracting := [0]
  rhsNonContracting := [1]
  lhsBatch := []
  rhsBatch := []
  wf := dot_S50000x96_S96x288_S50000x288_1_0_0_1_n_n_wf
def dot_S800000x96_S96x192_S800000x192_1_0_0_1_n_n : DotDims S800000x96 S96x192 S800000x192 where
  lhsContracting := [1]
  rhsContracting := [0]
  lhsNonContracting := [0]
  rhsNonContracting := [1]
  lhsBatch := []
  rhsBatch := []
  wf := dot_S800000x96_S96x192_S800000x192_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.Spec.lean ====
/-
  One message-passing layer on the extended reals, entry by entry.

  Nodes carry rows of 96 numbers, edges too. Every dense map is "a row times the transpose of a block of
  weight rows, plus a bias" (`affine`). An edge's message multiplies the sum of its destination's query row and its
  source's key row by a projection of the edge's own row, takes the signed square root, adds a second projection
  and rectifies (`act`). A node adds up the value rows of the sources of the edges that land on it, and their
  messages; the summed messages go through one dense map, the total through another, the node's own row is added,
  and the row is normalised (`lnorm`). Each edge's row plus its message is normalised the same way.

  Two facts carry the comparison with a product computed in three passes (the operand, and what is left of the
  operand after the operand is taken away): on REAL numbers `a - a = 0`, so the two extra passes add nothing
  (`split3`); and every intermediate of the layer is a real number when the inputs are (`IsReal` and its closure
  under the layer's operations), which is what lets the second and third dense maps use the first fact.
-/
import Idealize.ShloMosaic.PureOps.Ideal
import Idealize.ShloMosaic.PureOps.Ideal.Laws
import Idealize.ShloMosaic.Lib.ValueIdx

noncomputable section

namespace Cert.Mp

open Idealize.ShloMosaic
open scoped BigOperators

/-! ## Real numbers among the extended reals -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  obtain ⟨a, rfl⟩ := hx; obtain ⟨b, rfl⟩ := hy
  exact ⟨Max.max a b, (Monotone.map_max EReal.coe_strictMono.monotone).symm⟩

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h _ (Finset.mem_insert_self _ _)).add (ih fun i hi => h i (Finset.mem_insert_of_mem hi))

/-- A real number taken from itself leaves zero (false at the infinities). -/
theorem IsReal.sub_self {x : EReal} (h : IsReal x) : x - x = 0 := by
  obtain ⟨a, rfl⟩ := h
  rw [← EReal.coe_sub, _root_.sub_self]; rfl

theorem IsReal.sign {x : EReal} (h : IsReal x) : IsReal (Ideal.sign x) := by
  obtain ⟨a, rfl⟩ := h; exact ⟨_, Ideal.sign_coe a⟩

/-- The square root of a real number's absolute value is a real number. -/
theorem IsReal.sqrt_abs {x : EReal} (h : IsReal x) : IsReal (Ideal.sqrt (Max.max x (-x))) := by
  obtain ⟨a, rfl⟩ := h
  have habs : Max.max (a : EReal) (-(a : EReal)) = ((|a| : ℝ) : EReal) := by
    rw [← EReal.coe_neg, ← Monotone.map_max EReal.coe_strictMono.monotone, ← abs_eq_max_neg]
  rw [habs, Ideal.sqrt_coe, if_neg (not_lt.mpr (abs_nonneg a))]
  exact ⟨_, rfl⟩

/-! ## The layer's pieces -/

/-- A row times the transpose of a block of weight rows, plus a bias: `Σ_k a k · w j k + b j`. -/
def affine (a : Fin 96 → EReal) (w : Fin 96 → Fin 96 → EReal) (b : Fin 96 → EReal) (j : Fin 96) : EReal :=
  (∑ k : Fin 96, a k * w j k) + b j

theorem affine_isReal {a : Fin 96 → EReal} {w : Fin 96 → Fin 96 → EReal} {b : Fin 96 → EReal}
    (ha : ∀ k, IsReal (a k)) (hw : ∀ j k, IsReal (w j k)) (hb : ∀ j, IsReal (b j)) (j : Fin 96) : IsReal (affine a w b j) :=
  (IsReal.sum _ _ fun k _ => (ha k).mul (hw j k)).add (hb j)

/-- A product summed in three passes — the operands; the first operand against what is left of the second after
    the second is taken away; what is left of the first against the second — is the product summed once, on real
    numbers. -/
theorem split3 {K : Type*} [Fintype K] (a w : K → EReal) (ha : ∀ k, IsReal (a k)) (hw : ∀ k, IsReal (w k)) :
    (∑ k, a k * w k) + (∑ k, a k * (w k - w k)) + (∑ k, (a k - a k) * w k) = ∑ k, a k * w k := by
  have h1 : ∑ k, a k * (w k - w k) = 0 := Finset.sum_eq_zero fun k _ => by rw [(hw k).sub_self, mul_zero]
  have h2 : ∑ k, (a k - a k) * w k = 0 := Finset.sum_eq_zero fun k _ => by rw [(ha k).sub_self, zero_mul]
  rw [h1, h2, add_zero, add_zero]

/-- The signed square root of `c`, plus `e`, rectified. -/
def act (c e : EReal) : EReal := Max.max (Ideal.sign c * Ideal.sqrt (Max.max c (-c)) + e) 0

theorem act_isReal {c e : EReal} (hc : IsReal c) (he : IsReal e) : IsReal (act c e) :=
  ((hc.sign.mul hc.sqrt_abs).add he).max IsReal.zero

/-- A row's mean over its 96 entries (the divisor is the float 96). -/
def mean (v : Fin 96 → EReal) : EReal := Ideal.div (∑ k : Fin 96, v k) (Ideal.ofBits .f32 0x42C00000#32)

/-- A row normalised: centred, scaled by the reciprocal root of its variance plus a small constant, then by a
    gain, then shifted. -/
def lnorm (v g b : Fin 96 → EReal) (j : Fin 96) : EReal :=
  (v j - mean v) * Ideal.rsqrt (mean (fun k => (v k - mean v) * (v k - mean v)) + Ideal.ofBits .f32 0x3727C5AC#32) * g j + b j

/-- Row `o + j` of a taller block: the `j`-th of the 96 rows that start at `o`. -/
def off (o : Nat) {J : Nat} (h : o + 96 ≤ J) (j : Fin 96) : Fin J := ⟨o + j.val, by have := j.isLt; omega⟩

/-! ## The layer -/

section Layer

variable (x : Fin 50000 → Fin 96 → EReal) (conn : Fin 800000 → Fin 96 → EReal)
  -- the node rows an edge reads (its destination's, its source's) and the edges that land on a node
  (rd rs : Fin 800000 → Fin 50000) (into : Fin 50000 → Finset (Fin 800000))
  (qkvw : Fin 288 → Fin 96 → EReal) (qkvb : Fin 288 → EReal) (ew : Fin 192 → Fin 96 → EReal) (eb : Fin 192 → EReal)
  (clw : Fin 96 → Fin 96 → EReal) (clb : Fin 96 → EReal) (nlw : Fin 96 → Fin 96 → EReal) (nlb : Fin 96 → EReal)
  (hg hb eg ebb : Fin 96 → EReal)

/-- A node's query, key and value rows: its row through the first, second and third 96 weight rows. -/
def qry (n : Fin 50000) (j : Fin 96) : EReal :=
  affine (x n) (fun j k => qkvw (off 0 (by norm_num) j) k) (fun j => qkvb (off 0 (by norm_num) j)) j
def key (n : Fin 50000) (j : Fin 96) : EReal :=
  affine (x n) (fun j k => qkvw (off 96 (by norm_num) j) k) (fun j => qkvb (off 96 (by norm_num) j)) j
def val (n : Fin 50000) (j : Fin 96) : EReal :=
  affine (x n) (fun j k => qkvw (off 192 (by norm_num) j) k) (fun j => qkvb (off 192 (by norm_num) j)) j

/-- An edge's two projections: its row through the first and the second 96 weight rows. -/
def escale (e : Fin 800000) (j : Fin 96) : EReal :=
  affine (conn e) (fun j k => ew (off 0 (by norm_num) j) k) (fun j => eb (off 0 (by norm_num) j)) j
def eshift (e : Fin 800000) (j : Fin 96) : EReal :=
  affine (conn e) (fun j k => ew (off 96 (by norm_num) j) k) (fun j => eb (off 96 (by norm_num) j)) j

/-- An edge's message. -/
def msg (e : Fin 800000) (j : Fin 96) : EReal :=
  act ((qry x qkvw qkvb (rd e) j + key x qkvw qkvb (rs e) j) * escale conn ew eb e j) (eshift conn ew eb e j)

/-- What lands on a node: the value rows of the landing edges' sources, and the landing edges' messages. -/
def agg (n : Fin 50000) (j : Fin 96) : EReal := ∑ e ∈ into n, val x qkvw qkvb (rs e) j
def eagg (n : Fin 50000) (j : Fin 96) : EReal := ∑ e ∈ into n, msg x conn rd rs qkvw qkvb ew eb e j

/-- The two sums joined: the messages' through one dense map, added to the values'. -/
def joined (n : Fin 50000) (j : Fin 96) : EReal :=
  agg x rs into qkvw qkvb n j + affine (eagg x conn rd rs into qkvw qkvb ew eb n) clw clb j

/-- A node's new row before it is normalised. -/
def node (n : Fin 50000) (j : Fin 96) : EReal :=
  x n j + affine (joined x conn rd rs into qkvw qkvb ew eb clw clb n) nlw nlb j

/-- The layer's two results. -/
def outNode (n : Fin 50000) (j : Fin 96) : EReal :=
  lnorm (node x conn rd rs into qkvw qkvb ew eb clw clb nlw nlb n) hg hb j
def outEdge (e : Fin 800000) (j : Fin 96) : EReal :=
  lnorm (fun k => conn e k + msg x conn rd rs qkvw qkvb ew eb e k) eg ebb j

/-! ### Every intermediate is a real number when the inputs are -/

section Real
variable (hx : ∀ n k, IsReal (x n k)) (hconn : ∀ e k, IsReal (conn e k))
  (hqw : ∀ j k, IsReal (qkvw j k)) (hqb : ∀ j, IsReal (qkvb j)) (hew : ∀ j k, IsReal (ew j k)) (heb : ∀ j, IsReal (eb j))
  (hclw : ∀ j k, IsReal (clw j k)) (hclb : ∀ j, IsReal (clb j))
include hx hqw hqb
theorem qry_isReal (n : Fin 50000) (j : Fin 96) : IsReal (qry x qkvw qkvb n j) :=
  affine_isReal (hx n) (fun _ _ => hqw _ _) (fun _ => hqb _) j
theorem key_isReal (n : Fin 50000) (j : Fin 96) : IsReal (key x qkvw qkvb n j) :=
  affine_isReal (hx n) (fun _ _ => hqw _ _) (fun _ => hqb _) j
theorem val_isReal (n : Fin 50000) (j : Fin 96) : IsReal (val x qkvw qkvb n j) :=
  affine_isReal (hx n) (fun _ _ => hqw _ _) (fun _ => hqb _) j
theorem agg_isReal (n : Fin 50000) (j : Fin 96) : IsReal (agg x rs into qkvw qkvb n j) :=
  IsReal.sum _ _ fun e _ => val_isReal x qkvw qkvb hx hqw hqb (rs e) j
include hconn hew heb
theorem msg_isReal (e : Fin 800000) (j : Fin 96) : IsReal (msg x conn rd rs qkvw qkvb ew eb e j) :=
  act_isReal (((qry_isReal x qkvw qkvb hx hqw hqb _ j).add (key_isReal x qkvw qkvb hx hqw hqb _ j)).mul
      (affine_isReal (hconn e) (fun _ _ => hew _ _) (fun _ => heb _) j))
    (affine_isReal (hconn e) (fun _ _ => hew _ _) (fun _ => heb _) j)
theorem eagg_isReal (n : Fin 50000) (j : Fin 96) : IsReal (eagg x conn rd rs into qkvw qkvb ew eb n j) :=
  IsReal.sum _ _ fun e _ => msg_isReal x conn rd rs qkvw qkvb ew eb hx hconn hqw hqb hew heb e j
include hclw hclb
theorem joined_isReal (n : Fin 50000) (j : Fin 96) : IsReal (joined x conn rd rs into qkvw qkvb ew eb clw clb n j) :=
  (agg_isReal x rs into qkvw qkvb hx hqw hqb n j).add
    (affine_isReal (eagg_isReal x conn rd rs into qkvw qkvb ew eb hx hconn hqw hqb hew heb n) hclw hclb j)
end Real

end Layer

/-! ## The layer over the fifteen argument arrays -/

/-- A table read by rows and columns. -/
abbrev cur2 {a b : Nat} (A : (⟨2, ![a, b]⟩ : Shape).Idx → EReal) : Fin a → Fin b → EReal := fun p q => A (ValueIdx.ix2 p q)
/-- A list read by position. -/
abbrev cur1 {a : Nat} (A : (⟨1, ![a]⟩ : Shape).Idx → EReal) : Fin a → EReal := fun p => A (ValueIdx.ix1 p)

/-- An index word as array indexing reads it: a negative one counts from the end of the 50000 rows. -/
def wrapIdx (v : BitVec 32) : BitVec 32 := Scalar.select (IntOp.cmpi .slt v 0#32) (IntOp.addi v 50000#32) v

/-- The row a gather reads for an index word: wrapped, read as a signed integer, clamped into the table. -/
def rowOf (v : BitVec 32) : Fin 50000 := ⟨min (wrapIdx v).toInt.toNat (50000 - 1), by omega⟩

section Arrays

variable (A0 : (⟨2, ![50000, 96]⟩ : Shape).Idx → EReal) (A1 : (⟨2, ![800000, 96]⟩ : Shape).Idx → EReal)
  (A2 : (⟨2, ![2, 800000]⟩ : Shape).Idx → BitVec 32)
  (A3 : (⟨2, ![288, 96]⟩ : Shape).Idx → EReal) (A4 : (⟨1, ![288]⟩ : Shape).Idx → EReal)
  (A5 : (⟨2, ![192, 96]⟩ : Shape).Idx → EReal) (A6 : (⟨1, ![192]⟩ : Shape).Idx → EReal)
  (A7 : (⟨2, ![96, 96]⟩ : Shape).Idx → EReal) (A8 : (⟨1, ![96]⟩ : Shape).Idx → EReal)
  (A9 : (⟨2, ![96, 96]⟩ : Shape).Idx → EReal) (A10 A11 A12 A13 A14 : (⟨1, ![96]⟩ : Shape).Idx → EReal)

/-- The node row an edge reads as its destination (first row of the index table) and as its source (second). -/
def rdOf (e : Fin 800000) : Fin 50000 := rowOf (A2 (ValueIdx.ix2 (0 : Fin 2) e))
def rsOf (e : Fin 800000) : Fin 50000 := rowOf (A2 (ValueIdx.ix2 (1 : Fin 2) e))
/-- The edges that land on node `n`: those whose destination word, read as a signed integer, is `n`. -/
def intoOf (n : Fin 50000) : Finset (Fin 800000) :=
  Finset.univ.filter fun e => (A2 (ValueIdx.ix2 (0 : Fin 2) e)).toInt = (n.val : ℤ)

/-- The layer's node result and edge result at an entry, from the argument arrays. -/
def layerNode (p : Fin 50000) (q : Fin 96) : EReal :=
  outNode (cur2 A0) (cur2 A1) (rdOf A2) (rsOf A2) (intoOf A2) (cur2 A3) (cur1 A4) (cur2 A5) (cur1 A6)
    (cur2 A7) (cur1 A8) (cur2 A9) (cur1 A10) (cur1 A11) (cur1 A12) p q
def layerEdge (e : Fin 800000) (q : Fin 96) : EReal :=
  outEdge (cur2 A0) (cur2 A1) (rdOf A2) (rsOf A2) (cur2 A3) (cur1 A4) (cur2 A5) (cur1 A6) (cur1 A13) (cur1 A14) e q

end Arrays

end Cert.Mp

end
-- ==== Proof.PreDecode.lean ====
/-
  What the precondition says, decoded: every float argument holds real numbers, and every index word of the edge table,
  read as a signed integer, is at least 0 and below 50000.

  The printed precondition is a conjunction of sixteen "all entries satisfy" tests: fourteen compare an entry's absolute
  value with plus infinity (true exactly of the real numbers among the extended reals), two compare an index word with
  0 and with 50000 as signed integers.
-/
import proofs.«420450_j53833120088741_2_alg».proof.Pre_finite_inputs
import proofs.«420450_j53833120088741_2_alg».proof.Proof.Spec
import Idealize.ShloMosaic.Lib.ReduceAll
import Idealize.ShloMosaic.Lib.StableHlo.Predicate
import Idealize.ShloMosaic.Lib.ValueIdx

noncomputable section

namespace Cert.PreDecode

open Cert.Pre_finite_inputs Cert.Mp Idealize.ShloMosaic

/-- The scalar shape has one index. -/
private instance : Subsingleton S_.Idx := ⟨fun a b => funext fun d => d.elim0⟩

/-- The pattern 0x7F800000 denotes plus infinity. -/
private theorem inf_eq_top : Ideal.ofBits .f32 0x7F800000#32 = (⊤ : EReal) := by simp [Ideal.ofBits, Ideal.ieee]

/-- An extended real whose absolute value max(x, -x) lies strictly below plus infinity is a real number: at plus
    infinity the maximum is x itself, at minus infinity it is -x, and both are plus infinity. -/
private theorem isReal_of_abs_lt_top (x : EReal) (h : max x (-x) < ⊤) : IsReal x := by
  induction x using EReal.rec with
  | bot => exact absurd h (by simp)
  | coe r => exact ⟨r, rfl⟩
  | top => exact absurd h (by simp)

/-- One entry of a float test: the comparison |x| < +inf came out 1, so x is a real number. -/
private theorem elem_real (x : Ideal .f32)
    (h : FloatOps.cmpf .olt (FloatOps.hostAbsf x) (FloatOps.ofBits (F := Ideal) .f32 0x7F800000#32) = 1#1) : IsReal x := by
  have h' : Ideal.cmp .olt (max (x : EReal) (-(x : EReal))) (Ideal.ofBits .f32 0x7F800000#32) = 1#1 := h
  rw [inf_eq_top] at h'
  unfold Ideal.cmp at h'
  rw [StableHlo.Predicate.ofBool_eq_one_iff, decide_eq_true_eq] at h'
  exact isReal_of_abs_lt_top x h'

/-- One float test, whole: "all entries of |x| lie below the broadcast plus infinity" came out 1, so every entry of x is
    a real number. -/
private theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant (F := Ideal) S_ .f32 0x7F800000#32)))
          (constantI S_ 1 1#1) hr h0 ValueIdx.ix0 = 1#1) (i : s.Idx) : IsReal (x i) :=
  elem_real (x i) (Host.reduce_andi_all _ _ hr h0 _ e i)

/-- The two index tests, whole: "all words are at least the broadcast 0" and "all words are below the broadcast 50000",
    signed, came out 1, so every word read as a signed integer lies in [0, 50000). -/
private theorem all_range {s : Shape} {axes : List (Fin s.rank)} (x : IVec s 32)
    (hb : S_.BroadcastsInDim s (![] : Fin 0 → Fin s.rank)) (hr : s.ReducesTo axes S_) (h0 : 0 < S_.numel)
    (e0 : Host.reduce IntOp.andi (cmpi .sge x (broadcastInDim s ![] hb (constantI S_ 32 0#32)))
          (constantI S_ 1 1#1) hr h0 ValueIdx.ix0 = 1#1)
    (e1 : Host.reduce IntOp.andi (cmpi .slt x (broadcastInDim s ![] hb (constantI S_ 32 50000#32)))
          (constantI S_ 1 1#1) hr h0 ValueIdx.ix0 = 1#1) (i : s.Idx) : 0 ≤ (x i).toInt ∧ (x i).toInt < 50000 := by
  have a0 : IntOp.cmpi .sge (x i) 0#32 = 1#1 := Host.reduce_andi_all _ _ hr h0 _ e0 i
  have a1 : IntOp.cmpi .slt (x i) 50000#32 = 1#1 := Host.reduce_andi_all _ _ hr h0 _ e1 i
  rw [IntOp.cmpi_sge] at a0
  rw [IntOp.cmpi_slt] at a1
  have z : (0#32 : BitVec 32).toInt = 0 := by decide
  have t : (50000#32 : BitVec 32).toInt = 50000 := by decide
  rw [z] at a0
  rw [t] at a1
  exact ⟨a0, a1⟩

theorem decode [hF : Cert.Pre_finite_inputs.Facts]
    (x0 : FVec Ideal S50000x96 .f32) (x1 : FVec Ideal S800000x96 .f32) (x2 : IVec S2x800000 32)
    (x3 : FVec Ideal S288x96 .f32) (x4 : FVec Ideal S288 .f32) (x5 : FVec Ideal S192x96 .f32) (x6 : FVec Ideal S192 .f32)
    (x7 : FVec Ideal S96x96 .f32) (x8 : FVec Ideal S96 .f32) (x9 : FVec Ideal S96x96 .f32)
    (x10 x11 x12 x13 x14 : FVec Ideal S96 .f32)
    (h : Cert.Pre_finite_inputs.fn (F := Ideal) x0 x1 x2 x3 x4 x5 x6 x7 x8 x9 x10 x11 x12 x13 x14 = fun _ => 1#1) :
    (∀ i, IsReal (x0 i)) ∧ (∀ i, IsReal (x1 i)) ∧ (∀ i, 0 ≤ (x2 i).toInt ∧ (x2 i).toInt < 50000)
      ∧ (∀ i, IsReal (x3 i)) ∧ (∀ i, IsReal (x4 i)) ∧ (∀ i, IsReal (x5 i)) ∧ (∀ i, IsReal (x6 i))
      ∧ (∀ i, IsReal (x7 i)) ∧ (∀ i, IsReal (x8 i)) ∧ (∀ i, IsReal (x9 i)) ∧ (∀ i, IsReal (x10 i))
      ∧ (∀ i, IsReal (x11 i)) ∧ (∀ i, IsReal (x12 i)) ∧ (∀ i, IsReal (x13 i)) ∧ (∀ i, IsReal (x14 i)) := by
  have e := congrFun h ValueIdx.ix0
  dsimp only [fn, fn_part1, fn_part2, fn_part3, fn_part4] at e
  dsimp only [Idealize.ShloMosaic.andi] at e
  simp only [IntOp.andi_eq_one] at e
  obtain ⟨⟨⟨⟨⟨⟨⟨⟨⟨⟨⟨⟨⟨⟨⟨e0, e1⟩, e3⟩, e4⟩, e5⟩, e6⟩, e7⟩, e8⟩, e9⟩, e10⟩, e11⟩, e12⟩, e13⟩, e14⟩, ege⟩, elt⟩ := e
  exact ⟨all_real x0 _ _ _ e0, all_real x1 _ _ _ e1, all_range x2 _ _ _ ege elt, all_real x3 _ _ _ e3,
    all_real x4 _ _ _ e4, all_real x5 _ _ _ e5, all_real x6 _ _ _ e6, all_real x7 _ _ _ e7, all_real x8 _ _ _ e8,
    all_real x9 _ _ _ e9, all_real x10 _ _ _ e10, all_real x11 _ _ _ e11, all_real x12 _ _ _ e12,
    all_real x13 _ _ _ e13, all_real x14 _ _ _ e14⟩

end Cert.PreDecode

end
-- ==== Proof.KDefs.lean ====
/-
  The idealized kernel's argument arrays at their literal types, and what is assumed of them: every float entry a real
  number, every index word a row of the 50000-row node tables.
-/
import proofs.«420450_j53833120088741_2_alg».proof.Proof.Gen.KernelIdeal.Frame
import proofs.«420450_j53833120088741_2_alg».proof.Proof.Spec

set_option maxRecDepth 16384

noncomputable section

namespace Cert.KernelIdeal.Val

open Cert.KernelIdeal Cert.KernelIdeal.Gen Cert.Mp
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-- The fifteen argument arrays as launched. -/
abbrev a0 (c : Dev nD) : S50000x96.Idx → EReal := m ((c.tc : Thread nD τ).loc main_arg0)
abbrev a1 (c : Dev nD) : S800000x96.Idx → EReal := m ((c.tc : Thread nD τ).loc main_arg1)
abbrev a2 (c : Dev nD) : S2x800000.Idx → BitVec 32 := m ((c.tc : Thread nD τ).loc main_arg2)
abbrev a3 (c : Dev nD) : S288x96.Idx → EReal := m ((c.tc : Thread nD τ).loc main_arg3)
abbrev a4 (c : Dev nD) : S288.Idx → EReal := m ((c.tc : Thread nD τ).loc main_arg4)
abbrev a5 (c : Dev nD) : S192x96.Idx → EReal := m ((c.tc : Thread nD τ).loc main_arg5)
abbrev a6 (c : Dev nD) : S192.Idx → EReal := m ((c.tc : Thread nD τ).loc main_arg6)
abbrev a7 (c : Dev nD) : S96x96.Idx → EReal := m ((c.tc : Thread nD τ).loc main_arg7)
abbrev a8 (c : Dev nD) : S96.Idx → EReal := m ((c.tc : Thread nD τ).loc main_arg8)
abbrev a9 (c : Dev nD) : S96x96.Idx → EReal := m ((c.tc : Thread nD τ).loc main_arg9)
abbrev a10 (c : Dev nD) : S96.Idx → EReal := m ((c.tc : Thread nD τ).loc main_arg10)
abbrev a11 (c : Dev nD) : S96.Idx → EReal := m ((c.tc : Thread nD τ).loc main_arg11)
abbrev a12 (c : Dev nD) : S96.Idx → EReal := m ((c.tc : Thread nD τ).loc main_arg12)
abbrev a13 (c : Dev nD) : S96.Idx → EReal := m ((c.tc : Thread nD τ).loc main_arg13)
abbrev a14 (c : Dev nD) : S96.Idx → EReal := m ((c.tc : Thread nD τ).loc main_arg14)

/-- What the precondition says of one core's argument arrays. -/
structure Ok (c : Dev nD) : Prop where
  r0 : ∀ i, IsReal (a0 m c i)
  r1 : ∀ i, IsReal (a1 m c i)
  idx : ∀ i, 0 ≤ (a2 m c i).toInt ∧ (a2 m c i).toInt < 50000
  r3 : ∀ i, IsReal (a3 m c i)
  r4 : ∀ i, IsReal (a4 m c i)
  r5 : ∀ i, IsReal (a5 m c i)
  r6 : ∀ i, IsReal (a6 m c i)
  r7 : ∀ i, IsReal (a7 m c i)
  r8 : ∀ i, IsReal (a8 m c i)
  r9 : ∀ i, IsReal (a9 m c i)
  r10 : ∀ i, IsReal (a10 m c i)
  r11 : ∀ i, IsReal (a11 m c i)
  r12 : ∀ i, IsReal (a12 m c i)
  r13 : ∀ i, IsReal (a13 m c i)
  r14 : ∀ i, IsReal (a14 m c i)

/-- The spec's pieces at one core's argument arrays. -/
abbrev sQry (c : Dev nD) := qry (cur2 (a0 m c)) (cur2 (a3 m c)) (cur1 (a4 m c))
abbrev sKey (c : Dev nD) := key (cur2 (a0 m c)) (cur2 (a3 m c)) (cur1 (a4 m c))
abbrev sVal (c : Dev nD) := val (cur2 (a0 m c)) (cur2 (a3 m c)) (cur1 (a4 m c))
abbrev sMsg (c : Dev nD) := msg (cur2 (a0 m c)) (cur2 (a1 m c)) (rdOf (a2 m c)) (rsOf (a2 m c)) (cur2 (a3 m c)) (cur1 (a4 m c)) (cur2 (a5 m c)) (cur1 (a6 m c))
abbrev sAgg (c : Dev nD) := agg (cur2 (a0 m c)) (rsOf (a2 m c)) (intoOf (a2 m c)) (cur2 (a3 m c)) (cur1 (a4 m c))
abbrev sEagg (c : Dev nD) := eagg (cur2 (a0 m c)) (cur2 (a1 m c)) (rdOf (a2 m c)) (rsOf (a2 m c)) (intoOf (a2 m c)) (cur2 (a3 m c)) (cur1 (a4 m c)) (cur2 (a5 m c)) (cur1 (a6 m c))
abbrev sNode (c : Dev nD) := layerNode (a0 m c) (a1 m c) (a2 m c) (a3 m c) (a4 m c) (a5 m c) (a6 m c) (a7 m c) (a8 m c) (a9 m c) (a10 m c) (a11 m c) (a12 m c)
abbrev sEdge (c : Dev nD) := layerEdge (a0 m c) (a1 m c) (a2 m c) (a3 m c) (a4 m c) (a5 m c) (a6 m c) (a13 m c) (a14 m c)

end Cert.KernelIdeal.Val

end
-- ==== Proof.Region2.lean ====
/-
  The third region's result table, entry by entry.

  The region walks the 50000 node rows in ten blocks of 5000. For a node row it sends the summed messages through one
  dense map (a three-pass product with a transposed 96 × 96 weight table, plus a bias row), adds the summed values,
  sends the total through a second dense map, adds the node's own row and normalises.
-/
import proofs.«420450_j53833120088741_2_alg».proof.Proof.Gen.KernelIdeal.Frame
import proofs.«420450_j53833120088741_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Mp
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The region's arrays as it finds them. -/
abbrev r2agg (c : Dev nD) : S50000x96.Idx → EReal := V c (Pipeline.arrRef spec2 0)
abbrev r2eagg (c : Dev nD) : S50000x96.Idx → EReal := V c (Pipeline.arrRef spec2 1)
abbrev r2x (c : Dev nD) : S50000x96.Idx → EReal := V c (Pipeline.arrRef spec2 2)
abbrev r2clw (c : Dev nD) : S96x96.Idx → EReal := V c (Pipeline.arrRef spec2 3)
abbrev r2clb (c : Dev nD) : S1x96.Idx → EReal := V c (Pipeline.arrRef spec2 4)
abbrev r2nlw (c : Dev nD) : S96x96.Idx → EReal := V c (Pipeline.arrRef spec2 5)
abbrev r2nlb (c : Dev nD) : S1x96.Idx → EReal := V c (Pipeline.arrRef spec2 6)
abbrev r2g (c : Dev nD) : S1x96.Idx → EReal := V c (Pipeline.arrRef spec2 7)
abbrev r2b (c : Dev nD) : S1x96.Idx → EReal := V c (Pipeline.arrRef spec2 8)

/-- The two sums joined, and the node's new row before it is normalised, from the region's arrays. -/
def r2joined (c : Dev nD) (n : Fin 50000) (k : Fin 96) : EReal :=
  r2agg V c (ix2 n k)
    + affine (fun k' => r2eagg V c (ix2 n k')) (fun j k' => r2clw V c (ix2 k' j)) (fun j => r2clb V c (ix2 (0 : Fin 1) j)) k
def r2node (c : Dev nD) (n : Fin 50000) (j : Fin 96) : EReal :=
  r2x V c (ix2 n j) + affine (r2joined V c n) (fun j k => r2nlw V c (ix2 k j)) (fun j => r2nlb V c (ix2 (0 : Fin 1) j)) j

/-- The region's one contraction: rows of a 5000 × 96 block against columns of a 96 × 96 table. -/
private abbrev rowsByTable := dot_S5000x96_S96x96_S5000x96_1_0_0_1_n_n

private theorem rowsByTable_lhs_0 (i : S5000x96.Idx) (k : dot_S5000x96_S96x96_S5000x96_1_0_0_1_n_n.contr.Idx) :
    (dot_S5000x96_S96x96_S5000x96_1_0_0_1_n_n.lhsIdx i k 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
private theorem rowsByTable_lhs_1 (i : S5000x96.Idx) (k : dot_S5000x96_S96x96_S5000x96_1_0_0_1_n_n.contr.Idx) :
    (dot_S5000x96_S96x96_S5000x96_1_0_0_1_n_n.lhsIdx i k 1).val = (k ⟨0, by decide⟩).val :=
  dot_S5000x96_S96x96_S5000x96_1_0_0_1_n_n.lhsIdx_val_of_single rfl i k
private theorem rowsByTable_rhs_0 (i : S5000x96.Idx) (k : dot_S5000x96_S96x96_S5000x96_1_0_0_1_n_n.contr.Idx) :
    (dot_S5000x96_S96x96_S5000x96_1_0_0_1_n_n.rhsIdx i k 0).val = (k ⟨0, by decide⟩).val :=
  dot_S5000x96_S96x96_S5000x96_1_0_0_1_n_n.rhsIdx_val_of_single rfl i k
private theorem rowsByTable_rhs_1 (i : S5000x96.Idx) (k : dot_S5000x96_S96x96_S5000x96_1_0_0_1_n_n.contr.Idx) :
    (dot_S5000x96_S96x96_S5000x96_1_0_0_1_n_n.rhsIdx i k 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- A product into the zero table, at an entry: row `p` of the block against column `q` of the table. -/
private theorem prod_apply {φ₁ φ₂ : FTy} (a : FVec Ideal S5000x96 φ₁) (w : FVec Ideal S96x96 φ₂) (p : Fin 5000) (q : Fin 96) :
    matmul dot_S5000x96_S96x96_S5000x96_1_0_0_1_n_n none a w (constant S5000x96 .f32 0x00000000#32) (ix2 p q)
      = ∑ k : Fin 96, a (ix2 p k) * w (ix2 k q) := by
  refine (Ideal.matmul_constant_zero_apply dot_S5000x96_S96x96_S5000x96_1_0_0_1_n_n none a w (ix2 p q)).trans ?_
  rw [← Equiv.sum_comp (ValueIdx.contrEquiv1 dot_S5000x96_S96x96_S5000x96_1_0_0_1_n_n 96 rfl rfl).symm]
  refine Finset.sum_congr rfl fun k _ => ?_
  have hk := ValueIdx.contrEquiv1_symm_val dot_S5000x96_S96x96_S5000x96_1_0_0_1_n_n 96 rfl rfl k
  have el : dot_S5000x96_S96x96_S5000x96_1_0_0_1_n_n.lhsIdx (ix2 p q) ((ValueIdx.contrEquiv1 dot_S5000x96_S96x96_S5000x96_1_0_0_1_n_n 96 rfl rfl).symm k) = ix2 p k := funext fun a => Fin.ext (by
    match a with
    | ⟨0, _⟩ => exact rowsByTable_lhs_0 _ _
    | ⟨1, _⟩ => exact (rowsByTable_lhs_1 _ _).trans hk)
  have er : dot_S5000x96_S96x96_S5000x96_1_0_0_1_n_n.rhsIdx (ix2 p q) ((ValueIdx.contrEquiv1 dot_S5000x96_S96x96_S5000x96_1_0_0_1_n_n 96 rfl rfl).symm k) = ix2 k q := funext fun a => Fin.ext (by
    match a with
    | ⟨0, _⟩ => exact (rowsByTable_rhs_0 _ _).trans hk
    | ⟨1, _⟩ => exact rowsByTable_rhs_1 _ _)
  rw [el, er]

/-- One product computed in three passes (the operands; the block against what is left of the table after the table is
    taken away; what is left of the block against the table). -/
private def pass3 (a : FVec Ideal S5000x96 .f32) (w : FVec Ideal S96x96 .f32) : FVec Ideal S5000x96 .f32 :=
  addf (addf
      (matmul dot_S5000x96_S96x96_S5000x96_1_0_0_1_n_n none (truncf .bf16 a bitsLt_bf16_f32) (truncf .bf16 w bitsLt_bf16_f32) (constant S5000x96 .f32 0x00000000#32))
      (matmul dot_S5000x96_S96x96_S5000x96_1_0_0_1_n_n none (truncf .bf16 a bitsLt_bf16_f32) (truncf .bf16 (subf w w) bitsLt_bf16_f32) (constant S5000x96 .f32 0x00000000#32)))
    (matmul dot_S5000x96_S96x96_S5000x96_1_0_0_1_n_n none (truncf .bf16 (subf a a) bitsLt_bf16_f32) (truncf .bf16 w bitsLt_bf16_f32) (constant S5000x96 .f32 0x00000000#32))

/-- On real numbers the three passes are the one product. -/
private theorem pass3_apply (a : FVec Ideal S5000x96 .f32) (w : FVec Ideal S96x96 .f32) (ha : ∀ i, IsReal (a i)) (hw : ∀ i, IsReal (w i))
    (p : Fin 5000) (q : Fin 96) : pass3 a w (ix2 p q) = ∑ k : Fin 96, a (ix2 p k) * w (ix2 k q) := by
  unfold pass3
  rw [addf_apply, addf_apply, prod_apply, prod_apply, prod_apply]
  exact split3 (fun k => a (ix2 p k)) (fun k => w (ix2 k q)) (fun k => ha _) (fun k => hw _)

/-- The first value the body computes: the summed values plus the summed messages' dense map, through the second product. -/
private theorem pay2_shape (x0 x1 : Vec Ideal S5000x96 .f32) (x3 : Vec Ideal S96x96 .f32) (x4 : Vec Ideal S1x96 .f32) (x5 : Vec Ideal S96x96 .f32) :
    k2_pay2 (F := Ideal) x0 x1 x3 x4 x5
      = pass3 (addf x0 (addf (pass3 x1 x3) (broadcastTo S5000x96 x4 broadcasts_S1x96_S5000x96))) x5 := by
  unfold k2_pay2
  simp only [shapeCast_self]
  rfl

/-- The joined sums of a block's row, from the blocks the body loads. -/
private def blkJoined (x0 x1 : Vec Ideal S5000x96 .f32) (x3 : Vec Ideal S96x96 .f32) (x4 : Vec Ideal S1x96 .f32) (p : Fin 5000) (k : Fin 96) : EReal :=
  x0 (ix2 p k) + affine (fun k' => x1 (ix2 p k')) (fun j k' => x3 (ix2 k' j)) (fun j => x4 (ix2 (0 : Fin 1) j)) k

private theorem joined_apply (x0 x1 : Vec Ideal S5000x96 .f32) (x3 : Vec Ideal S96x96 .f32) (x4 : Vec Ideal S1x96 .f32)
    (h1 : ∀ i, IsReal (x1 i)) (h3 : ∀ i, IsReal (x3 i)) (p : Fin 5000) (k : Fin 96) :
    addf x0 (addf (pass3 x1 x3) (broadcastTo S5000x96 x4 broadcasts_S1x96_S5000x96)) (ix2 p k) = blkJoined x0 x1 x3 x4 p k := by
  rw [addf_apply, addf_apply, pass3_apply x1 x3 h1 h3, broadcastTo_1b_ab_apply]
  rfl

private theorem blkJoined_isReal (x0 x1 : Vec Ideal S5000x96 .f32) (x3 : Vec Ideal S96x96 .f32) (x4 : Vec Ideal S1x96 .f32)
    (h0 : ∀ i, IsReal (x0 i)) (h1 : ∀ i, IsReal (x1 i)) (h3 : ∀ i, IsReal (x3 i)) (h4 : ∀ i, IsReal (x4 i)) (p : Fin 5000) (k : Fin 96) :
    IsReal (blkJoined x0 x1 x3 x4 p k) :=
  (h0 _).add (affine_isReal (fun _ => h1 _) (fun _ _ => h3 _) (fun _ => h4 _) k)

/-- That value at an entry: the joined sums' row against a column of the second table. -/
private theorem pay2_apply (x0 x1 : Vec Ideal S5000x96 .f32) (x3 : Vec Ideal S96x96 .f32) (x4 : Vec Ideal S1x96 .f32) (x5 : Vec Ideal S96x96 .f32)
    (h0 : ∀ i, IsReal (x0 i)) (h1 : ∀ i, IsReal (x1 i)) (h3 : ∀ i, IsReal (x3 i)) (h4 : ∀ i, IsReal (x4 i)) (h5 : ∀ i, IsReal (x5 i))
    (p : Fin 5000) (q : Fin 96) :
    k2_pay2 (F := Ideal) x0 x1 x3 x4 x5 (ix2 p q) = ∑ k : Fin 96, blkJoined x0 x1 x3 x4 p k * x5 (ix2 k q) := by
  rw [pay2_shape]
  have hs : ∀ i, IsReal (addf x0 (addf (pass3 x1 x3) (broadcastTo S5000x96 x4 broadcasts_S1x96_S5000x96)) i) := fun i => by
    obtain ⟨a, b, rfl⟩ : ∃ (a : Fin 5000) (b : Fin 96), i = ix2 a b := ⟨i 0, i 1, eq_ix2 i⟩
    rw [joined_apply x0 x1 x3 x4 h1 h3]
    exact blkJoined_isReal x0 x1 x3 x4 h0 h1 h3 h4 a b
  rw [pass3_apply _ x5 hs h5]
  exact Finset.sum_congr rfl fun k _ => by rw [joined_apply x0 x1 x3 x4 h1 h3]

/-- A row's sum, as the body takes it: over the 96 entries of row `p`. -/
private theorem rowsum_apply (v : FVec Ideal S5000x96 .f32) (p : Fin 5000) :
    multiReduction .add [1] S5000 v 0x00000000#32 reduces_S5000x96_S5000 (.inl rfl) rfl (ix1 p) = ∑ k : Fin 96, v (ix2 p k) := by
  refine (Ideal.multiReduction_add_single v 0x00000000#32 reduces_S5000x96_S5000 (.inl rfl) rfl (ix1 p)).trans ?_
  refine Finset.sum_congr rfl fun k _ => congrArg v (funext fun a => Fin.ext ?_)
  match a with
  | ⟨0, _⟩ => rfl
  | ⟨1, _⟩ => rfl

/-- A list of 5000 numbers stood up as a column reads, in row `p`, the list's `p`-th. -/
private theorem col_apply {α : Type} (u : S5000.Idx → α) (p : Fin 5000) :
    shapeCast S5000x1 u shapeCasts_S5000_S5000x1 (ix2 p (0 : Fin 1)) = u (ix1 p) :=
  shapeCast_apply u shapeCasts_S5000_S5000x1 _ _ (by
    rw [Shape.rowMajor_val_one, Shape.rowMajor_val_two]
    show p.val = p.val * 1 + 0
    omega)

/-- A column spread over the 96 entries of each row reads, at `(p, q)`, the column's `p`-th. -/
private theorem spread_apply {α : Type} (u : S5000x1.Idx → α) (p : Fin 5000) (q : Fin 96) :
    broadcastTo S5000x96 u broadcasts_S5000x1_S5000x96 (ix2 p q) = u (ix2 p (0 : Fin 1)) := by
  refine broadcastTo_apply u broadcasts_S5000x1_S5000x96 (ix2 p q) (ix2 p (0 : Fin 1)) fun ax => ?_
  match ax with
  | ⟨0, _⟩ => rfl
  | ⟨1, _⟩ => rfl

/-- The column of row means of a block (each row's sum over the float 96). -/
private def rowMean (h : FVec Ideal S5000x96 .f32) : FVec Ideal S5000x1 .f32 :=
  divf (shapeCast S5000x1 (multiReduction .add [1] S5000 h 0x00000000#32 reduces_S5000x96_S5000 (.inl rfl) rfl) shapeCasts_S5000_S5000x1)
    (broadcast S5000x1 (Scalar.ofBits .f32 0x42C00000#32))

private theorem rowMean_apply (h : FVec Ideal S5000x96 .f32) (p : Fin 5000) :
    rowMean h (ix2 p (0 : Fin 1)) = mean (fun k => h (ix2 p k)) := by
  unfold rowMean mean
  rw [divf_apply, col_apply, rowsum_apply]
  rfl

/-- A block with each row's mean taken off. -/
private def centred (h : FVec Ideal S5000x96 .f32) : FVec Ideal S5000x96 .f32 :=
  subf h (broadcastTo S5000x96 (rowMean h) broadcasts_S5000x1_S5000x96)

private theorem centred_apply (h : FVec Ideal S5000x96 .f32) (p : Fin 5000) (k : Fin 96) :
    centred h (ix2 p k) = h (ix2 p k) - mean (fun j => h (ix2 p j)) := by
  unfold centred
  rw [subf_apply, spread_apply, rowMean_apply]

/-- A block's rows normalised: centred, scaled by the reciprocal root of the row's variance plus the small constant,
    then by the gain row, then shifted. -/
private def normRows (h : FVec Ideal S5000x96 .f32) (g b : Vec Ideal S1x96 .f32) : FVec Ideal S5000x96 .f32 :=
  addf (mulf (mulf (centred h)
        (broadcastTo S5000x96 (rsqrt (addf (rowMean (mulf (centred h) (centred h))) (broadcast S5000x1 (Scalar.ofBits .f32 0x3727C5AC#32))))
          broadcasts_S5000x1_S5000x96))
      (broadcastTo S5000x96 g broadcasts_S1x96_S5000x96))
    (broadcastTo S5000x96 b broadcasts_S1x96_S5000x96)

private theorem normRows_apply (h : FVec Ideal S5000x96 .f32) (g b : Vec Ideal S1x96 .f32) (p : Fin 5000) (q : Fin 96) :
    normRows h g b (ix2 p q)
      = lnorm (fun j => h (ix2 p j)) (fun j => g (ix2 (0 : Fin 1) j)) (fun j => b (ix2 (0 : Fin 1) j)) q := by
  unfold normRows
  rw [addf_apply, mulf_apply, mulf_apply, centred_apply, spread_apply, broadcastTo_1b_ab_apply, broadcastTo_1b_ab_apply]
  show _ * Ideal.rsqrt (rowMean _ (ix2 p (0 : Fin 1)) + Ideal.ofBits .f32 0x3727C5AC#32) * _ + _ = _
  rw [rowMean_apply]
  have hv : (fun k : Fin 96 => mulf (centred h) (centred h) (ix2 p k))
      = fun k => (h (ix2 p k) - mean (fun j => h (ix2 p j))) * (h (ix2 p k) - mean (fun j => h (ix2 p j))) :=
    funext fun k => by rw [mulf_apply, centred_apply]
  rw [hv]
  rfl

/-- The value the body stores: the node's own row added to the product plus its bias, then the rows normalised. -/
private theorem pay1_shape (x2 : Vec Ideal S5000x96 .f32) (y : FVec Ideal S5000x96 .f32) (x6 x7 x8 : Vec Ideal S1x96 .f32) :
    k2_pay1 (F := Ideal) x2 y x6 x7 x8
      = normRows (addf x2 (addf y (broadcastTo S5000x96 x6 broadcasts_S1x96_S5000x96))) x7 x8 := by
  unfold k2_pay1
  simp only [shapeCast_self]
  rfl

/-- The stored value at an entry: the row `own + (product + bias)`, normalised. -/
private theorem pay1_apply (x2 : Vec Ideal S5000x96 .f32) (y : FVec Ideal S5000x96 .f32) (x6 x7 x8 : Vec Ideal S1x96 .f32) (p : Fin 5000) (q : Fin 96) :
    k2_pay1 (F := Ideal) x2 y x6 x7 x8 (ix2 p q)
      = lnorm (fun j => x2 (ix2 p j) + (y (ix2 p j) + x6 (ix2 (0 : Fin 1) j))) (fun j => x7 (ix2 (0 : Fin 1) j)) (fun j => x8 (ix2 (0 : Fin 1) j)) q := by
  rw [pay1_shape, normRows_apply]
  have hr : (fun j : Fin 96 => addf x2 (addf y (broadcastTo S5000x96 x6 broadcasts_S1x96_S5000x96)) (ix2 p j))
      = fun j => x2 (ix2 p j) + (y (ix2 p j) + x6 (ix2 (0 : Fin 1) j)) :=
    funext fun j => by rw [addf_apply, addf_apply, broadcastTo_1b_ab_apply]
  rw [hr]

/-! ## From the blocks to the table -/

private theorem zeroOffsets : (![0, 0] : Fin 2 → Nat) = fun _ => 0 := funext fun a => by fin_cases a <;> rfl

/-- Where the windows' blocks sit, decided over the ten grid points: the three row windows and the result window take
    block `t` of rows at point `t`; the weight, bias, gain and shift windows are whole at every point. -/
private theorem blockIndex : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0) :=
  (by decide +kernel : ∀ t : Fin grid2.N, _)

private theorem point_lt (t : Fin cfg2.N) : t.val < 10 := lt_of_lt_of_eq t.isLt N_2

/-- Row `p` of block `t` is row `5000 t + p` of the table. -/
private def rowAt (t : Fin cfg2.N) (p : Fin 5000) : Fin 50000 :=
  ⟨t.val * 5000 + p.val, by have := point_lt t; have := p.isLt; omega⟩

/-- The blocks the body loads at point `t`, at their literal shapes. -/
private abbrev aggBlk (c : Dev nD) (t : Fin cfg2.N) : Vec Ideal S5000x96 .f32 := iblk2 V c 0 t
private abbrev eaggBlk (c : Dev nD) (t : Fin cfg2.N) : Vec Ideal S5000x96 .f32 := iblk2 V c 1 t
private abbrev xBlk (c : Dev nD) (t : Fin cfg2.N) : Vec Ideal S5000x96 .f32 := iblk2 V c 2 t
private abbrev clwBlk (c : Dev nD) (t : Fin cfg2.N) : Vec Ideal S96x96 .f32 := iblk2 V c 3 t
private abbrev clbBlk (c : Dev nD) (t : Fin cfg2.N) : Vec Ideal S1x96 .f32 := iblk2 V c 4 t
private abbrev nlwBlk (c : Dev nD) (t : Fin cfg2.N) : Vec Ideal S96x96 .f32 := iblk2 V c 5 t
private abbrev nlbBlk (c : Dev nD) (t : Fin cfg2.N) : Vec Ideal S1x96 .f32 := iblk2 V c 6 t
private abbrev gBlk (c : Dev nD) (t : Fin cfg2.N) : Vec Ideal S1x96 .f32 := iblk2 V c 7 t
private abbrev bBlk (c : Dev nD) (t : Fin cfg2.N) : Vec Ideal S1x96 .f32 := iblk2 V c 8 t

private theorem aggBlk_apply (c : Dev nD) (t : Fin cfg2.N) (p : Fin 5000) (q : Fin 96) :
    aggBlk V c t (ix2 p q) = r2agg V c (ix2 (rowAt t p) q) := by
  obtain ⟨⟨e0, e1⟩, -⟩ := blockIndex t
  show V c (Pipeline.arrRef spec2 0) (((cfg2.win 0).blk t).view.emb (ix2 p q)) = V c (Pipeline.arrRef spec2 0) (ix2 (rowAt t p) q)
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 96 + 1 * q.val = q.val; omega

private theorem eaggBlk_apply (c : Dev nD) (t : Fin cfg2.N) (p : Fin 5000) (q : Fin 96) :
    eaggBlk V c t (ix2 p q) = r2eagg V c (ix2 (rowAt t p) q) := by
  obtain ⟨-, ⟨e0, e1⟩, -⟩ := blockIndex t
  show V c (Pipeline.arrRef spec2 1) (((cfg2.win 1).blk t).view.emb (ix2 p q)) = V c (Pipeline.arrRef spec2 1) (ix2 (rowAt t p) q)
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 96 + 1 * q.val = q.val; omega

private theorem xBlk_apply (c : Dev nD) (t : Fin cfg2.N) (p : Fin 5000) (q : Fin 96) :
    xBlk V c t (ix2 p q) = r2x V c (ix2 (rowAt t p) q) := by
  obtain ⟨-, -, ⟨e0, e1⟩, -⟩ := blockIndex t
  show V c (Pipeline.arrRef spec2 2) (((cfg2.win 2).blk t).view.emb (ix2 p q)) = V c (Pipeline.arrRef spec2 2) (ix2 (rowAt t p) q)
  refine congrArg _ (funext fun a => Fin.ext ?_)
  match a with
  | ⟨0, _⟩ => show win2_2.index t (0 : Fin 2) * 5000 + 1 * p.val = t.val * 5000 + p.val; omega
  | ⟨1, _⟩ => show win2_2.index t (1 : Fin 2) * 96 + 1 * q.val = q.val; omega

private theorem clwBlk_apply (c : Dev nD) (t : Fin cfg2.N) (k j : Fin 96) :
    clwBlk V c t (ix2 k j) = r2clw V c (ix2 k j) := by
  obtain ⟨-, -, -, ⟨e0, e1⟩, -⟩ := blockIndex t
  show V c (Pipeline.arrRef spec2 3) (((cfg2.win 3).blk t).view.emb (ix2 k j)) = V c (Pipeline.arrRef spec2 3) (ix2 k j)
  refine congrArg _ (funext fun a => Fin.ext ?_)
  match a with
  | ⟨0, _⟩ => show win2_3.index t (0 : Fin 2) * 96 + 1 * k.val = k.val; omega
  | ⟨1, _⟩ => show win2_3.index t (1 : Fin 2) * 96 + 1 * j.val = j.val; omega

private theorem clbBlk_apply (c : Dev nD) (t : Fin cfg2.N) (u : Fin 1) (j : Fin 96) :
    clbBlk V c t (ix2 u j) = r2clb V c (ix2 u j) := by
  obtain ⟨-, -, -, -, ⟨e0, e1⟩, -⟩ := blockIndex t
  show V c (Pipeline.arrRef spec2 4) (((cfg2.win 4).blk t).view.emb (ix2 u j)) = V c (Pipeline.arrRef spec2 4) (ix2 u j)
  refine congrArg _ (funext fun a => Fin.ext ?_)
  match a with
  | ⟨0, _⟩ => show win2_4.index t (0 : Fin 2) * 1 + 1 * u.val = u.val; omega
  | ⟨1, _⟩ => show win2_4.index t (1 : Fin 2) * 96 + 1 * j.val = j.val; omega

private theorem nlwBlk_apply (c : Dev nD) (t : Fin cfg2.N) (k j : Fin 96) :
    nlwBlk V c t (ix2 k j) = r2nlw V c (ix2 k j) := by
  obtain ⟨-, -, -, -, -, ⟨e0, e1⟩, -⟩ := blockIndex t
  show V c (Pipeline.arrRef spec2 5) (((cfg2.win 5).blk t).view.emb (ix2 k j)) = V c (Pipeline.arrRef spec2 5) (ix2 k j)
  refine congrArg _ (funext fun a => Fin.ext ?_)
  match a with
  | ⟨0, _⟩ => show win2_5.index t (0 : Fin 2) * 96 + 1 * k.val = k.val; omega
  | ⟨1, _⟩ => show win2_5.index t (1 : Fin 2) * 96 + 1 * j.val = j.val; omega

private theorem nlbBlk_apply (c : Dev nD) (t : Fin cfg2.N) (u : Fin 1) (j : Fin 96) :
    nlbBlk V c t (ix2 u j) = r2nlb V c (ix2 u j) := by
  obtain ⟨-, -, -, -, -, -, ⟨e0, e1⟩, -⟩ := blockIndex t
  show V c (Pipeline.arrRef spec2 6) (((cfg2.win 6).blk t).view.emb (ix2 u j)) = V c (Pipeline.arrRef spec2 6) (ix2 u j)
  refine congrArg _ (funext fun a => Fin.ext ?_)
  match a with
  | ⟨0, _⟩ => show win2_6.index t (0 : Fin 2) * 1 + 1 * u.val = u.val; omega
  | ⟨1, _⟩ => show win2_6.index t (1 : Fin 2) * 96 + 1 * j.val = j.val; omega

private theorem gBlk_apply (c : Dev nD) (t : Fin cfg2.N) (u : Fin 1) (j : Fin 96) :
    gBlk V c t (ix2 u j) = r2g V c (ix2 u j) := by
  obtain ⟨-, -, -, -, -, -, -, ⟨e0, e1⟩, -⟩ := blockIndex t
  show V c (Pipeline.arrRef spec2 7) (((cfg2.win 7).blk t).view.emb (ix2 u j)) = V c (Pipeline.arrRef spec2 7) (ix2 u j)
  refine congrArg _ (funext fun a => Fin.ext ?_)
  match a with
  | ⟨0, _⟩ => show win2_7.index t (0 : Fin 2) * 1 + 1 * u.val = u.val; omega
  | ⟨1, _⟩ => show win2_7.index t (1 : Fin 2) * 96 + 1 * j.val = j.val; omega

private theorem bBlk_apply (c : Dev nD) (t : Fin cfg2.N) (u : Fin 1) (j : Fin 96) :
    bBlk V c t (ix2 u j) = r2b V c (ix2 u j) := by
  obtain ⟨-, -, -, -, -, -, -, -, ⟨e0, e1⟩, -⟩ := blockIndex t
  show V c (Pipeline.arrRef spec2 8) (((cfg2.win 8).blk t).view.emb (ix2 u j)) = V c (Pipeline.arrRef spec2 8) (ix2 u j)
  refine congrArg _ (funext fun a => Fin.ext ?_)
  match a with
  | ⟨0, _⟩ => show win2_8.index t (0 : Fin 2) * 1 + 1 * u.val = u.val; omega
  | ⟨1, _⟩ => show win2_8.index t (1 : Fin 2) * 96 + 1 * j.val = j.val; omega

/-- The joined sums of a block's row are the table's, at the block's row. -/
private theorem blkJoined_eq (c : Dev nD) (t : Fin cfg2.N) (p : Fin 5000) (k : Fin 96) :
    blkJoined (aggBlk V c t) (eaggBlk V c t) (clwBlk V c t) (clbBlk V c t) p k = r2joined V c (rowAt t p) k := by
  unfold blkJoined r2joined affine
  beta_reduce
  rw [aggBlk_apply, clbBlk_apply]
  exact congrArg (_ + ·) (congrArg (· + _) (Finset.sum_congr rfl fun k' _ => by rw [eaggBlk_apply, clwBlk_apply]))

/-- What point `t` computes at entry `(p, q)` of its block: the normalised row `5000 t + p` of the table. -/
private theorem block_value (c : Dev nD) (hagg : ∀ i, IsReal (r2agg V c i)) (heagg : ∀ i, IsReal (r2eagg V c i))
    (hclw : ∀ i, IsReal (r2clw V c i)) (hclb : ∀ i, IsReal (r2clb V c i)) (hnlw : ∀ i, IsReal (r2nlw V c i))
    (t : Fin cfg2.N) (p : Fin 5000) (q : Fin 96) :
    k2_pay1 (F := Ideal) (xBlk V c t)
        (k2_pay2 (F := Ideal) (aggBlk V c t) (eaggBlk V c t) (clwBlk V c t) (clbBlk V c t) (nlwBlk V c t))
        (nlbBlk V c t) (gBlk V c t) (bBlk V c t) (ix2 p q)
      = lnorm (r2node V c (rowAt t p)) (fun j => r2g V c (ix2 (0 : Fin 1) j)) (fun j => r2b V c (ix2 (0 : Fin 1) j)) q := by
  rw [pay1_apply]
  have hrow : (fun j : Fin 96 => xBlk V c t (ix2 p j)
        + (k2_pay2 (F := Ideal) (aggBlk V c t) (eaggBlk V c t) (clwBlk V c t) (clbBlk V c t) (nlwBlk V c t) (ix2 p j)
          + nlbBlk V c t (ix2 (0 : Fin 1) j)))
      = r2node V c (rowAt t p) := funext fun j => by
    rw [pay2_apply (aggBlk V c t) (eaggBlk V c t) (clwBlk V c t) (clbBlk V c t) (nlwBlk V c t) (fun i => hagg _) (fun i => heagg _) (fun i => hclw _) (fun i => hclb _) (fun i => hnlw _),
      xBlk_apply, nlbBlk_apply]
    unfold r2node affine
    beta_reduce
    exact congrArg (_ + ·) (congrArg (· + _) (Finset.sum_congr rfl fun k _ => by rw [blkJoined_eq, nlwBlk_apply]))
  have hg : (fun j : Fin 96 => gBlk V c t (ix2 (0 : Fin 1) j)) = fun j => r2g V c (ix2 (0 : Fin 1) j) :=
    funext fun j => gBlk_apply V c t 0 j
  have hb : (fun j : Fin 96 => bBlk V c t (ix2 (0 : Fin 1) j)) = fun j => r2b V c (ix2 (0 : Fin 1) j) :=
    funext fun j => bBlk_apply V c t 0 j
  rw [hrow, hg, hb]

/-- The node result table, whole: every row of the new node rows, normalised. -/
private def r2out (c : Dev nD) : S50000x96.Idx → EReal := fun i =>
  lnorm (r2node V c (i 0)) (fun j => r2g V c (ix2 (0 : Fin 1) j)) (fun j => r2b V c (ix2 (0 : Fin 1) j)) (i 1)

private theorem r2out_apply (c : Dev nD) (i : S50000x96.Idx) (n : Fin 50000) (q : Fin 96) (hn : (i 0).val = n.val) (hq : (i 1).val = q.val) :
    r2out V c i = lnorm (r2node V c n) (fun j => r2g V c (ix2 (0 : Fin 1) j)) (fun j => r2b V c (ix2 (0 : Fin 1) j)) q := by
  obtain ⟨a, b, rfl⟩ : ∃ (a : Fin 50000) (b : Fin 96), i = ix2 a b := ⟨i 0, i 1, eq_ix2 i⟩
  obtain rfl : a = n := Fin.ext hn
  obtain rfl : b = q := Fin.ext hq
  rfl

/-- What point `t` writes back is block `t` of that table. -/
private theorem flushed_eq (c : Dev nD) (hagg : ∀ i, IsReal (r2agg V c i)) (heagg : ∀ i, IsReal (r2eagg V c i))
    (hclw : ∀ i, IsReal (r2clw V c i)) (hclb : ∀ i, IsReal (r2clb V c i)) (hnlw : ∀ i, IsReal (r2nlw V c i))
    (t : Fin cfg2.N) :
    (dat2 (F := Ideal) V c).flushed 9 t = ((cfg2.win 9).blk t).view.read (Elt Ideal) (r2out V c) := by
  show (cfg2.win 9).cut (grid2.coords t) ((dat2 (F := Ideal) V c).after 9 t) = _
  rw [after2_9]
  unfold out2_9
  rw [View.canon_unit_zero zeroOffsets]
  simp only [View.ld_unit_zero (S := S5000x96) zeroOffsets, View.ld_unit_zero (S := S96x96) zeroOffsets, View.ld_unit_zero (S := S1x96) zeroOffsets]
  funext j
  obtain ⟨p, q, rfl⟩ : ∃ (p : Fin 5000) (q : Fin 96), j = ix2 p q := ⟨j 0, j 1, eq_ix2 j⟩
  refine (block_value V c hagg heagg hclw hclb hnlw t p q).trans ?_
  obtain ⟨-, -, -, -, -, -, -, -, -, ⟨e0, e1⟩⟩ := blockIndex t
  refine (r2out_apply V c (((cfg2.win 9).blk t).view.emb (ix2 p q)) (rowAt t p) q ?_ ?_).symm
  · show win2_9.index t (0 : Fin 2) * 5000 + 1 * p.val = t.val * 5000 + p.val; omega
  · show win2_9.index t (1 : Fin 2) * 96 + 1 * q.val = q.val; omega

/-- Every entry of the table is in the block of the point its row falls to: row `r` in block `r / 5000`. -/
private theorem covered (i : S50000x96.Idx) :
    ∃ t : Fin cfg2.N, (cfg2.win 9).flush t = true ∧ i ∈ ((cfg2.win 9).blk t).view.set := by
  have h0 : (i 0).val < 50000 := (i 0).isLt
  have h1 : (i 1).val < 96 := (i 1).isLt
  obtain ⟨t, ht⟩ : ∃ t : Fin cfg2.N, t.val = (i 0).val / 5000 :=
    ⟨⟨(i 0).val / 5000, by show _ < grid2.N; rw [N_2]; omega⟩, rfl⟩
  obtain ⟨-, -, -, -, -, -, -, -, -, ⟨e0, e1⟩⟩ := blockIndex t
  refine ⟨t, flush2_9 t, ?_⟩
  show i ∈ ((View.whole main_v45).slice (win2_9.rect t)).set
  rw [View.set_slice_whole, Rect.mem_set_unit]
  intro a
  match a with
  | ⟨0, _⟩ =>
    show win2_9.index t (0 : Fin 2) * 5000 ≤ (i 0).val ∧ (i 0).val < win2_9.index t (0 : Fin 2) * 5000 + 5000
    omega
  | ⟨1, _⟩ =>
    show win2_9.index t (1 : Fin 2) * 96 ≤ (i 1).val ∧ (i 1).val < win2_9.index t (1 : Fin 2) * 96 + 96
    omega

/-- So the region leaves that table. -/
private theorem r2final (c : Dev nD) (hagg : ∀ i, IsReal (r2agg V c i)) (heagg : ∀ i, IsReal (r2eagg V c i))
    (hclw : ∀ i, IsReal (r2clw V c i)) (hclb : ∀ i, IsReal (r2clb V c i)) (hnlw : ∀ i, IsReal (r2nlw V c i)) :
    (dat2 (F := Ideal) V c).arrAt 9 cfg2.N = r2out V c :=
  (dat2 (F := Ideal) V c).arrAt_eq_of_cover 9 (r2out V c) (fun t _ => flushed_eq V c hagg heagg hclw hclb hnlw t) covered

/-- The node result table after the region. -/
theorem region2_node (c : Dev nD) (hagg : ∀ i, IsReal (r2agg V c i)) (heagg : ∀ i, IsReal (r2eagg V c i))
    (hclw : ∀ i, IsReal (r2clw V c i)) (hclb : ∀ i, IsReal (r2clb V c i)) (hnlw : ∀ i, IsReal (r2nlw V c i))
    (n : Fin 50000) (q : Fin 96) :
    (dat2 (F := Ideal) V c).arrAt 9 cfg2.N (ix2 n q)
      = lnorm (r2node V c n) (fun j => r2g V c (ix2 (0 : Fin 1) j)) (fun j => r2b V c (ix2 (0 : Fin 1) j)) q := by
  rw [r2final V c hagg heagg hclw hclb hnlw]
  exact r2out_apply V c (ix2 n q) n q rfl rfl

end Cert.KernelIdeal.Val

end
-- ==== Proof.Region1.lean ====
/-
  The second region's two result tables, entry by entry.

  The region walks the 800000 edge rows in a hundred blocks of 8000. For an edge row it forms the two projections of
  the edge's own row (three-pass products with two transposed 96 × 96 weight tables, plus bias rows), multiplies the
  sum of the gathered query and key rows by the first, takes the signed square root, adds the second and rectifies:
  the message. The second result is the edge row plus its message, normalised.
-/
import proofs.«420450_j53833120088741_2_alg».proof.Proof.Gen.KernelIdeal.Frame
import proofs.«420450_j53833120088741_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Mp
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The region's arrays as it finds them. -/
abbrev r1conn (c : Dev nD) : S800000x96.Idx → EReal := V c (Pipeline.arrRef spec1 0)
abbrev r1w1 (c : Dev nD) : S96x96.Idx → EReal := V c (Pipeline.arrRef spec1 1)
abbrev r1w2 (c : Dev nD) : S96x96.Idx → EReal := V c (Pipeline.arrRef spec1 2)
abbrev r1b1 (c : Dev nD) : S1x96.Idx → EReal := V c (Pipeline.arrRef spec1 3)
abbrev r1b2 (c : Dev nD) : S1x96.Idx → EReal := V c (Pipeline.arrRef spec1 4)
abbrev r1qd (c : Dev nD) : S800000x96.Idx → EReal := V c (Pipeline.arrRef spec1 5)
abbrev r1ks (c : Dev nD) : S800000x96.Idx → EReal := V c (Pipeline.arrRef spec1 6)
abbrev r1g (c : Dev nD) : S1x96.Idx → EReal := V c (Pipeline.arrRef spec1 7)
abbrev r1b (c : Dev nD) : S1x96.Idx → EReal := V c (Pipeline.arrRef spec1 8)

/-- An edge's message from the region's arrays. -/
def r1msg (c : Dev nD) (e : Fin 800000) (q : Fin 96) : EReal :=
  act ((r1qd V c (ix2 e q) + r1ks V c (ix2 e q))
        * affine (fun k => r1conn V c (ix2 e k)) (fun j k => r1w1 V c (ix2 k j)) (fun j => r1b1 V c (ix2 (0 : Fin 1) j)) q)
    (affine (fun k => r1conn V c (ix2 e k)) (fun j k => r1w2 V c (ix2 k j)) (fun j => r1b2 V c (ix2 (0 : Fin 1) j)) q)

/-! ## The body's values at an entry of a block -/

/-- The operand entries a product reads for the output entry `(r, c)` at the contraction coordinate `k`: `(r, k)` on the
    left, `(k, c)` on the right; the four coordinates, one by one. -/
private theorem edgeDot_lhs_0 (i : S8000x96.Idx) (k : dot_S8000x96_S96x96_S8000x96_1_0_0_1_n_n.contr.Idx) :
    (dot_S8000x96_S96x96_S8000x96_1_0_0_1_n_n.lhsIdx i k 0).val = (i 0).val := by
  unfold DotDims.lhsIdx
  rw [dif_neg (show ¬(0 : Fin S8000x96.rank) ∈ dot_S8000x96_S96x96_S8000x96_1_0_0_1_n_n.lhsBatch by decide),
    dif_pos (show (0 : Fin S8000x96.rank) ∈ dot_S8000x96_S96x96_S8000x96_1_0_0_1_n_n.lhsNonContracting by decide)]
  rfl
private theorem edgeDot_lhs_1 (i : S8000x96.Idx) (k : dot_S8000x96_S96x96_S8000x96_1_0_0_1_n_n.contr.Idx) :
    (dot_S8000x96_S96x96_S8000x96_1_0_0_1_n_n.lhsIdx i k 1).val = (k ⟨0, by decide⟩).val :=
  dot_S8000x96_S96x96_S8000x96_1_0_0_1_n_n.lhsIdx_val_of_single rfl i k
private theorem edgeDot_rhs_0 (i : S8000x96.Idx) (k : dot_S8000x96_S96x96_S8000x96_1_0_0_1_n_n.contr.Idx) :
    (dot_S8000x96_S96x96_S8000x96_1_0_0_1_n_n.rhsIdx i k 0).val = (k ⟨0, by decide⟩).val :=
  dot_S8000x96_S96x96_S8000x96_1_0_0_1_n_n.rhsIdx_val_of_single rfl i k
private theorem edgeDot_rhs_1 (i : S8000x96.Idx) (k : dot_S8000x96_S96x96_S8000x96_1_0_0_1_n_n.contr.Idx) :
    (dot_S8000x96_S96x96_S8000x96_1_0_0_1_n_n.rhsIdx i k 1).val = (i 1).val := by
  unfold DotDims.rhsIdx
  rw [dif_neg (show ¬(1 : Fin S96x96.rank) ∈ dot_S8000x96_S96x96_S8000x96_1_0_0_1_n_n.rhsBatch by decide),
    dif_pos (show (1 : Fin S96x96.rank) ∈ dot_S8000x96_S96x96_S8000x96_1_0_0_1_n_n.rhsNonContracting by decide)]
  rfl

/-- One of the region's products into the zero table, at an entry: the row of the left operand against the column of the
    right. -/
private theorem edgeMatmul_apply {φ₁ φ₂ : FTy} (a : FVec Ideal S8000x96 φ₁) (w : FVec Ideal S96x96 φ₂) (p : Fin 8000) (q : Fin 96) :
    matmul dot_S8000x96_S96x96_S8000x96_1_0_0_1_n_n none a w (constant S8000x96 .f32 0x00000000#32) (ix2 p q)
      = ∑ k : Fin 96, a (ix2 p k) * w (ix2 k q) := by
  simp only [matmul]
  rw [Ideal.matmul_constant_zero_apply, ← Equiv.sum_comp (ValueIdx.contrEquiv1 dot_S8000x96_S96x96_S8000x96_1_0_0_1_n_n 96 rfl rfl).symm]
  refine Finset.sum_congr rfl fun k _ => ?_
  have hk := ValueIdx.contrEquiv1_symm_val dot_S8000x96_S96x96_S8000x96_1_0_0_1_n_n 96 rfl rfl k
  have el : dot_S8000x96_S96x96_S8000x96_1_0_0_1_n_n.lhsIdx (ix2 p q) ((ValueIdx.contrEquiv1 dot_S8000x96_S96x96_S8000x96_1_0_0_1_n_n 96 rfl rfl).symm k) = ix2 p k := funext fun b => Fin.ext (by
    match b with
    | ⟨0, _⟩ => exact edgeDot_lhs_0 _ _
    | ⟨1, _⟩ => exact (edgeDot_lhs_1 _ _).trans hk)
  have er : dot_S8000x96_S96x96_S8000x96_1_0_0_1_n_n.rhsIdx (ix2 p q) ((ValueIdx.contrEquiv1 dot_S8000x96_S96x96_S8000x96_1_0_0_1_n_n 96 rfl rfl).symm k) = ix2 k q := funext fun b => Fin.ext (by
    match b with
    | ⟨0, _⟩ => exact (edgeDot_rhs_0 _ _).trans hk
    | ⟨1, _⟩ => exact edgeDot_rhs_1 _ _)
  rw [el, er]

/-- A projection of the edge rows as the region computes it — three products into zero tables added up, plus the bias
    row — is the row times the weight table's columns plus the bias, when the operands are real numbers. -/
private theorem dense_entry (x0 : Vec Ideal S8000x96 .f32) (w : Vec Ideal S96x96 .f32) (b : Vec Ideal S1x96 .f32)
    (hx : ∀ i, IsReal (x0 i)) (hw : ∀ i, IsReal (w i)) (p : Fin 8000) (q : Fin 96) :
    k1_pay2 x0 w b (ix2 p q)
      = affine (fun k => x0 (ix2 p k)) (fun j k => w (ix2 k j)) (fun j => b (ix2 (0 : Fin 1) j)) q := by
  unfold k1_pay2
  simp only [addf_apply, edgeMatmul_apply, truncf_apply, subf_apply, shapeCast_self, broadcastTo_1b_ab_apply]
  rw [split3 (fun k => x0 (ix2 p k)) (fun k => w (ix2 k q)) (fun k => hx _) (fun k => hw _)]
  rfl

/-- The second projection is computed the same way. -/
private theorem dense_entry' (x0 : Vec Ideal S8000x96 .f32) (w : Vec Ideal S96x96 .f32) (b : Vec Ideal S1x96 .f32)
    (hx : ∀ i, IsReal (x0 i)) (hw : ∀ i, IsReal (w i)) (p : Fin 8000) (q : Fin 96) :
    k1_pay3 x0 w b (ix2 p q)
      = affine (fun k => x0 (ix2 p k)) (fun j k => w (ix2 k j)) (fun j => b (ix2 (0 : Fin 1) j)) q := by
  unfold k1_pay3
  simp only [addf_apply, edgeMatmul_apply, truncf_apply, subf_apply, shapeCast_self, broadcastTo_1b_ab_apply]
  rw [split3 (fun k => x0 (ix2 p k)) (fun k => w (ix2 k q)) (fun k => hx _) (fun k => hw _)]
  rfl

/-- The message as the region computes it from the two projections and the two gathered rows: the signed square root
    of (query + key) · first projection, plus the second projection, rectified. -/
private theorem msg_entry (a1 a2 qd : FVec Ideal S8000x96 .f32) (ks : Vec Ideal S8000x96 .f32) (p : Fin 8000) (q : Fin 96) :
    k1_pay5 a1 a2 qd ks (ix2 p q)
      = act ((qd (ix2 p q) + ks (ix2 p q)) * a1 (ix2 p q)) (a2 (ix2 p q)) := by
  unfold k1_pay5
  simp only [shapeCast_self]
  unfold act
  rw [← Ideal.jnp_sign_eq_sign_f32, ← Ideal.ofBits_zero_f32]
  rfl

/-- A column cast from a list: `[a] → [a, 1]` reads, at `(p, u)`, the list at `p`. -/
private theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column broadcast over many: `[a, 1] → [a, b]` reads, at `(p, c)`, the column at `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The region's sum along a row of a block: the sum of the row's 96 entries. -/
private theorem rowSum_apply (src : FVec Ideal S8000x96 .f32) (p : Fin 8000) :
    multiReduction .add [1] S8000 src 0x00000000#32 reduces_S8000x96_S8000 (.inl rfl) rfl (ix1 p) = ∑ k : Fin 96, src (ix2 p k) := by
  refine (Ideal.multiReduction_add_single src 0x00000000#32 reduces_S8000x96_S8000 (.inl rfl) rfl (ix1 p)).trans ?_
  refine Finset.sum_congr rfl fun k _ => congrArg src ?_
  funext ax
  match ax with
  | ⟨0, _⟩ => rfl
  | ⟨1, _⟩ => rfl

/-- A table's reciprocal square roots, at an entry: that of the entry. -/
private theorem rsqrt_apply {s : Shape} {φ : FTy} (a : FVec Ideal s φ) (i : s.Idx) : rsqrt a i = Ideal.rsqrt (a i) := rfl

/-- The normalised row as the region computes it from a block `x0` and the message block `m`. -/
private theorem norm_entry (x0 : Vec Ideal S8000x96 .f32) (a1 a2 qd : FVec Ideal S8000x96 .f32) (ks : Vec Ideal S8000x96 .f32)
    (g b : Vec Ideal S1x96 .f32) (p : Fin 8000) (q : Fin 96) :
    k1_pay1 (k1_pay6 x0 a1 a2 qd ks g) b (ix2 p q)
      = lnorm (fun k => x0 (ix2 p k) + k1_pay5 a1 a2 qd ks (ix2 p k)) (fun j => g (ix2 (0 : Fin 1) j))
          (fun j => b (ix2 (0 : Fin 1) j)) q := by
  unfold k1_pay1 k1_pay6
  generalize k1_pay5 a1 a2 qd ks = m
  simp only [addf_apply, mulf_apply, subf_apply, divf_apply, rsqrt_apply, broadcast_apply, shapeCast_self,
    broadcastTo_1b_ab_apply, broadcastTo_a1_ab_apply, shapeCast_a_a1_apply, rowSum_apply]
  rw [rowSum_apply, rowSum_apply]
  simp only [addf_apply, mulf_apply, subf_apply, divf_apply, broadcast_apply, broadcastTo_a1_ab_apply, shapeCast_a_a1_apply]
  rw [rowSum_apply]
  rfl

/-! ## From the blocks' entries to the message and the normalised row -/

/-- The message at an entry of a block, from named factors of the loaded blocks' entries. -/
private theorem msg_block (x0 : Vec Ideal S8000x96 .f32) (x1 x2 : Vec Ideal S96x96 .f32) (x3 x4 : Vec Ideal S1x96 .f32)
    (x5 x6 : Vec Ideal S8000x96 .f32) (h0 : ∀ i, IsReal (x0 i)) (h1 : ∀ i, IsReal (x1 i)) (h2 : ∀ i, IsReal (x2 i))
    (p : Fin 8000) (q : Fin 96) (A : Fin 96 → EReal) (W1 W2 : Fin 96 → Fin 96 → EReal) (B1 B2 : Fin 96 → EReal) (Q K : EReal)
    (hA : ∀ k, x0 (ix2 p k) = A k) (hW1 : ∀ j k, x1 (ix2 k j) = W1 j k) (hW2 : ∀ j k, x2 (ix2 k j) = W2 j k)
    (hB1 : ∀ j, x3 (ix2 (0 : Fin 1) j) = B1 j) (hB2 : ∀ j, x4 (ix2 (0 : Fin 1) j) = B2 j)
    (hQ : x5 (ix2 p q) = Q) (hK : x6 (ix2 p q) = K) :
    k1_pay5 (k1_pay2 x0 x1 x3) (k1_pay3 x0 x2 x4) (k1_pay4 x5) x6 (ix2 p q)
      = act ((Q + K) * affine A W1 B1 q) (affine A W2 B2 q) := by
  rw [msg_entry, dense_entry x0 x1 x3 h0 h1, dense_entry' x0 x2 x4 h0 h2]
  unfold k1_pay4
  rw [shapeCast_self, hQ, hK, funext hA, funext (fun j => funext (hW1 j)), funext (fun j => funext (hW2 j)), funext hB1, funext hB2]

/-- The normalised row at an entry of a block, from named factors: the block's row `A`, the message row `M`, gain and shift. -/
private theorem norm_block (x0 : Vec Ideal S8000x96 .f32) (x1 x2 : Vec Ideal S96x96 .f32) (x3 x4 : Vec Ideal S1x96 .f32)
    (x5 x6 : Vec Ideal S8000x96 .f32) (x7 x8 : Vec Ideal S1x96 .f32)
    (p : Fin 8000) (q : Fin 96) (A M G B : Fin 96 → EReal)
    (hA : ∀ k, x0 (ix2 p k) = A k)
    (hM : ∀ k, k1_pay5 (k1_pay2 x0 x1 x3) (k1_pay3 x0 x2 x4) (k1_pay4 x5) x6 (ix2 p k) = M k)
    (hG : ∀ j, x7 (ix2 (0 : Fin 1) j) = G j) (hB : ∀ j, x8 (ix2 (0 : Fin 1) j) = B j) :
    k1_pay1 (k1_pay6 x0 (k1_pay2 x0 x1 x3) (k1_pay3 x0 x2 x4) (k1_pay4 x5) x6 x7) x8 (ix2 p q)
      = lnorm (fun k => A k + M k) G B q := by
  have e : (fun k => x0 (ix2 p k) + k1_pay5 (k1_pay2 x0 x1 x3) (k1_pay3 x0 x2 x4) (k1_pay4 x5) x6 (ix2 p k))
      = fun k => A k + M k := funext fun k => by rw [hA, hM]
  rw [norm_entry, e, funext hG, funext hB]

/-! ## The blocks as parts of the arrays -/

/-- The zero offsets of a whole block, as a constant function. -/
private theorem hz : (![0, 0] : Fin 2 → Nat) = fun _ => 0 := funext fun a => by fin_cases a <;> rfl

/-- The hundred points: point `t` takes block `t` of each row table and the one block of each weight, bias, gain and
    shift table (decided over the grid). -/
private theorem idx_facts1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

/-- Row `p` of point `t`'s block of the edge table is row `8000 t + p` of the table. -/
private theorem conn_block (c : Dev nD) (t : Fin cfg1.N) (p : Fin 8000) (k : Fin 96) (e : Fin 800000) (he : e.val = t.val * 8000 + p.val) :
    (iblk1 V c 0 t : Vec Ideal S8000x96 .f32) (ix2 p k) = r1conn V c (ix2 e k) := by
  obtain ⟨f0, f1, f2, f3, f4, f5, f6, f7, f8, f9, f10⟩ := idx_facts1 t
  have h0 := f0.1
  have h1 := f0.2
  show V c (Pipeline.arrRef spec1 0) (((cfg1.win 0).blk t).view.emb (ix2 p k)) = V c (Pipeline.arrRef spec1 0) (ix2 e k)
  refine congrArg _ (funext fun a => Fin.ext ?_)
  match a with
  | ⟨0, _⟩ => show win1_0.index t (0 : Fin 2) * 8000 + 1 * p.val = e.val; omega
  | ⟨1, _⟩ => show win1_0.index t (1 : Fin 2) * 96 + 1 * k.val = k.val; omega

/-- The same for the gathered query rows. -/
private theorem qd_block (c : Dev nD) (t : Fin cfg1.N) (p : Fin 8000) (k : Fin 96) (e : Fin 800000) (he : e.val = t.val * 8000 + p.val) :
    (iblk1 V c 5 t : Vec Ideal S8000x96 .f32) (ix2 p k) = r1qd V c (ix2 e k) := by
  obtain ⟨f0, f1, f2, f3, f4, f5, f6, f7, f8, f9, f10⟩ := idx_facts1 t
  have h0 := f5.1
  have h1 := f5.2
  show V c (Pipeline.arrRef spec1 5) (((cfg1.win 5).blk t).view.emb (ix2 p k)) = V c (Pipeline.arrRef spec1 5) (ix2 e k)
  refine congrArg _ (funext fun a => Fin.ext ?_)
  match a with
  | ⟨0, _⟩ => show win1_5.index t (0 : Fin 2) * 8000 + 1 * p.val = e.val; omega
  | ⟨1, _⟩ => show win1_5.index t (1 : Fin 2) * 96 + 1 * k.val = k.val; omega

/-- The same for the gathered key rows. -/
private theorem ks_block (c : Dev nD) (t : Fin cfg1.N) (p : Fin 8000) (k : Fin 96) (e : Fin 800000) (he : e.val = t.val * 8000 + p.val) :
    (iblk1 V c 6 t : Vec Ideal S8000x96 .f32) (ix2 p k) = r1ks V c (ix2 e k) := by
  obtain ⟨f0, f1, f2, f3, f4, f5, f6, f7, f8, f9, f10⟩ := idx_facts1 t
  have h0 := f6.1
  have h1 := f6.2
  show V c (Pipeline.arrRef spec1 6) (((cfg1.win 6).blk t).view.emb (ix2 p k)) = V c (Pipeline.arrRef spec1 6) (ix2 e k)
  refine congrArg _ (funext fun a => Fin.ext ?_)
  match a with
  | ⟨0, _⟩ => show win1_6.index t (0 : Fin 2) * 8000 + 1 * p.val = e.val; omega
  | ⟨1, _⟩ => show win1_6.index t (1 : Fin 2) * 96 + 1 * k.val = k.val; omega

/-- Every point's block of the first weight table is the table. -/
private theorem w1_block (c : Dev nD) (t : Fin cfg1.N) (a b : Fin 96) :
    (iblk1 V c 1 t : Vec Ideal S96x96 .f32) (ix2 a b) = r1w1 V c (ix2 a b) := by
  obtain ⟨f0, f1, f2, f3, f4, f5, f6, f7, f8, f9, f10⟩ := idx_facts1 t
  have h0 := f1.1
  have h1 := f1.2
  show V c (Pipeline.arrRef spec1 1) (((cfg1.win 1).blk t).view.emb (ix2 a b)) = V c (Pipeline.arrRef spec1 1) (ix2 a b)
  refine congrArg _ (funext fun ax => Fin.ext ?_)
  match ax with
  | ⟨0, _⟩ => show win1_1.index t (0 : Fin 2) * 96 + 1 * a.val = a.val; omega
  | ⟨1, _⟩ => show win1_1.index t (1 : Fin 2) * 96 + 1 * b.val = b.val; omega

/-- Every point's block of the second weight table is the table. -/
private theorem w2_block (c : Dev nD) (t : Fin cfg1.N) (a b : Fin 96) :
    (iblk1 V c 2 t : Vec Ideal S96x96 .f32) (ix2 a b) = r1w2 V c (ix2 a b) := by
  obtain ⟨f0, f1, f2, f3, f4, f5, f6, f7, f8, f9, f10⟩ := idx_facts1 t
  have h0 := f2.1
  have h1 := f2.2
  show V c (Pipeline.arrRef spec1 2) (((cfg1.win 2).blk t).view.emb (ix2 a b)) = V c (Pipeline.arrRef spec1 2) (ix2 a b)
  refine congrArg _ (funext fun ax => Fin.ext ?_)
  match ax with
  | ⟨0, _⟩ => show win1_2.index t (0 : Fin 2) * 96 + 1 * a.val = a.val; omega
  | ⟨1, _⟩ => show win1_2.index t (1 : Fin 2) * 96 + 1 * b.val = b.val; omega

/-- Every point's block of the first bias row is the row. -/
private theorem b1_block (c : Dev nD) (t : Fin cfg1.N) (j : Fin 96) :
    (iblk1 V c 3 t : Vec Ideal S1x96 .f32) (ix2 (0 : Fin 1) j) = r1b1 V c (ix2 (0 : Fin 1) j) := by
  obtain ⟨f0, f1, f2, f3, f4, f5, f6, f7, f8, f9, f10⟩ := idx_facts1 t
  have h0 := f3.1
  have h1 := f3.2
  show V c (Pipeline.arrRef spec1 3) (((cfg1.win 3).blk t).view.emb (ix2 (0 : Fin 1) j)) = V c (Pipeline.arrRef spec1 3) (ix2 (0 : Fin 1) j)
  refine congrArg _ (funext fun ax => Fin.ext ?_)
  match ax with
  | ⟨0, _⟩ => show win1_3.index t (0 : Fin 2) * 1 + 1 * (0 : Fin 1).val = (0 : Fin 1).val; omega
  | ⟨1, _⟩ => show win1_3.index t (1 : Fin 2) * 96 + 1 * j.val = j.val; omega

/-- Every point's block of the second bias row is the row. -/
private theorem b2_block (c : Dev nD) (t : Fin cfg1.N) (j : Fin 96) :
    (iblk1 V c 4 t : Vec Ideal S1x96 .f32) (ix2 (0 : Fin 1) j) = r1b2 V c (ix2 (0 : Fin 1) j) := by
  obtain ⟨f0, f1, f2, f3, f4, f5, f6, f7, f8, f9, f10⟩ := idx_facts1 t
  have h0 := f4.1
  have h1 := f4.2
  show V c (Pipeline.arrRef spec1 4) (((cfg1.win 4).blk t).view.emb (ix2 (0 : Fin 1) j)) = V c (Pipeline.arrRef spec1 4) (ix2 (0 : Fin 1) j)
  refine congrArg _ (funext fun ax => Fin.ext ?_)
  match ax with
  | ⟨0, _⟩ => show win1_4.index t (0 : Fin 2) * 1 + 1 * (0 : Fin 1).val = (0 : Fin 1).val; omega
  | ⟨1, _⟩ => show win1_4.index t (1 : Fin 2) * 96 + 1 * j.val = j.val; omega

/-- Every point's block of the gain row is the row. -/
private theorem g_block (c : Dev nD) (t : Fin cfg1.N) (j : Fin 96) :
    (iblk1 V c 7 t : Vec Ideal S1x96 .f32) (ix2 (0 : Fin 1) j) = r1g V c (ix2 (0 : Fin 1) j) := by
  obtain ⟨f0, f1, f2, f3, f4, f5, f6, f7, f8, f9, f10⟩ := idx_facts1 t
  have h0 := f7.1
  have h1 := f7.2
  show V c (Pipeline.arrRef spec1 7) (((cfg1.win 7).blk t).view.emb (ix2 (0 : Fin 1) j)) = V c (Pipeline.arrRef spec1 7) (ix2 (0 : Fin 1) j)
  refine congrArg _ (funext fun ax => Fin.ext ?_)
  match ax with
  | ⟨0, _⟩ => show win1_7.index t (0 : Fin 2) * 1 + 1 * (0 : Fin 1).val = (0 : Fin 1).val; omega
  | ⟨1, _⟩ => show win1_7.index t (1 : Fin 2) * 96 + 1 * j.val = j.val; omega

/-- Every point's block of the shift row is the row. -/
private theorem b_block (c : Dev nD) (t : Fin cfg1.N) (j : Fin 96) :
    (iblk1 V c 8 t : Vec Ideal S1x96 .f32) (ix2 (0 : Fin 1) j) = r1b V c (ix2 (0 : Fin 1) j) := by
  obtain ⟨f0, f1, f2, f3, f4, f5, f6, f7, f8, f9, f10⟩ := idx_facts1 t
  have h0 := f8.1
  have h1 := f8.2
  show V c (Pipeline.arrRef spec1 8) (((cfg1.win 8).blk t).view.emb (ix2 (0 : Fin 1) j)) = V c (Pipeline.arrRef spec1 8) (ix2 (0 : Fin 1) j)
  refine congrArg _ (funext fun ax => Fin.ext ?_)
  match ax with
  | ⟨0, _⟩ => show win1_8.index t (0 : Fin 2) * 1 + 1 * (0 : Fin 1).val = (0 : Fin 1).val; omega
  | ⟨1, _⟩ => show win1_8.index t (1 : Fin 2) * 96 + 1 * j.val = j.val; omega

/-! ## What a point leaves, as entries of the arrays -/

/-- The message at row `p` of point `t`'s block is the message of edge `8000 t + p`. -/
private theorem msg_point (c : Dev nD) (hconn : ∀ i, IsReal (r1conn V c i)) (hw1 : ∀ i, IsReal (r1w1 V c i))
    (hw2 : ∀ i, IsReal (r1w2 V c i)) (t : Fin cfg1.N) (p : Fin 8000) (q : Fin 96) (e : Fin 800000)
    (he : e.val = t.val * 8000 + p.val) :
    k1_pay5 (k1_pay2 (iblk1 V c 0 t) (iblk1 V c 1 t) (iblk1 V c 3 t)) (k1_pay3 (iblk1 V c 0 t) (iblk1 V c 2 t) (iblk1 V c 4 t))
        (k1_pay4 (iblk1 V c 5 t)) (iblk1 V c 6 t) (ix2 p q) = r1msg V c e q := by
  unfold r1msg
  exact msg_block (iblk1 V c 0 t) (iblk1 V c 1 t) (iblk1 V c 2 t) (iblk1 V c 3 t) (iblk1 V c 4 t) (iblk1 V c 5 t) (iblk1 V c 6 t)
    (fun i => by show IsReal (V c (Pipeline.arrRef spec1 0) _); exact hconn _)
    (fun i => by show IsReal (V c (Pipeline.arrRef spec1 1) _); exact hw1 _)
    (fun i => by show IsReal (V c (Pipeline.arrRef spec1 2) _); exact hw2 _)
    p q (fun k => r1conn V c (ix2 e k)) (fun j k => r1w1 V c (ix2 k j)) (fun j k => r1w2 V c (ix2 k j))
    (fun j => r1b1 V c (ix2 (0 : Fin 1) j)) (fun j => r1b2 V c (ix2 (0 : Fin 1) j)) (r1qd V c (ix2 e q)) (r1ks V c (ix2 e q))
    (fun k => conn_block V c t p k e he) (fun j k => w1_block V c t k j) (fun j k => w2_block V c t k j)
    (fun j => b1_block V c t j) (fun j => b2_block V c t j) (qd_block V c t p q e he) (ks_block V c t p q e he)

/-- The normalised entry at row `p` of point `t`'s block is that of edge `8000 t + p`. -/
private theorem norm_point (c : Dev nD) (hconn : ∀ i, IsReal (r1conn V c i)) (hw1 : ∀ i, IsReal (r1w1 V c i))
    (hw2 : ∀ i, IsReal (r1w2 V c i)) (t : Fin cfg1.N) (p : Fin 8000) (q : Fin 96) (e : Fin 800000)
    (he : e.val = t.val * 8000 + p.val) :
    k1_pay1 (k1_pay6 (iblk1 V c 0 t) (k1_pay2 (iblk1 V c 0 t) (iblk1 V c 1 t) (iblk1 V c 3 t))
          (k1_pay3 (iblk1 V c 0 t) (iblk1 V c 2 t) (iblk1 V c 4 t)) (k1_pay4 (iblk1 V c 5 t)) (iblk1 V c 6 t) (iblk1 V c 7 t))
        (iblk1 V c 8 t) (ix2 p q)
      = lnorm (fun k => r1conn V c (ix2 e k) + r1msg V c e k) (fun j => r1g V c (ix2 (0 : Fin 1) j))
          (fun j => r1b V c (ix2 (0 : Fin 1) j)) q :=
  norm_block (iblk1 V c 0 t) (iblk1 V c 1 t) (iblk1 V c 2 t) (iblk1 V c 3 t) (iblk1 V c 4 t) (iblk1 V c 5 t) (iblk1 V c 6 t)
    (iblk1 V c 7 t) (iblk1 V c 8 t) p q (fun k => r1conn V c (ix2 e k)) (fun k => r1msg V c e k)
    (fun j => r1g V c (ix2 (0 : Fin 1) j)) (fun j => r1b V c (ix2 (0 : Fin 1) j))
    (fun k => conn_block V c t p k e he) (fun k => msg_point V c hconn hw1 hw2 t p k e he)
    (fun j => g_block V c t j) (fun j => b_block V c t j)

/-- Row `p` of point `t`'s block of the message table is row `8000 t + p` of the table. -/
private theorem msg_emb (t : Fin cfg1.N) (p : Fin 8000) (q : Fin 96) (e : Fin 800000) (he : e.val = t.val * 8000 + p.val) :
    (((cfg1.win 9).blk t).view.emb (ix2 p q) : S800000x96.Idx) = ix2 e q := by
  obtain ⟨f0, f1, f2, f3, f4, f5, f6, f7, f8, f9, f10⟩ := idx_facts1 t
  have h0 := f9.1
  have h1 := f9.2
  refine funext fun a => Fin.ext ?_
  match a with
  | ⟨0, _⟩ => show win1_9.index t (0 : Fin 2) * 8000 + 1 * p.val = e.val; omega
  | ⟨1, _⟩ => show win1_9.index t (1 : Fin 2) * 96 + 1 * q.val = q.val; omega

/-- The same for the normalised edge table. -/
private theorem edge_emb (t : Fin cfg1.N) (p : Fin 8000) (q : Fin 96) (e : Fin 800000) (he : e.val = t.val * 8000 + p.val) :
    (((cfg1.win 10).blk t).view.emb (ix2 p q) : S800000x96.Idx) = ix2 e q := by
  obtain ⟨f0, f1, f2, f3, f4, f5, f6, f7, f8, f9, f10⟩ := idx_facts1 t
  have h0 := f10.1
  have h1 := f10.2
  refine funext fun a => Fin.ext ?_
  match a with
  | ⟨0, _⟩ => show win1_10.index t (0 : Fin 2) * 8000 + 1 * p.val = e.val; omega
  | ⟨1, _⟩ => show win1_10.index t (1 : Fin 2) * 96 + 1 * q.val = q.val; omega

/-- The message table as one function of the region's arrays. -/
private abbrev msgTable (c : Dev nD) : S800000x96.Idx → EReal := fun i => r1msg V c (i 0) (i 1)

/-- The normalised edge table as one function of the region's arrays. -/
private abbrev edgeTable (c : Dev nD) : S800000x96.Idx → EReal := fun i =>
  lnorm (fun k => r1conn V c (ix2 (i 0) k) + r1msg V c (i 0) k) (fun j => r1g V c (ix2 (0 : Fin 1) j))
    (fun j => r1b V c (ix2 (0 : Fin 1) j)) (i 1)

/-- What point `t` writes back to the message table is block `t` of `msgTable`. -/
private theorem msg_flushed (c : Dev nD) (hconn : ∀ i, IsReal (r1conn V c i)) (hw1 : ∀ i, IsReal (r1w1 V c i))
    (hw2 : ∀ i, IsReal (r1w2 V c i)) (t : Fin cfg1.N) :
    (dat1 (F := Ideal) V c).flushed 9 t = ((cfg1.win 9).blk t).view.read (Elt Ideal) (msgTable V c) := by
  show (cfg1.win 9).cut (grid1.coords t) ((dat1 (F := Ideal) V c).after 9 t) = _
  rw [after1_9]
  unfold out1_9
  rw [View.canon_unit_zero hz]
  simp only [View.ld_unit_zero (S := S8000x96) hz, View.ld_unit_zero (S := S96x96) hz, View.ld_unit_zero (S := S1x96) hz]
  funext j
  obtain ⟨p, q, rfl⟩ : ∃ (p : Fin 8000) (q : Fin 96), j = ix2 p q := ⟨j 0, j 1, eq_ix2 j⟩
  have hN : cfg1.N = 100 := N_1
  have ht : t.val < cfg1.N := t.isLt
  have hp : p.val < 8000 := p.isLt
  have hlt : t.val * 8000 + p.val < 800000 := by omega
  show k1_pay5 (k1_pay2 (iblk1 V c 0 t) (iblk1 V c 1 t) (iblk1 V c 3 t)) (k1_pay3 (iblk1 V c 0 t) (iblk1 V c 2 t) (iblk1 V c 4 t))
        (k1_pay4 (iblk1 V c 5 t)) (iblk1 V c 6 t) (ix2 p q) = msgTable V c (((cfg1.win 9).blk t).view.emb (ix2 p q))
  refine (msg_point V c hconn hw1 hw2 t p q ⟨t.val * 8000 + p.val, hlt⟩ rfl).trans ?_
  exact (congrArg (msgTable V c) (msg_emb t p q ⟨t.val * 8000 + p.val, hlt⟩ rfl)).symm

/-- What point `t` writes back to the normalised edge table is block `t` of `edgeTable`. -/
private theorem edge_flushed (c : Dev nD) (hconn : ∀ i, IsReal (r1conn V c i)) (hw1 : ∀ i, IsReal (r1w1 V c i))
    (hw2 : ∀ i, IsReal (r1w2 V c i)) (t : Fin cfg1.N) :
    (dat1 (F := Ideal) V c).flushed 10 t = ((cfg1.win 10).blk t).view.read (Elt Ideal) (edgeTable V c) := by
  show (cfg1.win 10).cut (grid1.coords t) ((dat1 (F := Ideal) V c).after 10 t) = _
  rw [after1_10]
  unfold out1_10
  rw [View.canon_unit_zero hz]
  simp only [View.ld_unit_zero (S := S8000x96) hz, View.ld_unit_zero (S := S96x96) hz, View.ld_unit_zero (S := S1x96) hz]
  funext j
  obtain ⟨p, q, rfl⟩ : ∃ (p : Fin 8000) (q : Fin 96), j = ix2 p q := ⟨j 0, j 1, eq_ix2 j⟩
  have hN : cfg1.N = 100 := N_1
  have ht : t.val < cfg1.N := t.isLt
  have hp : p.val < 8000 := p.isLt
  have hlt : t.val * 8000 + p.val < 800000 := by omega
  show k1_pay1 (k1_pay6 (iblk1 V c 0 t) (k1_pay2 (iblk1 V c 0 t) (iblk1 V c 1 t) (iblk1 V c 3 t))
          (k1_pay3 (iblk1 V c 0 t) (iblk1 V c 2 t) (iblk1 V c 4 t)) (k1_pay4 (iblk1 V c 5 t)) (iblk1 V c 6 t) (iblk1 V c 7 t))
        (iblk1 V c 8 t) (ix2 p q) = edgeTable V c (((cfg1.win 10).blk t).view.emb (ix2 p q))
  refine (norm_point V c hconn hw1 hw2 t p q ⟨t.val * 8000 + p.val, hlt⟩ rfl).trans ?_
  exact (congrArg (edgeTable V c) (edge_emb t p q ⟨t.val * 8000 + p.val, hlt⟩ rfl)).symm

/-- An index of the table is in point `t`'s block iff each coordinate is in the block's range on its axis. -/
private theorem msg_mem_blk (t : Fin cfg1.N) (i : S800000x96.Idx) :
    i ∈ ((cfg1.win 9).blk t).view.set ↔ ∀ a : Fin 2, win1_9.index t a * S8000x96.size a ≤ (i a).val ∧ (i a).val < win1_9.index t a * S8000x96.size a + S8000x96.size a := by
  show i ∈ ((View.whole main_v36_0).slice (win1_9.rect t)).set ↔ _
  rw [View.set_slice_whole, Rect.mem_set_unit]
  exact Iff.rfl

/-- An index of the table is in point `t`'s block iff each coordinate is in the block's range on its axis. -/
private theorem edge_mem_blk (t : Fin cfg1.N) (i : S800000x96.Idx) :
    i ∈ ((cfg1.win 10).blk t).view.set ↔ ∀ a : Fin 2, win1_10.index t a * S8000x96.size a ≤ (i a).val ∧ (i a).val < win1_10.index t a * S8000x96.size a + S8000x96.size a := by
  show i ∈ ((View.whole main_v36_1).slice (win1_10.rect t)).set ↔ _
  rw [View.set_slice_whole, Rect.mem_set_unit]
  exact Iff.rfl

/-- Every row of the table is in some point's block: row `r` in block `r / 8000`. -/
private theorem msg_cover (i : S800000x96.Idx) :
    ∃ t : Fin cfg1.N, (cfg1.win 9).flush t = true ∧ i ∈ ((cfg1.win 9).blk t).view.set := by
  have hi0 : (i 0).val < 800000 := (i 0).isLt
  have hi1 : (i 1).val < 96 := (i 1).isLt
  have hN : cfg1.N = 100 := N_1
  have hlt : (i 0).val / 8000 < cfg1.N := by rw [hN]; omega
  obtain ⟨f0, f1, f2, f3, f4, f5, f6, f7, f8, f9, f10⟩ := idx_facts1 ⟨(i 0).val / 8000, hlt⟩
  have h0 : win1_9.index ⟨(i 0).val / 8000, hlt⟩ (0 : Fin 2) = (i 0).val / 8000 := f9.1
  have h1 := f9.2
  refine ⟨⟨(i 0).val / 8000, hlt⟩, flush1_9 _, ?_⟩
  rw [msg_mem_blk]
  intro a
  match a with
  | ⟨0, _⟩ =>
    show win1_9.index ⟨(i 0).val / 8000, hlt⟩ (0 : Fin 2) * 8000 ≤ (i 0).val
      ∧ (i 0).val < win1_9.index ⟨(i 0).val / 8000, hlt⟩ (0 : Fin 2) * 8000 + 8000
    omega
  | ⟨1, _⟩ =>
    show win1_9.index ⟨(i 0).val / 8000, hlt⟩ (1 : Fin 2) * 96 ≤ (i 1).val
      ∧ (i 1).val < win1_9.index ⟨(i 0).val / 8000, hlt⟩ (1 : Fin 2) * 96 + 96
    omega

/-- Every row of the table is in some point's block: row `r` in block `r / 8000`. -/
private theorem edge_cover (i : S800000x96.Idx) :
    ∃ t : Fin cfg1.N, (cfg1.win 10).flush t = true ∧ i ∈ ((cfg1.win 10).blk t).view.set := by
  have hi0 : (i 0).val < 800000 := (i 0).isLt
  have hi1 : (i 1).val < 96 := (i 1).isLt
  have hN : cfg1.N = 100 := N_1
  have hlt : (i 0).val / 8000 < cfg1.N := by rw [hN]; omega
  obtain ⟨f0, f1, f2, f3, f4, f5, f6, f7, f8, f9, f10⟩ := idx_facts1 ⟨(i 0).val / 8000, hlt⟩
  have h0 : win1_10.index ⟨(i 0).val / 8000, hlt⟩ (0 : Fin 2) = (i 0).val / 8000 := f10.1
  have h1 := f10.2
  refine ⟨⟨(i 0).val / 8000, hlt⟩, flush1_10 _, ?_⟩
  rw [edge_mem_blk]
  intro a
  match a with
  | ⟨0, _⟩ =>
    show win1_10.index ⟨(i 0).val / 8000, hlt⟩ (0 : Fin 2) * 8000 ≤ (i 0).val
      ∧ (i 0).val < win1_10.index ⟨(i 0).val / 8000, hlt⟩ (0 : Fin 2) * 8000 + 8000
    omega
  | ⟨1, _⟩ =>
    show win1_10.index ⟨(i 0).val / 8000, hlt⟩ (1 : Fin 2) * 96 ≤ (i 1).val
      ∧ (i 1).val < win1_10.index ⟨(i 0).val / 8000, hlt⟩ (1 : Fin 2) * 96 + 96
    omega

/-- The message table after the region. -/
theorem region1_msg (c : Dev nD) (hconn : ∀ i, IsReal (r1conn V c i)) (hw1 : ∀ i, IsReal (r1w1 V c i))
    (hw2 : ∀ i, IsReal (r1w2 V c i)) (e : Fin 800000) (q : Fin 96) :
    (dat1 (F := Ideal) V c).arrAt 9 cfg1.N (ix2 e q) = r1msg V c e q := by
  have h := (dat1 (F := Ideal) V c).arrAt_eq_of_cover 9 (msgTable V c) (fun t _ => msg_flushed V c hconn hw1 hw2 t) msg_cover
  exact congrFun h (ix2 e q)

/-- The normalised edge table after the region. -/
theorem region1_edge (c : Dev nD) (hconn : ∀ i, IsReal (r1conn V c i)) (hw1 : ∀ i, IsReal (r1w1 V c i))
    (hw2 : ∀ i, IsReal (r1w2 V c i)) (e : Fin 800000) (q : Fin 96) :
    (dat1 (F := Ideal) V c).arrAt 10 cfg1.N (ix2 e q)
      = lnorm (fun k => r1conn V c (ix2 e k) + r1msg V c e k) (fun j => r1g V c (ix2 (0 : Fin 1) j))
          (fun j => r1b V c (ix2 (0 : Fin 1) j)) q := by
  have h := (dat1 (F := Ideal) V c).arrAt_eq_of_cover 10 (edgeTable V c) (fun t _ => edge_flushed V c hconn hw1 hw2 t) edge_cover
  exact congrFun h (ix2 e q)

end Cert.KernelIdeal.Val

end
-- ==== Proof.Region0.lean ====
/-
  The first region's three result tables, entry by entry.

  The region walks the 50000 node rows in ten blocks of 5000. At every block it multiplies the block by each of three
  96 × 96 weight tables (already transposed) in three passes and adds a bias row; a block's rows depend on the same
  rows of the node table only, so the result table's entry (p, q) is the affine map of node row p.

  The road: (1) one product of a block by a weight table read at an entry is a sum over the 96 columns of the block;
  (2) the three passes — the operands; the block against what is left of the weights after the weights are taken
  away; what is left of the block against the weights — add up to the one product on real numbers, and the bias row
  is spread over the rows, so the body's result at entry (p', q) of a block is the affine map of the block's row p';
  (3) block t of the node table is rows 5000 t … 5000 t + 4999 and the weight and bias windows are whole at every
  block, so what block t writes back is block t of ONE table, the affine map of every node row; (4) the ten blocks
  fill the 50000 rows (row r lies in block r / 5000), so the table after the region is that one table.
-/
import proofs.«420450_j53833120088741_2_alg».proof.Proof.Gen.KernelIdeal.Frame
import proofs.«420450_j53833120088741_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Mp
open Idealize.ShloMosaic Idealize.ShloMosaic.TcCoe Idealize.ShloMosaic.ValueIdx Idealize.SL.Sem
open Idealize.ShloMosaic.Pipeline (Dat Cfg Window)
open scoped BigOperators

/-! ## One product of a block by a weight table, entry by entry

The product contracts the block's columns (its axis 1) against the weight table's rows (its axis 0): at the result's
entry (p, q) and contraction index k the block is read at (p, k) and the weight table at (k, q). -/

private theorem blockAxis0 (i : S5000x96.Idx) (s : dot_S5000x96_S96x96_S5000x96_1_0_0_1_n_n.contr.Idx) :
    (dot_S5000x96_S96x96_S5000x96_1_0_0_1_n_n.lhsIdx i s 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
private theorem blockAxis1 (i : S5000x96.Idx) (s : dot_S5000x96_S96x96_S5000x96_1_0_0_1_n_n.contr.Idx) :
    (dot_S5000x96_S96x96_S5000x96_1_0_0_1_n_n.lhsIdx i s 1).val = (s ⟨0, by decide⟩).val :=
  dot_S5000x96_S96x96_S5000x96_1_0_0_1_n_n.lhsIdx_val_of_single rfl i s
private theorem weightAxis0 (i : S5000x96.Idx) (s : dot_S5000x96_S96x96_S5000x96_1_0_0_1_n_n.contr.Idx) :
    (dot_S5000x96_S96x96_S5000x96_1_0_0_1_n_n.rhsIdx i s 0).val = (s ⟨0, by decide⟩).val :=
  dot_S5000x96_S96x96_S5000x96_1_0_0_1_n_n.rhsIdx_val_of_single rfl i s
private theorem weightAxis1 (i : S5000x96.Idx) (s : dot_S5000x96_S96x96_S5000x96_1_0_0_1_n_n.contr.Idx) :
    (dot_S5000x96_S96x96_S5000x96_1_0_0_1_n_n.rhsIdx i s 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- A block times a weight table, added into the zero table: entry (p, q) is the sum over k of a (p, k) · w (k, q). -/
private theorem prod_apply {φ₁ φ₂ : FTy} (a : FVec Ideal S5000x96 φ₁) (w : FVec Ideal S96x96 φ₂) (p : Fin 5000) (q : Fin 96) :
    matmul dot_S5000x96_S96x96_S5000x96_1_0_0_1_n_n none a w (constant S5000x96 .f32 0x00000000#32) (ix2 p q)
      = ∑ k : Fin 96, a (ix2 p k) * w (ix2 k q) := by
  simp only [matmul]
  rw [Ideal.matmul_constant_zero_apply, ← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 p q) ((contrEquiv1 dot_S5000x96_S96x96_S5000x96_1_0_0_1_n_n 96 rfl rfl).symm k) = ix2 p k := funext fun a => Fin.ext (by
    match a with
    | ⟨0, _⟩ => exact blockAxis0 _ _
    | ⟨1, _⟩ => exact (blockAxis1 _ _).trans hk)
  have er : dot_S5000x96_S96x96_S5000x96_1_0_0_1_n_n.rhsIdx (ix2 p q) ((contrEquiv1 dot_S5000x96_S96x96_S5000x96_1_0_0_1_n_n 96 rfl rfl).symm k) = ix2 k q := funext fun a => Fin.ext (by
    match a with
    | ⟨0, _⟩ => exact (weightAxis0 _ _).trans hk
    | ⟨1, _⟩ => exact weightAxis1 _ _)
  rw [el, er]

/-! ## The body's arithmetic at an entry of the block -/

/-- The bias row spread over the block's rows reads, at (p, q), the row's entry in column q. -/
private theorem spread_apply (b : FVec Ideal S1x96 .f32) (p : Fin 5000) (q : Fin 96) :
    broadcastTo S5000x96 b broadcasts_S1x96_S5000x96 (ix2 p q) = b (ix2 (0 : Fin 1) q) :=
  broadcastTo_apply b broadcasts_S1x96_S5000x96 (ix2 p q) (ix2 (0 : Fin 1) q) (fun a => match a with
    | ⟨0, _⟩ => by show 0 = if (1 : Nat) = 1 then 0 else p.val; rw [if_pos rfl]
    | ⟨1, _⟩ => by show q.val = if (96 : Nat) = 1 then 0 else q.val; rw [if_neg (by decide)])

/-- THE THREE PASSES. A change of float format is the identity on the extended reals, so the second pass multiplies
    the block by w − w and the third multiplies x − x by the weights; on real numbers both add nothing, and entry
    (p, q) is row p of the block times column q of the weight table, plus the bias row's entry q. -/
private theorem passes_apply (x : FVec Ideal S5000x96 .f32) (w : FVec Ideal S96x96 .f32) (b : FVec Ideal S1x96 .f32)
    (hx : ∀ i, IsReal (x i)) (hw : ∀ i, IsReal (w i)) (p : Fin 5000) (q : Fin 96) :
    addf (addf (addf
          (matmul dot_S5000x96_S96x96_S5000x96_1_0_0_1_n_n none (truncf .bf16 x bitsLt_bf16_f32) (truncf .bf16 w bitsLt_bf16_f32) (constant S5000x96 .f32 0x00000000#32))
          (matmul dot_S5000x96_S96x96_S5000x96_1_0_0_1_n_n none (truncf .bf16 x bitsLt_bf16_f32) (truncf .bf16 (subf w w) bitsLt_bf16_f32) (constant S5000x96 .f32 0x00000000#32)))
          (matmul dot_S5000x96_S96x96_S5000x96_1_0_0_1_n_n none (truncf .bf16 (subf x x) bitsLt_bf16_f32) (truncf .bf16 w bitsLt_bf16_f32) (constant S5000x96 .f32 0x00000000#32)))
        (broadcastTo S5000x96 b broadcasts_S1x96_S5000x96) (ix2 p q)
      = (∑ k : Fin 96, x (ix2 p k) * w (ix2 k q)) + b (ix2 (0 : Fin 1) q) := by
  rw [addf_apply, addf_apply, addf_apply, prod_apply, prod_apply, prod_apply, spread_apply]
  simp only [truncf_apply, subf_apply]
  rw [split3 (fun k => x (ix2 p k)) (fun k => w (ix2 k q)) (fun k => hx _) (fun k => hw _)]

/-- The body's three results at entry (p, q) of the block: the same arithmetic on three weight tables and bias rows. -/
private theorem pay1_apply (x : Vec Ideal S5000x96 .f32) (w : Vec Ideal S96x96 .f32) (b : Vec Ideal S1x96 .f32)
    (hx : ∀ i, IsReal (x i)) (hw : ∀ i, IsReal (w i)) (p : Fin 5000) (q : Fin 96) :
    k0_pay1 (F := Ideal) x w b (ix2 p q) = (∑ k : Fin 96, x (ix2 p k) * w (ix2 k q)) + b (ix2 (0 : Fin 1) q) := by
  unfold k0_pay1
  rw [shapeCast_self, shapeCast_self]
  exact passes_apply x w b hx hw p q
private theorem pay2_apply (x : Vec Ideal S5000x96 .f32) (w : Vec Ideal S96x96 .f32) (b : Vec Ideal S1x96 .f32)
    (hx : ∀ i, IsReal (x i)) (hw : ∀ i, IsReal (w i)) (p : Fin 5000) (q : Fin 96) :
    k0_pay2 (F := Ideal) x w b (ix2 p q) = (∑ k : Fin 96, x (ix2 p k) * w (ix2 k q)) + b (ix2 (0 : Fin 1) q) := by
  unfold k0_pay2
  rw [shapeCast_self, shapeCast_self]
  exact passes_apply x w b hx hw p q
private theorem pay3_apply (x : Vec Ideal S5000x96 .f32) (w : Vec Ideal S96x96 .f32) (b : Vec Ideal S1x96 .f32)
    (hx : ∀ i, IsReal (x i)) (hw : ∀ i, IsReal (w i)) (p : Fin 5000) (q : Fin 96) :
    k0_pay3 (F := Ideal) x w b (ix2 p q) = (∑ k : Fin 96, x (ix2 p k) * w (ix2 k q)) + b (ix2 (0 : Fin 1) q) := by
  unfold k0_pay3
  rw [shapeCast_self, shapeCast_self]
  exact passes_apply x w b hx hw p q

/-! ## The one table every block is a block of -/

/-- The whole result table of a node table X, a transposed weight table W and a bias row B: entry (p, q) is the
    affine map of row p. -/
private def tableOf (X : S50000x96.Idx → EReal) (W : S96x96.Idx → EReal) (B : S1x96.Idx → EReal) : S50000x96.Idx → EReal :=
  fun i => affine (fun k => X (ix2 (i 0) k)) (fun j k => W (ix2 k j)) (fun j => B (ix2 (0 : Fin 1) j)) (i 1)

/-- A block whose rows are rows r p' of the node table, with the whole weight table and bias row beside it, goes
    through the body's arithmetic to rows r p' of the result table. -/
private theorem block_of
    (pay : Vec Ideal S5000x96 .f32 → Vec Ideal S96x96 .f32 → Vec Ideal S1x96 .f32 → FVec Ideal S5000x96 .f32)
    (hpay : ∀ x w b, (∀ i, IsReal (x i)) → (∀ i, IsReal (w i)) → ∀ (p : Fin 5000) (q : Fin 96),
      pay x w b (ix2 p q) = (∑ k : Fin 96, x (ix2 p k) * w (ix2 k q)) + b (ix2 (0 : Fin 1) q))
    (X : S50000x96.Idx → EReal) (W : S96x96.Idx → EReal) (B : S1x96.Idx → EReal)
    (x0 : Vec Ideal S5000x96 .f32) (x1 : Vec Ideal S96x96 .f32) (x4 : Vec Ideal S1x96 .f32) (r : Fin 5000 → Fin 50000)
    (h0 : ∀ p' k, x0 (ix2 p' k) = X (ix2 (r p') k)) (h1 : ∀ k q, x1 (ix2 k q) = W (ix2 k q))
    (h4 : ∀ q, x4 (ix2 (0 : Fin 1) q) = B (ix2 (0 : Fin 1) q))
    (hX : ∀ i, IsReal (X i)) (hW : ∀ i, IsReal (W i)) (p' : Fin 5000) (q : Fin 96) :
    pay x0 x1 x4 (ix2 p' q) = tableOf X W B (ix2 (r p') q) := by
  have hx0 : ∀ i, IsReal (x0 i) := fun i => by
    obtain ⟨a, b, rfl⟩ : ∃ (a : Fin 5000) (b : Fin 96), i = ix2 a b := ⟨i 0, i 1, eq_ix2 i⟩
    rw [h0]; exact hX _
  have hx1 : ∀ i, IsReal (x1 i) := fun i => by
    obtain ⟨a, b, rfl⟩ : ∃ (a : Fin 96) (b : Fin 96), i = ix2 a b := ⟨i 0, i 1, eq_ix2 i⟩
    rw [h1]; exact hW _
  rw [hpay x0 x1 x4 hx0 hx1 p' q, h4]
  unfold tableOf affine
  refine congrArg (· + _) (Finset.sum_congr rfl fun k _ => ?_)
  rw [h0, h1]

private theorem zeros : (![0, 0] : Fin 2 → Nat) = fun _ => 0 := funext fun a => by fin_cases a <;> rfl

variable (V : (c : Dev nD) → (b : Ref sig .tc) → Buf (Elt Ideal) ((c : Thread nD τ).loc b))

/-- The region's arrays as it finds them: the node table, the three transposed weight tables, the three bias rows. -/
abbrev r0x (c : Dev nD) : S50000x96.Idx → EReal := V c (Pipeline.arrRef spec0 0)
abbrev r0wq (c : Dev nD) : S96x96.Idx → EReal := V c (Pipeline.arrRef spec0 1)
abbrev r0wk (c : Dev nD) : S96x96.Idx → EReal := V c (Pipeline.arrRef spec0 2)
abbrev r0wv (c : Dev nD) : S96x96.Idx → EReal := V c (Pipeline.arrRef spec0 3)
abbrev r0bq (c : Dev nD) : S1x96.Idx → EReal := V c (Pipeline.arrRef spec0 4)
abbrev r0bk (c : Dev nD) : S1x96.Idx → EReal := V c (Pipeline.arrRef spec0 5)
abbrev r0bv (c : Dev nD) : S1x96.Idx → EReal := V c (Pipeline.arrRef spec0 6)

/-! ## Where the windows sit, and what each block reads -/

/-- At point t the four row windows (the node table's and the three results') sit at block t of their first axis;
    the weight and bias windows sit at block 0 on both axes. Decided over the ten points. -/
private theorem where_at : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Row p' of block t is row 5000 t + p' of the table. -/
private def rowAt (t : Fin cfg0.N) (p' : Fin 5000) : Fin 50000 :=
  ⟨t.val * 5000 + p'.val, by have := t.isLt; have hN : cfg0.N = 10 := N_0; have := p'.isLt; omega⟩

/-- The node table's block at point t is its rows 5000 t …. -/
private theorem rows_read (c : Dev nD) (t : Fin cfg0.N) (p' : Fin 5000) (k : Fin 96) :
    (iblk0 V c 0 t : Vec Ideal S5000x96 .f32) (ix2 p' k) = r0x V c (ix2 (rowAt t p') k) := by
  obtain ⟨⟨e0, e1⟩, -⟩ := where_at t
  unfold iblk0
  rw [View.read_apply]
  refine congrArg (V c (Pipeline.arrRef spec0 0)) (funext fun a => Fin.ext ?_)
  match a with
  | ⟨0, _⟩ => show win0_0.index t (0 : Fin 2) * 5000 + 1 * p'.val = t.val * 5000 + p'.val; omega
  | ⟨1, _⟩ => show win0_0.index t (1 : Fin 2) * 96 + 1 * k.val = k.val; omega

/-- Each weight window's block at any point is the whole weight table. -/
private theorem wq_read (c : Dev nD) (t : Fin cfg0.N) (k q : Fin 96) :
    (iblk0 V c 1 t : Vec Ideal S96x96 .f32) (ix2 k q) = r0wq V c (ix2 k q) := by
  obtain ⟨-, ⟨e0, e1⟩, -⟩ := where_at t
  unfold iblk0
  rw [View.read_apply]
  refine congrArg (V c (Pipeline.arrRef spec0 1)) (funext fun a => Fin.ext ?_)
  match a with
  | ⟨0, _⟩ => show win0_1.index t (0 : Fin 2) * 96 + 1 * k.val = k.val; omega
  | ⟨1, _⟩ => show win0_1.index t (1 : Fin 2) * 96 + 1 * q.val = q.val; omega
private theorem wk_read (c : Dev nD) (t : Fin cfg0.N) (k q : Fin 96) :
    (iblk0 V c 2 t : Vec Ideal S96x96 .f32) (ix2 k q) = r0wk V c (ix2 k q) := by
  obtain ⟨-, -, ⟨e0, e1⟩, -⟩ := where_at t
  unfold iblk0
  rw [View.read_apply]
  refine congrArg (V c (Pipeline.arrRef spec0 2)) (funext fun a => Fin.ext ?_)
  match a with
  | ⟨0, _⟩ => show win0_2.index t (0 : Fin 2) * 96 + 1 * k.val = k.val; omega
  | ⟨1, _⟩ => show win0_2.index t (1 : Fin 2) * 96 + 1 * q.val = q.val; omega
private theorem wv_read (c : Dev nD) (t : Fin cfg0.N) (k q : Fin 96) :
    (iblk0 V c 3 t : Vec Ideal S96x96 .f32) (ix2 k q) = r0wv V c (ix2 k q) := by
  obtain ⟨-, -, -, ⟨e0, e1⟩, -⟩ := where_at t
  unfold iblk0
  rw [View.read_apply]
  refine congrArg (V c (Pipeline.arrRef spec0 3)) (funext fun a => Fin.ext ?_)
  match a with
  | ⟨0, _⟩ => show win0_3.index t (0 : Fin 2) * 96 + 1 * k.val = k.val; omega
  | ⟨1, _⟩ => show win0_3.index t (1 : Fin 2) * 96 + 1 * q.val = q.val; omega

/-- Each bias window's block at any point is the whole bias row. -/
private theorem bq_read (c : Dev nD) (t : Fin cfg0.N) (q : Fin 96) :
    (iblk0 V c 4 t : Vec Ideal S1x96 .f32) (ix2 (0 : Fin 1) q) = r0bq V c (ix2 (0 : Fin 1) q) := by
  obtain ⟨-, -, -, -, ⟨e0, e1⟩, -⟩ := where_at t
  unfold iblk0
  rw [View.read_apply]
  refine congrArg (V c (Pipeline.arrRef spec0 4)) (funext fun a => Fin.ext ?_)
  match a with
  | ⟨0, _⟩ => show win0_4.index t (0 : Fin 2) * 1 + 1 * 0 = 0; omega
  | ⟨1, _⟩ => show win0_4.index t (1 : Fin 2) * 96 + 1 * q.val = q.val; omega
private theorem bk_read (c : Dev nD) (t : Fin cfg0.N) (q : Fin 96) :
    (iblk0 V c 5 t : Vec Ideal S1x96 .f32) (ix2 (0 : Fin 1) q) = r0bk V c (ix2 (0 : Fin 1) q) := by
  obtain ⟨-, -, -, -, -, ⟨e0, e1⟩, -⟩ := where_at t
  unfold iblk0
  rw [View.read_apply]
  refine congrArg (V c (Pipeline.arrRef spec0 5)) (funext fun a => Fin.ext ?_)
  match a with
  | ⟨0, _⟩ => show win0_5.index t (0 : Fin 2) * 1 + 1 * 0 = 0; omega
  | ⟨1, _⟩ => show win0_5.index t (1 : Fin 2) * 96 + 1 * q.val = q.val; omega
private theorem bv_read (c : Dev nD) (t : Fin cfg0.N) (q : Fin 96) :
    (iblk0 V c 6 t : Vec Ideal S1x96 .f32) (ix2 (0 : Fin 1) q) = r0bv V c (ix2 (0 : Fin 1) q) := by
  obtain ⟨-, -, -, -, -, -, ⟨e0, e1⟩, -⟩ := where_at t
  unfold iblk0
  rw [View.read_apply]
  refine congrArg (V c (Pipeline.arrRef spec0 6)) (funext fun a => Fin.ext ?_)
  match a with
  | ⟨0, _⟩ => show win0_6.index t (0 : Fin 2) * 1 + 1 * 0 = 0; omega
  | ⟨1, _⟩ => show win0_6.index t (1 : Fin 2) * 96 + 1 * q.val = q.val; omega

/-! ## What each point writes back: its block of the one table -/

private theorem wrote_q (c : Dev nD) (hx : ∀ i, IsReal (r0x V c i)) (hw : ∀ i, IsReal (r0wq V c i)) (t : Fin cfg0.N) :
    (dat0 (F := Ideal) V c).flushed 7 t
      = ((cfg0.win 7).blk t).view.read (Elt Ideal) (tableOf (r0x V c) (r0wq V c) (r0bq V c)) := by
  show (cfg0.win 7).cut (grid0.coords t) ((dat0 V c).after 7 t) = _
  rw [after0_7]
  unfold out0_7
  rw [View.canon_unit_zero zeros]
  simp only [View.ld_unit_zero (S := S5000x96) zeros, View.ld_unit_zero (S := S96x96) zeros, View.ld_unit_zero (S := S1x96) zeros]
  funext y
  obtain ⟨p', q, rfl⟩ : ∃ (p' : Fin 5000) (q : Fin 96), y = ix2 p' q := ⟨y 0, y 1, eq_ix2 y⟩
  rw [View.read_apply]
  obtain ⟨-, -, -, -, -, -, -, ⟨e0, e1⟩, -⟩ := where_at t
  have hemb : ((cfg0.win 7).blk t).view.emb (ix2 p' q) = ix2 (rowAt t p') q := funext fun a => Fin.ext (by
    match a with
    | ⟨0, _⟩ => show win0_7.index t (0 : Fin 2) * 5000 + 1 * p'.val = t.val * 5000 + p'.val; omega
    | ⟨1, _⟩ => show win0_7.index t (1 : Fin 2) * 96 + 1 * q.val = q.val; omega)
  rw [hemb]
  exact block_of (k0_pay2 (F := Ideal)) pay2_apply (r0x V c) (r0wq V c) (r0bq V c) (iblk0 V c 0 t) (iblk0 V c 1 t) (iblk0 V c 4 t)
    (rowAt t) (rows_read V c t) (wq_read V c t) (bq_read V c t) hx hw p' q

private theorem wrote_k (c : Dev nD) (hx : ∀ i, IsReal (r0x V c i)) (hw : ∀ i, IsReal (r0wk V c i)) (t : Fin cfg0.N) :
    (dat0 (F := Ideal) V c).flushed 8 t
      = ((cfg0.win 8).blk t).view.read (Elt Ideal) (tableOf (r0x V c) (r0wk V c) (r0bk V c)) := by
  show (cfg0.win 8).cut (grid0.coords t) ((dat0 V c).after 8 t) = _
  rw [after0_8]
  unfold out0_8
  rw [View.canon_unit_zero zeros]
  simp only [View.ld_unit_zero (S := S5000x96) zeros, View.ld_unit_zero (S := S96x96) zeros, View.ld_unit_zero (S := S1x96) zeros]
  funext y
  obtain ⟨p', q, rfl⟩ : ∃ (p' : Fin 5000) (q : Fin 96), y = ix2 p' q := ⟨y 0, y 1, eq_ix2 y⟩
  rw [View.read_apply]
  obtain ⟨-, -, -, -, -, -, -, -, ⟨e0, e1⟩, -⟩ := where_at t
  have hemb : ((cfg0.win 8).blk t).view.emb (ix2 p' q) = ix2 (rowAt t p') q := funext fun a => Fin.ext (by
    match a with
    | ⟨0, _⟩ => show win0_8.index t (0 : Fin 2) * 5000 + 1 * p'.val = t.val * 5000 + p'.val; omega
    | ⟨1, _⟩ => show win0_8.index t (1 : Fin 2) * 96 + 1 * q.val = q.val; omega)
  rw [hemb]
  exact block_of (k0_pay3 (F := Ideal)) pay3_apply (r0x V c) (r0wk V c) (r0bk V c) (iblk0 V c 0 t) (iblk0 V c 2 t) (iblk0 V c 5 t)
    (rowAt t) (rows_read V c t) (wk_read V c t) (bk_read V c t) hx hw p' q

private theorem wrote_v (c : Dev nD) (hx : ∀ i, IsReal (r0x V c i)) (hw : ∀ i, IsReal (r0wv V c i)) (t : Fin cfg0.N) :
    (dat0 (F := Ideal) V c).flushed 9 t
      = ((cfg0.win 9).blk t).view.read (Elt Ideal) (tableOf (r0x V c) (r0wv V c) (r0bv V c)) := by
  show (cfg0.win 9).cut (grid0.coords t) ((dat0 V c).after 9 t) = _
  rw [after0_9]
  unfold out0_9
  rw [View.canon_unit_zero zeros]
  simp only [View.ld_unit_zero (S := S5000x96) zeros, View.ld_unit_zero (S := S96x96) zeros, View.ld_unit_zero (S := S1x96) zeros]
  funext y
  obtain ⟨p', q, rfl⟩ : ∃ (p' : Fin 5000) (q : Fin 96), y = ix2 p' q := ⟨y 0, y 1, eq_ix2 y⟩
  rw [View.read_apply]
  obtain ⟨-, -, -, -, -, -, -, -, -, ⟨e0, e1⟩⟩ := where_at t
  have hemb : ((cfg0.win 9).blk t).view.emb (ix2 p' q) = ix2 (rowAt t p') q := funext fun a => Fin.ext (by
    match a with
    | ⟨0, _⟩ => show win0_9.index t (0 : Fin 2) * 5000 + 1 * p'.val = t.val * 5000 + p'.val; omega
    | ⟨1, _⟩ => show win0_9.index t (1 : Fin 2) * 96 + 1 * q.val = q.val; omega)
  rw [hemb]
  exact block_of (k0_pay1 (F := Ideal)) pay1_apply (r0x V c) (r0wv V c) (r0bv V c) (iblk0 V c 0 t) (iblk0 V c 3 t) (iblk0 V c 6 t)
    (rowAt t) (rows_read V c t) (wv_read V c t) (bv_read V c t) hx hw p' q

/-! ## The ten blocks fill the table: row r lies in block r / 5000 -/

private theorem in_block_q (t : Fin cfg0.N) (i : S50000x96.Idx) :
    i ∈ ((cfg0.win 7).blk t).view.set ↔ ∀ a : Fin 2, win0_7.index t a * S5000x96.size a ≤ (i a).val ∧ (i a).val < win0_7.index t a * S5000x96.size a + S5000x96.size a := by
  show i ∈ ((View.whole main_v28_0).slice (win0_7.rect t)).set ↔ _
  rw [View.set_slice_whole, Rect.mem_set_unit]
  exact Iff.rfl
private theorem in_block_k (t : Fin cfg0.N) (i : S50000x96.Idx) :
    i ∈ ((cfg0.win 8).blk t).view.set ↔ ∀ a : Fin 2, win0_8.index t a * S5000x96.size a ≤ (i a).val ∧ (i a).val < win0_8.index t a * S5000x96.size a + S5000x96.size a := by
  show i ∈ ((View.whole main_v28_1).slice (win0_8.rect t)).set ↔ _
  rw [View.set_slice_whole, Rect.mem_set_unit]
  exact Iff.rfl
private theorem in_block_v (t : Fin cfg0.N) (i : S50000x96.Idx) :
    i ∈ ((cfg0.win 9).blk t).view.set ↔ ∀ a : Fin 2, win0_9.index t a * S5000x96.size a ≤ (i a).val ∧ (i a).val < win0_9.index t a * S5000x96.size a + S5000x96.size a := by
  show i ∈ ((View.whole main_v28_2).slice (win0_9.rect t)).set ↔ _
  rw [View.set_slice_whole, Rect.mem_set_unit]
  exact Iff.rfl

/-- The point whose block holds row r. -/
private theorem point_of (i : S50000x96.Idx) : ∃ t : Fin cfg0.N, t.val = (i 0).val / 5000 := by
  have hi0 : (i 0).val < 50000 := (i 0).isLt
  have hN : cfg0.N = 10 := N_0
  exact ⟨⟨(i 0).val / 5000, by omega⟩, rfl⟩

private theorem fills_q (i : S50000x96.Idx) : ∃ t : Fin cfg0.N, (cfg0.win 7).flush t = true ∧ i ∈ ((cfg0.win 7).blk t).view.set := by
  have hi1 : (i 1).val < 96 := (i 1).isLt
  obtain ⟨t, ht⟩ := point_of i
  obtain ⟨-, -, -, -, -, -, -, ⟨e0, e1⟩, -⟩ := where_at t
  refine ⟨t, flush0_7 t, ?_⟩
  rw [in_block_q]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 96 ≤ (i 1).val ∧ (i 1).val < win0_7.index t (1 : Fin 2) * 96 + 96; omega
private theorem fills_k (i : S50000x96.Idx) : ∃ t : Fin cfg0.N, (cfg0.win 8).flush t = true ∧ i ∈ ((cfg0.win 8).blk t).view.set := by
  have hi1 : (i 1).val < 96 := (i 1).isLt
  obtain ⟨t, ht⟩ := point_of i
  obtain ⟨-, -, -, -, -, -, -, -, ⟨e0, e1⟩, -⟩ := where_at t
  refine ⟨t, flush0_8 t, ?_⟩
  rw [in_block_k]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 96 ≤ (i 1).val ∧ (i 1).val < win0_8.index t (1 : Fin 2) * 96 + 96; omega
private theorem fills_v (i : S50000x96.Idx) : ∃ t : Fin cfg0.N, (cfg0.win 9).flush t = true ∧ i ∈ ((cfg0.win 9).blk t).view.set := by
  have hi1 : (i 1).val < 96 := (i 1).isLt
  obtain ⟨t, ht⟩ := point_of i
  obtain ⟨-, -, -, -, -, -, -, -, -, ⟨e0, e1⟩⟩ := where_at t
  refine ⟨t, flush0_9 t, ?_⟩
  rw [in_block_v]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 96 ≤ (i 1).val ∧ (i 1).val < win0_9.index t (1 : Fin 2) * 96 + 96; omega

/-! ## The three tables after the region -/

/-- The query table after the region: row p of the node table through the first weight table. -/
theorem region0_q (c : Dev nD) (hx : ∀ i, IsReal (r0x V c i)) (hw : ∀ i, IsReal (r0wq V c i)) (p : Fin 50000) (q : Fin 96) :
    (dat0 (F := Ideal) V c).arrAt 7 cfg0.N (ix2 p q)
      = affine (fun k => r0x V c (ix2 p k)) (fun j k => r0wq V c (ix2 k j)) (fun j => r0bq V c (ix2 (0 : Fin 1) j)) q :=
  congrFun ((dat0 (F := Ideal) V c).arrAt_eq_of_cover 7 (tableOf (r0x V c) (r0wq V c) (r0bq V c))
    (fun t _ => wrote_q V c hx hw t) fills_q) (ix2 p q)

/-- The key table after the region. -/
theorem region0_k (c : Dev nD) (hx : ∀ i, IsReal (r0x V c i)) (hw : ∀ i, IsReal (r0wk V c i)) (p : Fin 50000) (q : Fin 96) :
    (dat0 (F := Ideal) V c).arrAt 8 cfg0.N (ix2 p q)
      = affine (fun k => r0x V c (ix2 p k)) (fun j k => r0wk V c (ix2 k j)) (fun j => r0bk V c (ix2 (0 : Fin 1) j)) q :=
  congrFun ((dat0 (F := Ideal) V c).arrAt_eq_of_cover 8 (tableOf (r0x V c) (r0wk V c) (r0bk V c))
    (fun t _ => wrote_k V c hx hw t) fills_k) (ix2 p q)

/-- The value table after the region. -/
theorem region0_v (c : Dev nD) (hx : ∀ i, IsReal (r0x V c i)) (hw : ∀ i, IsReal (r0wv V c i)) (p : Fin 50000) (q : Fin 96) :
    (dat0 (F := Ideal) V c).arrAt 9 cfg0.N (ix2 p q)
      = affine (fun k => r0x V c (ix2 p k)) (fun j k => r0wv V c (ix2 k j)) (fun j => r0bv V c (ix2 (0 : Fin 1) j)) q :=
  congrFun ((dat0 (F := Ideal) V c).arrAt_eq_of_cover 9 (tableOf (r0x V c) (r0wv V c) (r0bv V c))
    (fun t _ => wrote_v V c hx hw t) fills_v) (ix2 p q)

end Cert.KernelIdeal.Val

end
-- ==== Proof.Stage1.lean ====
/-
  After the first region: the query, key and value tables are the spec's, entry by entry.

  The region's weight tables are slices of the packed 288 × 96 table, transposed, and its bias rows slices of the
  packed bias; reading them back through the host operations that made them turns the region's affine maps into the
  spec's `qry`, `key` and `val`.
-/
import proofs.«420450_j53833120088741_2_alg».proof.Proof.KDefs
import proofs.«420450_j53833120088741_2_alg».proof.Proof.Region0
import Idealize.ShloMosaic.Lib.StableHlo.Run

set_option maxRecDepth 16384

noncomputable section

namespace Cert.KernelIdeal.Val

open Cert.KernelIdeal Cert.KernelIdeal.Gen Cert.Mp
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! ## The region's arrays read back to the arguments

The stretch before the region writes none of the arguments; each weight window is a 96-row slice of the packed
table, transposed, and each bias window a 96-entry slice of the packed bias laid out as one row. -/

/-- The node table reaches the region as launched. -/
private theorem x_eq (c : Dev nD) : (V1 (F := Ideal) m ρ c main_arg0 : S50000x96.Idx → EReal) = a0 m c :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

private theorem wq_eq (c : Dev nD) : (V1 (F := Ideal) m ρ c main_v25 : S96x96.Idx → EReal)
    = transpose S96x96 [1, 0] (extractStridedSlice S96x96 ![0, 0] (a3 m c) slices_S288x96_S96x96_0_0) transposes_S96x96_S96x96_1_0 := by
  show StableHlo.after hostOps0 (W0 m ρ c) (Proc.devRef .tc main_v25) = _
  after_results
private theorem wk_eq (c : Dev nD) : (V1 (F := Ideal) m ρ c main_v26 : S96x96.Idx → EReal)
    = transpose S96x96 [1, 0] (extractStridedSlice S96x96 ![96, 0] (a3 m c) slices_S288x96_S96x96_96_0) transposes_S96x96_S96x96_1_0 := by
  show StableHlo.after hostOps0 (W0 m ρ c) (Proc.devRef .tc main_v26) = _
  after_results
private theorem wv_eq (c : Dev nD) : (V1 (F := Ideal) m ρ c main_v27 : S96x96.Idx → EReal)
    = transpose S96x96 [1, 0] (extractStridedSlice S96x96 ![192, 0] (a3 m c) slices_S288x96_S96x96_192_0) transposes_S96x96_S96x96_1_0 := by
  show StableHlo.after hostOps0 (W0 m ρ c) (Proc.devRef .tc main_v27) = _
  after_results

private theorem bq_eq (c : Dev nD) : (V1 (F := Ideal) m ρ c main_v8 : S1x96.Idx → EReal)
    = shapeCast S1x96 (extractStridedSlice S96 ![0] (a4 m c) slices_S288_S96_0) shapeCasts_S96_S1x96 := by
  show StableHlo.after hostOps0 (W0 m ρ c) (Proc.devRef .tc main_v8) = _
  after_results; rfl
private theorem bk_eq (c : Dev nD) : (V1 (F := Ideal) m ρ c main_v10 : S1x96.Idx → EReal)
    = shapeCast S1x96 (extractStridedSlice S96 ![96] (a4 m c) slices_S288_S96_96) shapeCasts_S96_S1x96 := by
  show StableHlo.after hostOps0 (W0 m ρ c) (Proc.devRef .tc main_v10) = _
  after_results; rfl
private theorem bv_eq (c : Dev nD) : (V1 (F := Ideal) m ρ c main_v12 : S1x96.Idx → EReal)
    = shapeCast S1x96 (extractStridedSlice S96 ![192] (a4 m c) slices_S288_S96_192) shapeCasts_S96_S1x96 := by
  show StableHlo.after hostOps0 (W0 m ρ c) (Proc.devRef .tc main_v12) = _
  after_results; rfl

/-- A transposed 96-row slice that starts at row o, read at (k, j): the packed table at (o + j, k). -/
private theorem slice_transpose_at (o : Nat) (ho : o + 96 ≤ 288) (A : S288x96.Idx → EReal)
    (hs : S288x96.Slices ![o, 0] S96x96) (k j : Fin 96) :
    transpose S96x96 [1, 0] (extractStridedSlice S96x96 ![o, 0] A hs) transposes_S96x96_S96x96_1_0 (ix2 k j)
      = A (ix2 (off o ho j) k) := by
  refine (transpose_apply [1, 0] _ transposes_S96x96_S96x96_1_0 (ix2 k j) (ix2 j k) (fun b => match b with
    | ⟨0, _⟩ => rfl
    | ⟨1, _⟩ => rfl)).trans ?_
  exact extractStridedSlice_apply ![o, 0] A hs (ix2 j k) (ix2 (off o ho j) k) (fun a => match a with
    | ⟨0, _⟩ => rfl
    | ⟨1, _⟩ => by show k.val = 0 + k.val; omega)

/-- A 96-entry slice that starts at o, laid out as one row, read at (0, j): the packed list at o + j. -/
private theorem slice_row_at (o : Nat) (ho : o + 96 ≤ 288) (A : S288.Idx → EReal)
    (hs : S288.Slices ![o] S96) (j : Fin 96) :
    shapeCast S1x96 (extractStridedSlice S96 ![o] A hs) shapeCasts_S96_S1x96 (ix2 (0 : Fin 1) j)
      = A (ix1 (off o ho j)) := by
  refine (shapeCast_apply _ shapeCasts_S96_S1x96 (ix2 (0 : Fin 1) j) (ix1 j) (by
    rewrite [Shape.rowMajor_val_two, Shape.rowMajor_val_one]; show j.val = 0 * 96 + j.val; omega)).trans ?_
  exact extractStridedSlice_apply ![o] A hs (ix1 j) (ix1 (off o ho j)) (fun a => match a with
    | ⟨0, _⟩ => rfl)

private theorem wq_at (c : Dev nD) (k j : Fin 96) :
    r0wq (V1 (F := Ideal) m ρ) c (ix2 k j) = a3 m c (ix2 (off 0 (by norm_num) j) k) := by
  show (V1 (F := Ideal) m ρ c main_v25 : S96x96.Idx → EReal) (ix2 k j) = _
  rw [wq_eq]; exact slice_transpose_at 0 _ _ _ k j
private theorem wk_at (c : Dev nD) (k j : Fin 96) :
    r0wk (V1 (F := Ideal) m ρ) c (ix2 k j) = a3 m c (ix2 (off 96 (by norm_num) j) k) := by
  show (V1 (F := Ideal) m ρ c main_v26 : S96x96.Idx → EReal) (ix2 k j) = _
  rw [wk_eq]; exact slice_transpose_at 96 _ _ _ k j
private theorem wv_at (c : Dev nD) (k j : Fin 96) :
    r0wv (V1 (F := Ideal) m ρ) c (ix2 k j) = a3 m c (ix2 (off 192 (by norm_num) j) k) := by
  show (V1 (F := Ideal) m ρ c main_v27 : S96x96.Idx → EReal) (ix2 k j) = _
  rw [wv_eq]; exact slice_transpose_at 192 _ _ _ k j

private theorem bq_at (c : Dev nD) (j : Fin 96) :
    r0bq (V1 (F := Ideal) m ρ) c (ix2 (0 : Fin 1) j) = a4 m c (ix1 (off 0 (by norm_num) j)) := by
  show (V1 (F := Ideal) m ρ c main_v8 : S1x96.Idx → EReal) (ix2 (0 : Fin 1) j) = _
  rw [bq_eq]; exact slice_row_at 0 _ _ _ j
private theorem bk_at (c : Dev nD) (j : Fin 96) :
    r0bk (V1 (F := Ideal) m ρ) c (ix2 (0 : Fin 1) j) = a4 m c (ix1 (off 96 (by norm_num) j)) := by
  show (V1 (F := Ideal) m ρ c main_v10 : S1x96.Idx → EReal) (ix2 (0 : Fin 1) j) = _
  rw [bk_eq]; exact slice_row_at 96 _ _ _ j
private theorem bv_at (c : Dev nD) (j : Fin 96) :
    r0bv (V1 (F := Ideal) m ρ) c (ix2 (0 : Fin 1) j) = a4 m c (ix1 (off 192 (by norm_num) j)) := by
  show (V1 (F := Ideal) m ρ c main_v12 : S1x96.Idx → EReal) (ix2 (0 : Fin 1) j) = _
  rw [bv_eq]; exact slice_row_at 192 _ _ _ j

/-- Every entry of the region's node table is a real number. -/
private theorem x_real (c : Dev nD) (h : Ok m c) (i : S50000x96.Idx) : IsReal (r0x (V1 (F := Ideal) m ρ) c i) := by
  show IsReal ((V1 (F := Ideal) m ρ c main_arg0 : S50000x96.Idx → EReal) i)
  rw [x_eq]; exact h.r0 i
/-- Every entry of each weight window is an entry of the packed table, so a real number. -/
private theorem wq_real (c : Dev nD) (h : Ok m c) (i : S96x96.Idx) : IsReal (r0wq (V1 (F := Ideal) m ρ) c i) := by
  obtain ⟨k, j, rfl⟩ : ∃ k j, i = ix2 k j := ⟨i 0, i 1, eq_ix2 i⟩
  rw [wq_at]; exact h.r3 _
private theorem wk_real (c : Dev nD) (h : Ok m c) (i : S96x96.Idx) : IsReal (r0wk (V1 (F := Ideal) m ρ) c i) := by
  obtain ⟨k, j, rfl⟩ : ∃ k j, i = ix2 k j := ⟨i 0, i 1, eq_ix2 i⟩
  rw [wk_at]; exact h.r3 _
private theorem wv_real (c : Dev nD) (h : Ok m c) (i : S96x96.Idx) : IsReal (r0wv (V1 (F := Ideal) m ρ) c i) := by
  obtain ⟨k, j, rfl⟩ : ∃ k j, i = ix2 k j := ⟨i 0, i 1, eq_ix2 i⟩
  rw [wv_at]; exact h.r3 _

/-! ## The three tables -/

/-- The affine map of entrywise equal rows, weights and biases is the same. -/
private theorem affine_congr {a a' : Fin 96 → EReal} {w w' : Fin 96 → Fin 96 → EReal} {b b' : Fin 96 → EReal}
    (ha : ∀ k, a k = a' k) (hw : ∀ j k, w j k = w' j k) (hb : ∀ j, b j = b' j) (q : Fin 96) :
    affine a w b q = affine a' w' b' q := by
  rw [show a = a' from funext ha, show w = w' from funext fun j => funext (hw j), show b = b' from funext hb]

theorem stage1_q (c : Dev nD) (h : Ok m c) (p : Fin 50000) (q : Fin 96) :
    V2 (F := Ideal) m ρ c main_v28_0 (ix2 p q) = sQry m c p q := by
  have e := region0_q (V1 (F := Ideal) m ρ) c (x_real m ρ c h) (wq_real m ρ c h) p q
  rw [show V2 (F := Ideal) m ρ c main_v28_0 = (dat0 (F := Ideal) (V1 m ρ) c).arrAt 7 cfg0.N from W2_arr m ρ c 7, e]
  exact affine_congr (fun k => congrFun (x_eq m ρ c) (ix2 p k)) (fun j k => wq_at m ρ c k j) (fun j => bq_at m ρ c j) q
theorem stage1_k (c : Dev nD) (h : Ok m c) (p : Fin 50000) (q : Fin 96) :
    V2 (F := Ideal) m ρ c main_v28_1 (ix2 p q) = sKey m c p q := by
  have e := region0_k (V1 (F := Ideal) m ρ) c (x_real m ρ c h) (wk_real m ρ c h) p q
  rw [show V2 (F := Ideal) m ρ c main_v28_1 = (dat0 (F := Ideal) (V1 m ρ) c).arrAt 8 cfg0.N from W2_arr m ρ c 8, e]
  exact affine_congr (fun k => congrFun (x_eq m ρ c) (ix2 p k)) (fun j k => wk_at m ρ c k j) (fun j => bk_at m ρ c j) q
theorem stage1_v (c : Dev nD) (h : Ok m c) (p : Fin 50000) (q : Fin 96) :
    V2 (F := Ideal) m ρ c main_v28_2 (ix2 p q) = sVal m c p q := by
  have e := region0_v (V1 (F := Ideal) m ρ) c (x_real m ρ c h) (wv_real m ρ c h) p q
  rw [show V2 (F := Ideal) m ρ c main_v28_2 = (dat0 (F := Ideal) (V1 m ρ) c).arrAt 9 cfg0.N from W2_arr m ρ c 9, e]
  exact affine_congr (fun k => congrFun (x_eq m ρ c) (ix2 p k)) (fun j k => wv_at m ρ c k j) (fun j => bv_at m ρ c j) q

end Cert.KernelIdeal.Val

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.Stage2.lean ====
/-
  At the second region's entry: the gathered query, key and value rows.

  Each edge reads its destination's query row and, from the key and value tables laid side by side, its source's key
  and value rows. The gather wraps a negative index word, clamps it, and keeps the row only when the wrapped word names
  a row; the index words do, so every gathered row is kept.

  The take is a run of elementwise and layout operations on the column of index words; it is read in three parts (the
  wrapped column, the mask, the select over the gathered rows), each part's buffer as a function of the buffers it
  reads, and then at one entry.
-/
import proofs.«420450_j53833120088741_2_alg».proof.Proof.KDefs
import proofs.«420450_j53833120088741_2_alg».proof.Proof.Stage1
import proofs.«420450_j53833120088741_2_alg».proof.Proof.LibRowGatherScatter
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.Mp
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! ## The take as a term -/

/-- A column of index words, each wrapped: a negative word counts from the end of the 50000 rows. -/
private def wrapCol (d : S800000.Idx → BitVec 32) : S800000x1.Idx → BitVec 32 :=
  broadcastInDim S800000x1 ![0] bcast_S800000_S800000x1_0
    (select (cmpi .slt d (broadcastInDim S800000 ![] bcast_S_S800000 (constantI S_ 32 0#32)))
      (addi d (broadcastInDim S800000 ![] bcast_S_S800000 (constantI S_ 32 50000#32))) d)

/-- Which wrapped words name a row: at least 0 and at most 49999, the two tests joined over the unit axis. -/
private def keepMask (w : S800000x1.Idx → BitVec 32) : S800000.Idx → BitVec 1 :=
  Host.reduce IntOp.andi
    (andi (cmpi .sge w (broadcastInDim S800000x1 ![] bcast_S_S800000x1 (constantI S_ 32 0#32)))
      (cmpi .sle w (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of a 96-column table taken at a column of index words: the gathered row where the wrapped word names a
    row, the not-a-number word elsewhere. -/
private def take96 (x : S50000x96.Idx → EReal) (d : S800000.Idx → BitVec 32) : S800000x96.Idx → EReal :=
  select (broadcastInDim S800000x96 ![0] bcast_S800000_S800000x96_0 (keepMask (wrapCol d)))
    (Host.gather gather_S50000x96_S800000x1_S800000x96_1_0_n_n_0_1_196 x (wrapCol d))
    (broadcastInDim S800000x96 ![] bcast_S_S800000x96 (constant (F := Ideal) S_ .f32 0x7FC00000#32))

/-- The same for a 192-column table. -/
private def take192 (x : S50000x192.Idx → EReal) (d : S800000.Idx → BitVec 32) : S800000x192.Idx → EReal :=
  select (broadcastInDim S800000x192 ![0] bcast_S800000_S800000x192_0 (keepMask (wrapCol d)))
    (Host.gather gather_S50000x192_S800000x1_S800000x192_1_0_n_n_0_1_1192 x (wrapCol d))
    (broadcastInDim S800000x192 ![] bcast_S_S800000x192 (constant (F := Ideal) S_ .f32 0x7FC00000#32))

/-- A run of host operations taken in two parts: the first `n`, then the rest. -/
private theorem after_split {τ : Topo} {sig : RefSig} {Val : EltTy → Type} (n : Nat) (l : List (HloOp τ sig Val)) (V : Valuation τ sig Val) :
    StableHlo.after l V = StableHlo.after (l.drop n) (StableHlo.after (l.take n) V) := by
  rw [← StableHlo.after_append, List.take_append_drop]

/-! ### The rows of `main_v28_0` taken at the words of `main_v1`, in three parts -/

private theorem q_a (V : Valuation τ sig (Elt Ideal)) :
    StableHlo.after ((hostOps1_1 (F := Ideal)).take 8) V (Proc.devRef .tc main_call0_v5)
      = wrapCol (V (Proc.devRef .tc main_v1)) := by
  simp only [hostOps1_1, hostOps1_2, List.take_succ_cons, List.take_zero, List.drop_succ_cons, List.drop_zero]
  after_results
  simp only [StableHlo.TRef.ofBuf, StableHlo.TRef.toBuf, cast_eq]
  rfl

private theorem q_a_table (V : Valuation τ sig (Elt Ideal)) :
    StableHlo.after ((hostOps1_1 (F := Ideal)).take 8) V (Proc.devRef .tc main_v28_0) = V (Proc.devRef .tc main_v28_0) := by
  simp only [hostOps1_1, hostOps1_2, List.take_succ_cons, List.take_zero, List.drop_succ_cons, List.drop_zero]
  after_results

private theorem q_b (V : Valuation τ sig (Elt Ideal)) :
    StableHlo.after (((hostOps1_1 (F := Ideal)).drop 8).take 10) V (Proc.devRef .tc main_call0_v12)
      = keepMask (V (Proc.devRef .tc main_call0_v5)) := by
  simp only [hostOps1_1, hostOps1_2, List.take_succ_cons, List.take_zero, List.drop_succ_cons, List.drop_zero]
  after_results
  simp only [StableHlo.TRef.ofBuf, StableHlo.TRef.toBuf, cast_eq]
  rfl

private theorem q_b_col (V : Valuation τ sig (Elt Ideal)) :
    StableHlo.after (((hostOps1_1 (F := Ideal)).drop 8).take 10) V (Proc.devRef .tc main_call0_v5) = V (Proc.devRef .tc main_call0_v5) := by
  simp only [hostOps1_1, hostOps1_2, List.take_succ_cons, List.take_zero, List.drop_succ_cons, List.drop_zero]
  after_results

private theorem q_b_table (V : Valuation τ sig (Elt Ideal)) :
    StableHlo.after (((hostOps1_1 (F := Ideal)).drop 8).take 10) V (Proc.devRef .tc main_v28_0) = V (Proc.devRef .tc main_v28_0) := by
  simp only [hostOps1_1, hostOps1_2, List.take_succ_cons, List.take_zero, List.drop_succ_cons, List.drop_zero]
  after_results

private theorem q_c (V : Valuation τ sig (Elt Ideal)) :
    StableHlo.after (((hostOps1_1 (F := Ideal)).drop 8).drop 10) V (Proc.devRef .tc main_v30)
      = select (broadcastInDim S800000x96 ![0] bcast_S800000_S800000x96_0 (V (Proc.devRef .tc main_call0_v12)))
          (Host.gather gather_S50000x96_S800000x1_S800000x96_1_0_n_n_0_1_196 (V (Proc.devRef .tc main_v28_0)) (V (Proc.devRef .tc main_call0_v5)))
          (broadcastInDim S800000x96 ![] bcast_S_S800000x96 (constant (F := Ideal) S_ .f32 0x7FC00000#32)) := by
  simp only [hostOps1_1, hostOps1_2, List.take_succ_cons, List.take_zero, List.drop_succ_cons, List.drop_zero]
  after_results
  simp only [StableHlo.TRef.ofBuf, StableHlo.TRef.toBuf, cast_eq]

/-- The whole take: the buffer it leaves is `take96` of the table and the words it was given. -/
private theorem q_take (V : Valuation τ sig (Elt Ideal)) :
    StableHlo.after (hostOps1_1 (F := Ideal)) V (Proc.devRef .tc main_v30)
      = take96 (V (Proc.devRef .tc main_v28_0)) (V (Proc.devRef .tc main_v1)) := by
  rw [after_split 8 hostOps1_1 V, after_split 10 (List.drop 8 hostOps1_1), q_c, q_b, q_b_col, q_b_table, q_a, q_a_table]
  rfl

/-! ### The rows of `main_v29` taken at the words of `main_v3`, in three parts -/

private theorem kv_a (V : Valuation τ sig (Elt Ideal)) :
    StableHlo.after ((hostOps1_2 (F := Ideal)).take 8) V (Proc.devRef .tc main_call1_v5)
      = wrapCol (V (Proc.devRef .tc main_v3)) := by
  simp only [hostOps1_1, hostOps1_2, List.take_succ_cons, List.take_zero, List.drop_succ_cons, List.drop_zero]
  after_results
  simp only [StableHlo.TRef.ofBuf, StableHlo.TRef.toBuf, cast_eq]
  rfl

private theorem kv_a_table (V : Valuation τ sig (Elt Ideal)) :
    StableHlo.after ((hostOps1_2 (F := Ideal)).take 8) V (Proc.devRef .tc main_v29) = V (Proc.devRef .tc main_v29) := by
  simp only [hostOps1_1, hostOps1_2, List.take_succ_cons, List.take_zero, List.drop_succ_cons, List.drop_zero]
  after_results

private theorem kv_b (V : Valuation τ sig (Elt Ideal)) :
    StableHlo.after (((hostOps1_2 (F := Ideal)).drop 8).take 10) V (Proc.devRef .tc main_call1_v12)
      = keepMask (V (Proc.devRef .tc main_call1_v5)) := by
  simp only [hostOps1_1, hostOps1_2, List.take_succ_cons, List.take_zero, List.drop_succ_cons, List.drop_zero]
  after_results
  simp only [StableHlo.TRef.ofBuf, StableHlo.TRef.toBuf, cast_eq]
  rfl

private theorem kv_b_col (V : Valuation τ sig (Elt Ideal)) :
    StableHlo.after (((hostOps1_2 (F := Ideal)).drop 8).take 10) V (Proc.devRef .tc main_call1_v5) = V (Proc.devRef .tc main_call1_v5) := by
  simp only [hostOps1_1, hostOps1_2, List.take_succ_cons, List.take_zero, List.drop_succ_cons, List.drop_zero]
  after_results

private theorem kv_b_table (V : Valuation τ sig (Elt Ideal)) :
    StableHlo.after (((hostOps1_2 (F := Ideal)).drop 8).take 10) V (Proc.devRef .tc main_v29) = V (Proc.devRef .tc main_v29) := by
  simp only [hostOps1_1, hostOps1_2, List.take_succ_cons, List.take_zero, List.drop_succ_cons, List.drop_zero]
  after_results

private theorem kv_c (V : Valuation τ sig (Elt Ideal)) :
    StableHlo.after (((hostOps1_2 (F := Ideal)).drop 8).drop 10) V (Proc.devRef .tc main_v31)
      = select (broadcastInDim S800000x192 ![0] bcast_S800000_S800000x192_0 (V (Proc.devRef .tc main_call1_v12)))
          (Host.gather gather_S50000x192_S800000x1_S800000x192_1_0_n_n_0_1_1192 (V (Proc.devRef .tc main_v29)) (V (Proc.devRef .tc main_call1_v5)))
          (broadcastInDim S800000x192 ![] bcast_S_S800000x192 (constant (F := Ideal) S_ .f32 0x7FC00000#32)) := by
  simp only [hostOps1_1, hostOps1_2, List.take_succ_cons, List.take_zero, List.drop_succ_cons, List.drop_zero]
  after_results
  simp only [StableHlo.TRef.ofBuf, StableHlo.TRef.toBuf, cast_eq]

/-- The whole take: the buffer it leaves is `take192` of the table and the words it was given. -/
private theorem kv_take (V : Valuation τ sig (Elt Ideal)) :
    StableHlo.after (hostOps1_2 (F := Ideal)) V (Proc.devRef .tc main_v31)
      = take192 (V (Proc.devRef .tc main_v29)) (V (Proc.devRef .tc main_v3)) := by
  rw [after_split 8 hostOps1_2 V, after_split 10 (List.drop 8 hostOps1_2), kv_c, kv_b, kv_b_col, kv_b_table, kv_a, kv_a_table]
  rfl

/-! ## The take read at an entry -/

/-- A left fold by `and` that starts at 1 and meets only 1s ends at 1. -/
private theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a List.mem_cons_self]
    rfl

private theorem toInt_zero32 : (0#32 : BitVec 32).toInt = 0 := by decide
private theorem toInt_top32 : (49999#32 : BitVec 32).toInt = 49999 := by decide

/-- A word that is no negative integer is left as it is. -/
private theorem wrapIdx_of_nonneg {v : BitVec 32} (h : 0 ≤ v.toInt) : wrapIdx v = v := by
  unfold wrapIdx
  have hc : IntOp.cmpi .slt v 0#32 = 0#1 := by
    apply eq_zero_of_ne_one
    rw [IntOp.cmpi_slt, toInt_zero32]
    omega
  rw [hc, select_zero]

/-- The wrapped column at row `e` is the wrapped word `e`. -/
private theorem wrapCol_apply (d : S800000.Idx → BitVec 32) (e : Fin 800000) :
    wrapCol d (ix2 e (0 : Fin 1)) = wrapIdx (d (ix1 e)) := by
  unfold wrapCol
  refine (broadcastInDim_apply _ bcast_S800000_S800000x1_0 _ (ix2 e (0 : Fin 1)) (ix1 e) (fun a => match a with
    | ⟨0, _⟩ => by show e.val = if (800000 : Nat) = 1 then 0 else e.val; rw [if_neg (by decide)])).trans ?_
  rfl

/-- Where the wrapped word names a row the mask is 1. -/
private theorem keepMask_one (w : S800000x1.Idx → BitVec 32) (e : Fin 800000)
    (h0 : 0 ≤ (w (ix2 e (0 : Fin 1))).toInt) (h1 : (w (ix2 e (0 : Fin 1))).toInt ≤ 49999) :
    keepMask w (ix1 e) = 1#1 := by
  unfold keepMask
  rw [Host.reduce_eq_foldl]
  refine foldl_andi_one _ _ _ rfl fun i hi => ?_
  have hdrop : reducesTo_S800000x1_S800000_d1.drop i = ix1 e := of_decide_eq_true (List.mem_filter.mp hi).2
  obtain ⟨p, z, rfl⟩ : ∃ (p : Fin 800000) (z : Fin 1), i = ix2 p z := ⟨i 0, i 1, eq_ix2 i⟩
  obtain rfl : z = 0 := Subsingleton.elim _ _
  have hp : p = e := by
    have hv : ((reducesTo_S800000x1_S800000_d1.drop (ix2 p (0 : Fin 1))) 0 : Nat) = p.val :=
      Shape.ReducesTo.drop_apply_val_of_eq reducesTo_S800000x1_S800000_d1 (ix2 p (0 : Fin 1)) 0 0
    rw [hdrop] at hv
    exact Fin.ext hv.symm
  subst hp
  show IntOp.andi (IntOp.cmpi .sge (w (ix2 p (0 : Fin 1))) 0#32) (IntOp.cmpi .sle (w (ix2 p (0 : Fin 1))) 49999#32) = 1#1
  rw [IntOp.andi_eq_one, IntOp.cmpi_sge, IntOp.cmpi_sle, toInt_zero32, toInt_top32]
  exact ⟨h0, h1⟩

/-- The take of a 96-column table at a word that names a row reads that row. -/
private theorem take96_apply (x : S50000x96.Idx → EReal) (d : S800000.Idx → BitVec 32) (e : Fin 800000) (q : Fin 96)
    (hd : 0 ≤ (d (ix1 e)).toInt ∧ (d (ix1 e)).toInt < 50000) :
    take96 x d (ix2 e q) = x (ix2 (rowOf (d (ix1 e))) q) := by
  have hw : wrapCol d (ix2 e (0 : Fin 1)) = d (ix1 e) := (wrapCol_apply d e).trans (wrapIdx_of_nonneg hd.1)
  have hm : keepMask (wrapCol d) (ix1 e) = 1#1 :=
    keepMask_one _ e (by rw [hw]; exact hd.1) (by rw [hw]; omega)
  have hb : broadcastInDim S800000x96 ![0] bcast_S800000_S800000x96_0 (keepMask (wrapCol d)) (ix2 e q) = keepMask (wrapCol d) (ix1 e) :=
    broadcastInDim_apply _ bcast_S800000_S800000x96_0 _ (ix2 e q) (ix1 e) (fun a => match a with
      | ⟨0, _⟩ => by show e.val = if (800000 : Nat) = 1 then 0 else e.val; rw [if_neg (by decide)])
  unfold take96
  rw [select_apply, hb, hm, select_one]
  refine (Cert.Gcn.gather_rows_apply (N := 50000) (E := 800000) (C := 96) (by decide)
    gather_S50000x96_S800000x1_S800000x96_1_0_n_n_0_1_196_wf x (wrapCol d) e q).trans ?_
  refine congrArg x (congrArg (fun r : Fin 50000 => ix2 r q) (Fin.ext ?_))
  show min (wrapCol d (ix2 e (0 : Fin 1))).toInt.toNat (50000 - 1) = min (wrapIdx (d (ix1 e))).toInt.toNat (50000 - 1)
  rw [wrapCol_apply]

/-- The same for a 192-column table. -/
private theorem take192_apply (x : S50000x192.Idx → EReal) (d : S800000.Idx → BitVec 32) (e : Fin 800000) (q : Fin 192)
    (hd : 0 ≤ (d (ix1 e)).toInt ∧ (d (ix1 e)).toInt < 50000) :
    take192 x d (ix2 e q) = x (ix2 (rowOf (d (ix1 e))) q) := by
  have hw : wrapCol d (ix2 e (0 : Fin 1)) = d (ix1 e) := (wrapCol_apply d e).trans (wrapIdx_of_nonneg hd.1)
  have hm : keepMask (wrapCol d) (ix1 e) = 1#1 :=
    keepMask_one _ e (by rw [hw]; exact hd.1) (by rw [hw]; omega)
  have hb : broadcastInDim S800000x192 ![0] bcast_S800000_S800000x192_0 (keepMask (wrapCol d)) (ix2 e q) = keepMask (wrapCol d) (ix1 e) :=
    broadcastInDim_apply _ bcast_S800000_S800000x192_0 _ (ix2 e q) (ix1 e) (fun a => match a with
      | ⟨0, _⟩ => by show e.val = if (800000 : Nat) = 1 then 0 else e.val; rw [if_neg (by decide)])
  unfold take192
  rw [select_apply, hb, hm, select_one]
  refine (Cert.Gcn.gather_rows_apply (N := 50000) (E := 800000) (C := 192) (by decide)
    gather_S50000x192_S800000x1_S800000x192_1_0_n_n_0_1_1192_wf x (wrapCol d) e q).trans ?_
  refine congrArg x (congrArg (fun r : Fin 50000 => ix2 r q) (Fin.ext ?_))
  show min (wrapCol d (ix2 e (0 : Fin 1))).toInt.toNat (50000 - 1) = min (wrapIdx (d (ix1 e))).toInt.toNat (50000 - 1)
  rw [wrapCol_apply]

/-! ## The other stretches: what each leaves at the buffers read here -/

/-- The last stretch cuts the key half and the value half out of the taken rows … -/
private theorem cut_k (V : Valuation τ sig (Elt Ideal)) :
    StableHlo.after (hostOps1_3 (F := Ideal)) V (Proc.devRef .tc main_v32)
      = extractStridedSlice S800000x96 ![0, 0] (V (Proc.devRef .tc main_v31)) slices_S800000x192_S800000x96_0_0 := by
  after_results <;> rfl
private theorem cut_v (V : Valuation τ sig (Elt Ideal)) :
    StableHlo.after (hostOps1_3 (F := Ideal)) V (Proc.devRef .tc main_v33)
      = extractStridedSlice S800000x96 ![0, 96] (V (Proc.devRef .tc main_v31)) slices_S800000x192_S800000x96_0_96 := by
  after_results <;> rfl
/-- … and leaves the gathered query rows alone, as does the take before it. -/
private theorem keep3_q (V : Valuation τ sig (Elt Ideal)) :
    StableHlo.after (hostOps1_3 (F := Ideal)) V (Proc.devRef .tc main_v30) = V (Proc.devRef .tc main_v30) := by
  after_results <;> rfl
private theorem keep2_q (V : Valuation τ sig (Elt Ideal)) :
    StableHlo.after (hostOps1_2 (F := Ideal)) V (Proc.devRef .tc main_v30) = V (Proc.devRef .tc main_v30) := by
  after_results <;> rfl
/-- The query take leaves the side-by-side table and the source words alone. -/
private theorem keep1_kv (V : Valuation τ sig (Elt Ideal)) :
    StableHlo.after (hostOps1_1 (F := Ideal)) V (Proc.devRef .tc main_v29) = V (Proc.devRef .tc main_v29) := by
  after_results <;> rfl
private theorem keep1_s (V : Valuation τ sig (Elt Ideal)) :
    StableHlo.after (hostOps1_1 (F := Ideal)) V (Proc.devRef .tc main_v3) = V (Proc.devRef .tc main_v3) := by
  after_results <;> rfl
/-- The stretch after the first region lays the key table and the value table side by side, and leaves the query
    table and the index words alone. -/
private theorem cat_kv (V : Valuation τ sig (Elt Ideal)) :
    StableHlo.after (hostOps1 (F := Ideal)) V (Proc.devRef .tc main_v29)
      = concatenate S50000x192 1 [⟨S50000x96, V (Proc.devRef .tc main_v28_1)⟩, ⟨S50000x96, V (Proc.devRef .tc main_v28_2)⟩]
          concatenates_S50000x96_S50000x96_S50000x192_d1 := by
  after_results <;> rfl
private theorem keep0_q (V : Valuation τ sig (Elt Ideal)) :
    StableHlo.after (hostOps1 (F := Ideal)) V (Proc.devRef .tc main_v28_0) = V (Proc.devRef .tc main_v28_0) := by
  after_results <;> rfl
private theorem keep0_d (V : Valuation τ sig (Elt Ideal)) :
    StableHlo.after (hostOps1 (F := Ideal)) V (Proc.devRef .tc main_v1) = V (Proc.devRef .tc main_v1) := by
  after_results <;> rfl
private theorem keep0_s (V : Valuation τ sig (Elt Ideal)) :
    StableHlo.after (hostOps1 (F := Ideal)) V (Proc.devRef .tc main_v3) = V (Proc.devRef .tc main_v3) := by
  after_results <;> rfl
/-- The first stretch reads the destination words off row 0 of the index table and the source words off row 1. -/
private theorem word_d (V : Valuation τ sig (Elt Ideal)) :
    StableHlo.after (hostOps0 (F := Ideal)) V (Proc.devRef .tc main_v1)
      = shapeCast _ (extractStridedSlice S1x800000 ![0, 0] (V (Proc.devRef .tc main_arg2)) slices_S2x800000_S1x800000_0_0)
          shapeCasts_S1x800000_S800000 := by
  after_results <;> rfl
private theorem word_s (V : Valuation τ sig (Elt Ideal)) :
    StableHlo.after (hostOps0 (F := Ideal)) V (Proc.devRef .tc main_v3)
      = shapeCast _ (extractStridedSlice S1x800000 ![1, 0] (V (Proc.devRef .tc main_arg2)) slices_S2x800000_S1x800000_1_0)
          shapeCasts_S1x800000_S800000 := by
  after_results <;> rfl

/-- Row 0 of the index table, flattened, read at `e`. -/
private theorem word_d_apply (x : S2x800000.Idx → BitVec 32) (e : Fin 800000) :
    shapeCast S800000 (extractStridedSlice S1x800000 ![0, 0] x slices_S2x800000_S1x800000_0_0) shapeCasts_S1x800000_S800000 (ix1 e)
      = x (ix2 (0 : Fin 2) e) := by
  refine (shapeCast_apply _ shapeCasts_S1x800000_S800000 (ix1 e) (ix2 (0 : Fin 1) e) (by
    rewrite [Shape.rowMajor_val_two, Shape.rowMajor_val_one]; show 0 * 800000 + e.val = e.val; omega)).trans ?_
  exact extractStridedSlice_apply ![0, 0] x slices_S2x800000_S1x800000_0_0 (ix2 (0 : Fin 1) e) (ix2 (0 : Fin 2) e) (fun a => match a with
    | ⟨0, _⟩ => by show (0 : Nat) = 0 + 0; rfl
    | ⟨1, _⟩ => by show e.val = 0 + e.val; omega)
/-- Row 1 of the index table, flattened, read at `e`. -/
private theorem word_s_apply (x : S2x800000.Idx → BitVec 32) (e : Fin 800000) :
    shapeCast S800000 (extractStridedSlice S1x800000 ![1, 0] x slices_S2x800000_S1x800000_1_0) shapeCasts_S1x800000_S800000 (ix1 e)
      = x (ix2 (1 : Fin 2) e) := by
  refine (shapeCast_apply _ shapeCasts_S1x800000_S800000 (ix1 e) (ix2 (0 : Fin 1) e) (by
    rewrite [Shape.rowMajor_val_two, Shape.rowMajor_val_one]; show 0 * 800000 + e.val = e.val; omega)).trans ?_
  exact extractStridedSlice_apply ![1, 0] x slices_S2x800000_S1x800000_1_0 (ix2 (0 : Fin 1) e) (ix2 (1 : Fin 2) e) (fun a => match a with
    | ⟨0, _⟩ => by show (1 : Nat) = 1 + 0; rfl
    | ⟨1, _⟩ => by show e.val = 0 + e.val; omega)

/-! ## The run's buffers at the second region's entry -/

/-- The destination words and the source words, as the first stretch leaves them. -/
private theorem dst_word (c : Dev nD) (e : Fin 800000) :
    W1 (F := Ideal) m ρ c (Proc.devRef .tc main_v1) (ix1 e) = a2 m c (ix2 (0 : Fin 2) e) :=
  (congrFun (word_d (W0 (F := Ideal) m ρ c)) (ix1 e)).trans (word_d_apply _ e)
private theorem src_word (c : Dev nD) (e : Fin 800000) :
    W1 (F := Ideal) m ρ c (Proc.devRef .tc main_v3) (ix1 e) = a2 m c (ix2 (1 : Fin 2) e) :=
  (congrFun (word_s (W0 (F := Ideal) m ρ c)) (ix1 e)).trans (word_s_apply _ e)

/-- The gathered query rows: the take of the first region's query table at the destination words. -/
private theorem v30_eq (c : Dev nD) :
    W6 (F := Ideal) m ρ c (Proc.devRef .tc main_v30)
      = take96 (W2 (F := Ideal) m ρ c (Proc.devRef .tc main_v28_0)) (W1 (F := Ideal) m ρ c (Proc.devRef .tc main_v1)) :=
  calc W6 (F := Ideal) m ρ c (Proc.devRef .tc main_v30)
    _ = W5 m ρ c (Proc.devRef .tc main_v30) := keep3_q _
    _ = W4 m ρ c (Proc.devRef .tc main_v30) := keep2_q _
    _ = take96 (W3 m ρ c (Proc.devRef .tc main_v28_0)) (W3 m ρ c (Proc.devRef .tc main_v1)) := q_take _
    _ = take96 (W2 m ρ c (Proc.devRef .tc main_v28_0)) (W1 m ρ c (Proc.devRef .tc main_v1)) :=
        congrArg₂ take96 (keep0_q _) ((keep0_d _).trans (W2_of_ne m ρ c main_v1 (by decide)))

/-- The taken key-and-value rows: the take of the two tables side by side at the source words. -/
private theorem v31_eq (c : Dev nD) :
    W5 (F := Ideal) m ρ c (Proc.devRef .tc main_v31)
      = take192 (concatenate S50000x192 1 [⟨S50000x96, W2 (F := Ideal) m ρ c (Proc.devRef .tc main_v28_1)⟩,
            ⟨S50000x96, W2 (F := Ideal) m ρ c (Proc.devRef .tc main_v28_2)⟩] concatenates_S50000x96_S50000x96_S50000x192_d1)
          (W1 (F := Ideal) m ρ c (Proc.devRef .tc main_v3)) :=
  calc W5 (F := Ideal) m ρ c (Proc.devRef .tc main_v31)
    _ = take192 (W4 m ρ c (Proc.devRef .tc main_v29)) (W4 m ρ c (Proc.devRef .tc main_v3)) := kv_take _
    _ = _ := congrArg₂ take192 ((keep1_kv _).trans (cat_kv _))
        ((keep1_s _).trans ((keep0_s _).trans (W2_of_ne m ρ c main_v3 (by decide))))

theorem stage2_qd (c : Dev nD) (h : Ok m c) (e : Fin 800000) (q : Fin 96) :
    V6 (F := Ideal) m ρ c main_v30 (ix2 e q) = sQry m c (rdOf (a2 m c) e) q := by
  have hd := dst_word m ρ c e
  show W6 (F := Ideal) m ρ c (Proc.devRef .tc main_v30) (ix2 e q) = _
  rw [v30_eq m ρ c, take96_apply _ _ e q (by rw [hd]; exact h.idx _), hd]
  exact stage1_q m ρ c h _ q

theorem stage2_ks (c : Dev nD) (h : Ok m c) (e : Fin 800000) (q : Fin 96) :
    V6 (F := Ideal) m ρ c main_v32 (ix2 e q) = sKey m c (rsOf (a2 m c) e) q := by
  have hs := src_word m ρ c e
  have h32 : W6 (F := Ideal) m ρ c (Proc.devRef .tc main_v32)
      = extractStridedSlice S800000x96 ![0, 0] (W5 (F := Ideal) m ρ c (Proc.devRef .tc main_v31)) slices_S800000x192_S800000x96_0_0 :=
    cut_k _
  show W6 (F := Ideal) m ρ c (Proc.devRef .tc main_v32) (ix2 e q) = _
  rw [h32]
  refine (extractStridedSlice_apply ![0, 0] _ slices_S800000x192_S800000x96_0_0 (ix2 e q)
    (ix2 e (⟨q.val, by omega⟩ : Fin 192)) (fun a => match a with
      | ⟨0, _⟩ => by show e.val = 0 + e.val; omega
      | ⟨1, _⟩ => by show q.val = 0 + q.val; omega)).trans ?_
  rw [v31_eq m ρ c, take192_apply _ _ e _ (by rw [hs]; exact h.idx _), hs]
  refine (concatenate_pair_apply_left 1 _ _ concatenates_S50000x96_S50000x96_S50000x192_d1 _ rfl
    (ix2 (rowOf (a2 m c (ix2 (1 : Fin 2) e))) q) (fun b => match b with
      | ⟨0, _⟩ => rfl
      | ⟨1, _⟩ => rfl)).trans ?_
  exact stage1_k m ρ c h _ q

theorem stage2_vs (c : Dev nD) (h : Ok m c) (e : Fin 800000) (q : Fin 96) :
    V6 (F := Ideal) m ρ c main_v33 (ix2 e q) = sVal m c (rsOf (a2 m c) e) q := by
  have hs := src_word m ρ c e
  have h33 : W6 (F := Ideal) m ρ c (Proc.devRef .tc main_v33)
      = extractStridedSlice S800000x96 ![0, 96] (W5 (F := Ideal) m ρ c (Proc.devRef .tc main_v31)) slices_S800000x192_S800000x96_0_96 :=
    cut_v _
  show W6 (F := Ideal) m ρ c (Proc.devRef .tc main_v33) (ix2 e q) = _
  rw [h33]
  refine (extractStridedSlice_apply ![0, 96] _ slices_S800000x192_S800000x96_0_96 (ix2 e q)
    (ix2 e (⟨96 + q.val, by omega⟩ : Fin 192)) (fun a => match a with
      | ⟨0, _⟩ => by show e.val = 0 + e.val; omega
      | ⟨1, _⟩ => by show 96 + q.val = 96 + q.val; rfl)).trans ?_
  rw [v31_eq m ρ c, take192_apply _ _ e _ (by rw [hs]; exact h.idx _), hs]
  refine (concatenate_pair_apply_right 1 _ _ concatenates_S50000x96_S50000x96_S50000x192_d1 _ rfl rfl
    (ix2 (rowOf (a2 m c (ix2 (1 : Fin 2) e))) q) (fun b hb => match b, hb with
      | ⟨0, _⟩, _ => rfl
      | ⟨1, _⟩, hb => (hb (Fin.ext rfl)).elim)
    (by show q.val + 96 = 96 + q.val; omega)).trans ?_
  exact stage1_v m ρ c h _ q

end Cert.KernelIdeal.Val

end
-- ==== Proof.Stage2b.lean ====
/-
  At the second region's entry: its other arrays, read back to the argument arrays.

  The edge table is the argument itself; the two weight tables are the two halves of the packed 192 × 96 table,
  transposed; the bias rows the two halves of the packed bias; gain and shift the arguments as rows; and the
  destination words the first row of the index table.

  Every one of these buffers is written once, by a layout operation of the first stretch of host operations (or,
  for the two transposed tables, of the last stretch before the region), and by nothing afterwards: the stretches in
  between write other buffers, and the first region's arrays are other buffers. So the contents at the second
  region's entry are the layout operation applied to an argument, and each entry is the argument's entry at the
  index the layout operation reads: a transpose swaps the two coordinates, a slice from row `o` reads row `o + j`,
  a list cast to a one-row table (or a one-row table cast to a list) reads the same position.
-/
import proofs.«420450_j53833120088741_2_alg».proof.Proof.KDefs
import Idealize.ShloMosaic.Lib.StableHlo.Run
import Idealize.ShloMosaic.Lib.ValueLayout

set_option maxRecDepth 16384

noncomputable section

namespace Cert.KernelIdeal.Val

open Cert.KernelIdeal Cert.KernelIdeal.Gen Cert.Mp
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-- No operation of a stretch writes the buffer: each operation's one result buffer is another reference. -/
local macro "not_written" : tactic => `(tactic| (
  refine List.forall_iff_forall_mem.mp ?_
  simp only [hostOps0, hostOps1, hostOps1_1, hostOps1_2, hostOps1_3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## A buffer nothing writes between two boundaries holds at the later what it held at the earlier -/

/-- From the first region's entry to the last stretch before the second region: the two gathers' stretches and the
    concatenation write other buffers, and the buffer is no array of the first region. -/
private theorem walk51 (c : Dev nD) (b : Ref sig .tc)
    (h2 : ∀ op ∈ (hostOps1_2 : List (HloOp τ sig (Elt Ideal))), Proc.devRef (τ := τ) .tc b ∉ op.writes)
    (h1 : ∀ op ∈ (hostOps1_1 : List (HloOp τ sig (Elt Ideal))), Proc.devRef (τ := τ) .tc b ∉ op.writes)
    (h0 : ∀ op ∈ (hostOps1 : List (HloOp τ sig (Elt Ideal))), Proc.devRef (τ := τ) .tc b ∉ op.writes)
    (hr : ∀ w, Pipeline.arrRef spec0 w ≠ b) :
    W5 (F := Ideal) m ρ c (Proc.devRef .tc b) = W1 m ρ c (Proc.devRef .tc b) :=
  calc W5 (F := Ideal) m ρ c (Proc.devRef .tc b)
    _ = W4 m ρ c (Proc.devRef .tc b) := StableHlo.after_of_forall_not_mem (b := Proc.devRef .tc b) _ _ h2
    _ = W3 m ρ c (Proc.devRef .tc b) := StableHlo.after_of_forall_not_mem (b := Proc.devRef .tc b) _ _ h1
    _ = W2 m ρ c (Proc.devRef .tc b) := StableHlo.after_of_forall_not_mem (b := Proc.devRef .tc b) _ _ h0
    _ = W1 m ρ c (Proc.devRef .tc b) := W2_of_ne m ρ c b hr

/-- The same up to the second region's entry, for a buffer the last stretch does not write either. -/
private theorem walk61 (c : Dev nD) (b : Ref sig .tc)
    (h3 : ∀ op ∈ (hostOps1_3 : List (HloOp τ sig (Elt Ideal))), Proc.devRef (τ := τ) .tc b ∉ op.writes)
    (h2 : ∀ op ∈ (hostOps1_2 : List (HloOp τ sig (Elt Ideal))), Proc.devRef (τ := τ) .tc b ∉ op.writes)
    (h1 : ∀ op ∈ (hostOps1_1 : List (HloOp τ sig (Elt Ideal))), Proc.devRef (τ := τ) .tc b ∉ op.writes)
    (h0 : ∀ op ∈ (hostOps1 : List (HloOp τ sig (Elt Ideal))), Proc.devRef (τ := τ) .tc b ∉ op.writes)
    (hr : ∀ w, Pipeline.arrRef spec0 w ≠ b) :
    W6 (F := Ideal) m ρ c (Proc.devRef .tc b) = W1 m ρ c (Proc.devRef .tc b) :=
  (StableHlo.after_of_forall_not_mem (b := Proc.devRef .tc b) _ _ h3).trans (walk51 m ρ c b h2 h1 h0 hr)

/-! ## What the first stretch writes: a layout operation applied to an argument -/

/-- The first 96 rows of the packed weight table. -/
private theorem w1_v13 (c : Dev nD) : (W1 (F := Ideal) m ρ c (Proc.devRef .tc main_v13) : S96x96.Idx → EReal)
    = extractStridedSlice S96x96 ![0, 0] (a5 m c) slices_S192x96_S96x96_0_0 := by
  show StableHlo.after hostOps0 (W0 m ρ c) (Proc.devRef .tc main_v13) = _
  after_results <;> rfl
/-- The second 96 rows of the packed weight table. -/
private theorem w1_v14 (c : Dev nD) : (W1 (F := Ideal) m ρ c (Proc.devRef .tc main_v14) : S96x96.Idx → EReal)
    = extractStridedSlice S96x96 ![96, 0] (a5 m c) slices_S192x96_S96x96_96_0 := by
  show StableHlo.after hostOps0 (W0 m ρ c) (Proc.devRef .tc main_v14) = _
  after_results <;> rfl
/-- The first 96 entries of the packed bias, as a row. -/
private theorem w1_v16 (c : Dev nD) : (W1 (F := Ideal) m ρ c (Proc.devRef .tc main_v16) : S1x96.Idx → EReal)
    = shapeCast S1x96 (extractStridedSlice S96 ![0] (a6 m c) slices_S192_S96_0) shapeCasts_S96_S1x96 := by
  show StableHlo.after hostOps0 (W0 m ρ c) (Proc.devRef .tc main_v16) = _
  after_results <;> rfl
/-- The second 96 entries of the packed bias, as a row. -/
private theorem w1_v18 (c : Dev nD) : (W1 (F := Ideal) m ρ c (Proc.devRef .tc main_v18) : S1x96.Idx → EReal)
    = shapeCast S1x96 (extractStridedSlice S96 ![96] (a6 m c) slices_S192_S96_96) shapeCasts_S96_S1x96 := by
  show StableHlo.after hostOps0 (W0 m ρ c) (Proc.devRef .tc main_v18) = _
  after_results <;> rfl
/-- The edges' gain, as a row. -/
private theorem w1_v23 (c : Dev nD) : (W1 (F := Ideal) m ρ c (Proc.devRef .tc main_v23) : S1x96.Idx → EReal)
    = shapeCast S1x96 (a13 m c) shapeCasts_S96_S1x96 := by
  show StableHlo.after hostOps0 (W0 m ρ c) (Proc.devRef .tc main_v23) = _
  after_results <;> rfl
/-- The edges' shift, as a row. -/
private theorem w1_v24 (c : Dev nD) : (W1 (F := Ideal) m ρ c (Proc.devRef .tc main_v24) : S1x96.Idx → EReal)
    = shapeCast S1x96 (a14 m c) shapeCasts_S96_S1x96 := by
  show StableHlo.after hostOps0 (W0 m ρ c) (Proc.devRef .tc main_v24) = _
  after_results <;> rfl
/-- The first row of the index table, as a list. -/
private theorem w1_v1 (c : Dev nD) : (W1 (F := Ideal) m ρ c (Proc.devRef .tc main_v1) : S800000.Idx → BitVec 32)
    = shapeCast S800000 (extractStridedSlice S1x800000 ![0, 0] (a2 m c) slices_S2x800000_S1x800000_0_0) shapeCasts_S1x800000_S800000 := by
  show StableHlo.after hostOps0 (W0 m ρ c) (Proc.devRef .tc main_v1) = _
  after_results <;> rfl

/-! ## What the last stretch before the second region writes: the two halves transposed -/

private theorem w6_v34 (c : Dev nD) : (V6 (F := Ideal) m ρ c main_v34 : S96x96.Idx → EReal)
    = transpose S96x96 [1, 0] (W5 (F := Ideal) m ρ c (Proc.devRef .tc main_v13) : S96x96.Idx → EReal) transposes_S96x96_S96x96_1_0 := by
  show StableHlo.after hostOps1_3 (W5 m ρ c) (Proc.devRef .tc main_v34) = _
  after_results <;> rfl
private theorem w6_v35 (c : Dev nD) : (V6 (F := Ideal) m ρ c main_v35 : S96x96.Idx → EReal)
    = transpose S96x96 [1, 0] (W5 (F := Ideal) m ρ c (Proc.devRef .tc main_v14) : S96x96.Idx → EReal) transposes_S96x96_S96x96_1_0 := by
  show StableHlo.after hostOps1_3 (W5 m ρ c) (Proc.devRef .tc main_v35) = _
  after_results <;> rfl

/-- A list cut from position `o` reads, at `j`, the source at `k = o + j`. -/
private theorem slice1_apply {α : Type} {n0 n : Nat} (o : Nat) (X : (⟨1, ![n0]⟩ : Shape).Idx → α)
    (h : (⟨1, ![n0]⟩ : Shape).Slices ![o] ⟨1, ![n]⟩) (j : Fin n) (k : Fin n0) (hk : k.val = o + j.val) :
    extractStridedSlice ⟨1, ![n]⟩ ![o] X h (ix1 j) = X (ix1 k) :=
  extractStridedSlice_apply _ _ _ _ _ (fun ax => by
    match ax with
    | ⟨0, _⟩ => exact hk)

/-! ## The entries -/

theorem e1_conn (c : Dev nD) : V6 (F := Ideal) m ρ c main_arg1 = a1 m c :=
  calc W6 (F := Ideal) m ρ c (Proc.devRef .tc main_arg1)
    _ = W1 m ρ c (Proc.devRef .tc main_arg1) :=
        walk61 m ρ c main_arg1 (by not_written) (by not_written) (by not_written) (by not_written) (by decide)
    _ = W0 m ρ c (Proc.devRef .tc main_arg1) := StableHlo.after_of_forall_not_mem (b := Proc.devRef .tc main_arg1) _ _ (by not_written)
    _ = a1 m c := rfl
theorem e1_w1 (c : Dev nD) (k j : Fin 96) :
    V6 (F := Ideal) m ρ c main_v34 (ix2 k j) = a5 m c (ix2 (off 0 (by norm_num) j : Fin 192) k) := by
  rw [w6_v34, walk51 m ρ c main_v13 (by not_written) (by not_written) (by not_written) (by decide), w1_v13]
  refine (transpose_ix2_apply _ transposes_S96x96_S96x96_1_0 k j).trans ?_
  exact slice2_axis0_apply 0 (a5 m c) slices_S192x96_S96x96_0_0 j k _ rfl
theorem e1_w2 (c : Dev nD) (k j : Fin 96) :
    V6 (F := Ideal) m ρ c main_v35 (ix2 k j) = a5 m c (ix2 (off 96 (by norm_num) j : Fin 192) k) := by
  rw [w6_v35, walk51 m ρ c main_v14 (by not_written) (by not_written) (by not_written) (by decide), w1_v14]
  refine (transpose_ix2_apply _ transposes_S96x96_S96x96_1_0 k j).trans ?_
  exact slice2_axis0_apply 96 (a5 m c) slices_S192x96_S96x96_96_0 j k _ rfl
theorem e1_b1 (c : Dev nD) (j : Fin 96) :
    V6 (F := Ideal) m ρ c main_v16 (ix2 (0 : Fin 1) j) = a6 m c (ix1 (off 0 (by norm_num) j : Fin 192)) := by
  show W6 (F := Ideal) m ρ c (Proc.devRef .tc main_v16) (ix2 (0 : Fin 1) j) = _
  rw [walk61 m ρ c main_v16 (by not_written) (by not_written) (by not_written) (by not_written) (by decide), w1_v16]
  refine (shapeCast_a_1a_apply _ shapeCasts_S96_S1x96 (0 : Fin 1) j).trans ?_
  exact slice1_apply 0 (a6 m c) slices_S192_S96_0 j _ rfl
theorem e1_b2 (c : Dev nD) (j : Fin 96) :
    V6 (F := Ideal) m ρ c main_v18 (ix2 (0 : Fin 1) j) = a6 m c (ix1 (off 96 (by norm_num) j : Fin 192)) := by
  show W6 (F := Ideal) m ρ c (Proc.devRef .tc main_v18) (ix2 (0 : Fin 1) j) = _
  rw [walk61 m ρ c main_v18 (by not_written) (by not_written) (by not_written) (by not_written) (by decide), w1_v18]
  refine (shapeCast_a_1a_apply _ shapeCasts_S96_S1x96 (0 : Fin 1) j).trans ?_
  exact slice1_apply 96 (a6 m c) slices_S192_S96_96 j _ rfl
theorem e1_g (c : Dev nD) (j : Fin 96) : V6 (F := Ideal) m ρ c main_v23 (ix2 (0 : Fin 1) j) = a13 m c (ix1 j) := by
  show W6 (F := Ideal) m ρ c (Proc.devRef .tc main_v23) (ix2 (0 : Fin 1) j) = _
  rw [walk61 m ρ c main_v23 (by not_written) (by not_written) (by not_written) (by not_written) (by decide), w1_v23]
  exact shapeCast_a_1a_apply _ shapeCasts_S96_S1x96 (0 : Fin 1) j
theorem e1_b (c : Dev nD) (j : Fin 96) : V6 (F := Ideal) m ρ c main_v24 (ix2 (0 : Fin 1) j) = a14 m c (ix1 j) := by
  show W6 (F := Ideal) m ρ c (Proc.devRef .tc main_v24) (ix2 (0 : Fin 1) j) = _
  rw [walk61 m ρ c main_v24 (by not_written) (by not_written) (by not_written) (by not_written) (by decide), w1_v24]
  exact shapeCast_a_1a_apply _ shapeCasts_S96_S1x96 (0 : Fin 1) j
theorem e1_dst (c : Dev nD) (e : Fin 800000) : V6 (F := Ideal) m ρ c main_v1 (ix1 e) = a2 m c (ix2 (0 : Fin 2) e) := by
  show W6 (F := Ideal) m ρ c (Proc.devRef .tc main_v1) (ix1 e) = _
  rw [walk61 m ρ c main_v1 (by not_written) (by not_written) (by not_written) (by not_written) (by decide), w1_v1]
  refine (shapeCast_1a_a_apply _ shapeCasts_S1x800000_S800000 e).trans ?_
  exact slice2_axis0_apply 0 (a2 m c) slices_S2x800000_S1x800000_0_0 (0 : Fin 1) e (0 : Fin 2) rfl

end Cert.KernelIdeal.Val

end
-- ==== Proof.Stage3.lean ====
/-
  After the second region: the message table and the normalised edge table are the spec's, entry by entry, and the
  gathered value rows and the destination words are as the region found them.

  The region's two result tables are its last two arrays; what it leaves in them is given, entry by entry, over the
  contents of its nine input arrays at its entry. Those contents are known: the gathered query and key rows are the
  spec's query row of the edge's destination and key row of its source, and the other seven arrays are argument
  arrays or layout images of them. Put in, the region's message is the spec's message, and the edge's row plus its
  message, normalised with the edges' gain and shift, is the spec's edge result. The two buffers the region does
  not own keep what they held at its entry.
-/
import proofs.«420450_j53833120088741_2_alg».proof.Proof.KDefs
import proofs.«420450_j53833120088741_2_alg».proof.Proof.Region1
import proofs.«420450_j53833120088741_2_alg».proof.Proof.Stage2
import proofs.«420450_j53833120088741_2_alg».proof.Proof.Stage2b

set_option maxRecDepth 16384

noncomputable section

namespace Cert.KernelIdeal.Val

open Cert.KernelIdeal Cert.KernelIdeal.Gen Cert.Mp
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! ## The second region's arrays at its entry, read at the arguments

The same facts as the entry lemmas, stated over the region's own names for its arrays (which carry the arrays'
literal types, so that sums and products of their entries are sums and products of extended reals). -/

private theorem r1conn_eq (c : Dev nD) : r1conn (V6 (F := Ideal) m ρ) c = a1 m c := e1_conn m ρ c
private theorem r1w1_eq (c : Dev nD) (k j : Fin 96) :
    r1w1 (V6 (F := Ideal) m ρ) c (ix2 k j) = a5 m c (ix2 (off 0 (by norm_num) j : Fin 192) k) := e1_w1 m ρ c k j
private theorem r1w2_eq (c : Dev nD) (k j : Fin 96) :
    r1w2 (V6 (F := Ideal) m ρ) c (ix2 k j) = a5 m c (ix2 (off 96 (by norm_num) j : Fin 192) k) := e1_w2 m ρ c k j
private theorem r1b1_eq (c : Dev nD) (j : Fin 96) :
    r1b1 (V6 (F := Ideal) m ρ) c (ix2 (0 : Fin 1) j) = a6 m c (ix1 (off 0 (by norm_num) j : Fin 192)) := e1_b1 m ρ c j
private theorem r1b2_eq (c : Dev nD) (j : Fin 96) :
    r1b2 (V6 (F := Ideal) m ρ) c (ix2 (0 : Fin 1) j) = a6 m c (ix1 (off 96 (by norm_num) j : Fin 192)) := e1_b2 m ρ c j
private theorem r1g_eq (c : Dev nD) (j : Fin 96) : r1g (V6 (F := Ideal) m ρ) c (ix2 (0 : Fin 1) j) = a13 m c (ix1 j) := e1_g m ρ c j
private theorem r1b_eq (c : Dev nD) (j : Fin 96) : r1b (V6 (F := Ideal) m ρ) c (ix2 (0 : Fin 1) j) = a14 m c (ix1 j) := e1_b m ρ c j
private theorem r1qd_eq (c : Dev nD) (h : Ok m c) (e : Fin 800000) (q : Fin 96) :
    r1qd (V6 (F := Ideal) m ρ) c (ix2 e q) = sQry m c (rdOf (a2 m c) e) q := stage2_qd m ρ c h e q
private theorem r1ks_eq (c : Dev nD) (h : Ok m c) (e : Fin 800000) (q : Fin 96) :
    r1ks (V6 (F := Ideal) m ρ) c (ix2 e q) = sKey m c (rsOf (a2 m c) e) q := stage2_ks m ρ c h e q

/-! ## They are real numbers where the arguments are -/

private theorem r1conn_real (c : Dev nD) (h : Ok m c) : ∀ i, IsReal (r1conn (V6 (F := Ideal) m ρ) c i) := fun i => by
  rw [r1conn_eq m ρ c]; exact h.r1 i
private theorem r1w1_real (c : Dev nD) (h : Ok m c) : ∀ i, IsReal (r1w1 (V6 (F := Ideal) m ρ) c i) := fun i => by
  obtain ⟨k, j, rfl⟩ : ∃ k j, i = ix2 k j := ⟨i 0, i 1, eq_ix2 i⟩
  rw [r1w1_eq m ρ c k j]; exact h.r5 _
private theorem r1w2_real (c : Dev nD) (h : Ok m c) : ∀ i, IsReal (r1w2 (V6 (F := Ideal) m ρ) c i) := fun i => by
  obtain ⟨k, j, rfl⟩ : ∃ k j, i = ix2 k j := ⟨i 0, i 1, eq_ix2 i⟩
  rw [r1w2_eq m ρ c k j]; exact h.r5 _

/-! ## The region's message, over the entry contents, is the spec's message over the arguments -/

/-- The gathered query and key rows are the spec's; the edge's own row, the two transposed halves of the packed
    weight table and the two halves of the packed bias are the arguments' entries; so the two projections are the
    spec's two projections and the message is the spec's message. -/
private theorem r1msg_spec (c : Dev nD) (h : Ok m c) (e : Fin 800000) (q : Fin 96) :
    r1msg (V6 (F := Ideal) m ρ) c e q = sMsg m c e q := by
  have hA : (fun k => r1conn (V6 (F := Ideal) m ρ) c (ix2 e k)) = fun k => a1 m c (ix2 e k) :=
    funext fun k => congrFun (r1conn_eq m ρ c) (ix2 e k)
  have hW1 : (fun j k => r1w1 (V6 (F := Ideal) m ρ) c (ix2 k j)) = fun j k => a5 m c (ix2 (off 0 (by norm_num) j : Fin 192) k) :=
    funext fun j => funext fun k => r1w1_eq m ρ c k j
  have hW2 : (fun j k => r1w2 (V6 (F := Ideal) m ρ) c (ix2 k j)) = fun j k => a5 m c (ix2 (off 96 (by norm_num) j : Fin 192) k) :=
    funext fun j => funext fun k => r1w2_eq m ρ c k j
  have hB1 : (fun j => r1b1 (V6 (F := Ideal) m ρ) c (ix2 (0 : Fin 1) j)) = fun j => a6 m c (ix1 (off 0 (by norm_num) j : Fin 192)) :=
    funext fun j => r1b1_eq m ρ c j
  have hB2 : (fun j => r1b2 (V6 (F := Ideal) m ρ) c (ix2 (0 : Fin 1) j)) = fun j => a6 m c (ix1 (off 96 (by norm_num) j : Fin 192)) :=
    funext fun j => r1b2_eq m ρ c j
  unfold r1msg
  rw [hA, hW1, hW2, hB1, hB2, r1qd_eq m ρ c h e q, r1ks_eq m ρ c h e q]
  rfl

theorem stage3_msg (c : Dev nD) (h : Ok m c) (e : Fin 800000) (q : Fin 96) :
    V7 (F := Ideal) m ρ c main_v36_0 (ix2 e q) = sMsg m c e q := by
  refine (congrFun (W7_arr (F := Ideal) m ρ c 9) (ix2 e q)).trans ?_
  refine (region1_msg (V6 (F := Ideal) m ρ) c (r1conn_real m ρ c h) (r1w1_real m ρ c h) (r1w2_real m ρ c h) e q).trans ?_
  exact r1msg_spec m ρ c h e q

theorem stage3_edge (c : Dev nD) (h : Ok m c) (e : Fin 800000) (q : Fin 96) :
    V7 (F := Ideal) m ρ c main_v36_1 (ix2 e q) = sEdge m c e q := by
  have hV : (fun k => r1conn (V6 (F := Ideal) m ρ) c (ix2 e k) + r1msg (V6 (F := Ideal) m ρ) c e k)
      = fun k => a1 m c (ix2 e k) + sMsg m c e k :=
    funext fun k => by rw [r1conn_eq m ρ c, r1msg_spec m ρ c h e k]
  have hG : (fun j => r1g (V6 (F := Ideal) m ρ) c (ix2 (0 : Fin 1) j)) = fun j => a13 m c (ix1 j) := funext fun j => r1g_eq m ρ c j
  have hB : (fun j => r1b (V6 (F := Ideal) m ρ) c (ix2 (0 : Fin 1) j)) = fun j => a14 m c (ix1 j) := funext fun j => r1b_eq m ρ c j
  refine (congrFun (W7_arr (F := Ideal) m ρ c 10) (ix2 e q)).trans ?_
  refine (region1_edge (V6 (F := Ideal) m ρ) c (r1conn_real m ρ c h) (r1w1_real m ρ c h) (r1w2_real m ρ c h) e q).trans ?_
  rw [hV, hG, hB]
  rfl

theorem stage3_vs (c : Dev nD) (h : Ok m c) (e : Fin 800000) (q : Fin 96) :
    V7 (F := Ideal) m ρ c main_v33 (ix2 e q) = sVal m c (rsOf (a2 m c) e) q :=
  (congrFun (W7_of_ne (F := Ideal) m ρ c main_v33 (by decide)) (ix2 e q)).trans (stage2_vs m ρ c h e q)

theorem stage3_dst (c : Dev nD) (e : Fin 800000) : V7 (F := Ideal) m ρ c main_v1 (ix1 e) = a2 m c (ix2 (0 : Fin 2) e) :=
  (congrFun (W7_of_ne (F := Ideal) m ρ c main_v1 (by decide)) (ix1 e)).trans (e1_dst m ρ c e)

end Cert.KernelIdeal.Val

end
-- ==== Proof.Stage4.lean ====
/-
  At the third region's entry: what landed on each node, and the region's other arrays read back to the arguments.

  The gathered value rows and the messages are laid side by side and scattered, adding, at the destination words into a
  table of zeros: its left half is the sum over the landing edges of their sources' value rows, its right half the sum
  of their messages.
-/
import proofs.«420450_j53833120088741_2_alg».proof.Proof.KDefs
import proofs.«420450_j53833120088741_2_alg».proof.Proof.Stage3
import proofs.«420450_j53833120088741_2_alg».proof.Proof.LibRowGatherScatter
import Idealize.ShloMosaic.Lib.StableHlo.Run
import Idealize.ShloMosaic.Lib.Pipeline.Value
import Idealize.ShloMosaic.Lib.ValueLayout
import Idealize.ShloMosaic.Lib.IdealHost

set_option maxRecDepth 16384

noncomputable section

namespace Cert.KernelIdeal.Val

open Cert.KernelIdeal Cert.KernelIdeal.Gen Cert.Mp
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! ## Buffers that are carried unchanged -/

/-- A stretch of host operations leaves alone every buffer none of them writes. -/
local macro "host_keeps" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- From the second region's exit back to the first region's entry: a buffer that is an array of neither region and
    that no host operation in between writes holds, at the former, what it held at the latter. -/
local macro "back_to_first_entry" m:ident ρ:ident c:ident b:ident : tactic =>
  `(tactic| exact
    calc W7 $m $ρ $c (Proc.devRef .tc $b)
      _ = W6 $m $ρ $c (Proc.devRef .tc $b) := W7_of_ne $m $ρ $c $b (by decide)
      _ = W5 $m $ρ $c (Proc.devRef .tc $b) := by host_keeps hostOps1_3
      _ = W4 $m $ρ $c (Proc.devRef .tc $b) := by host_keeps hostOps1_2
      _ = W3 $m $ρ $c (Proc.devRef .tc $b) := by host_keeps hostOps1_1
      _ = W2 $m $ρ $c (Proc.devRef .tc $b) := by host_keeps hostOps1
      _ = W1 $m $ρ $c (Proc.devRef .tc $b) := W2_of_ne $m $ρ $c $b (by decide))

/-- The two square weight arguments that the third stretch transposes are, at the second region's exit, as launched. -/
private theorem exit1_arg7 (c : Dev nD) : W7 m ρ c (Proc.devRef .tc main_arg7) = a7 m c :=
  Eq.trans (b := W1 m ρ c (Proc.devRef .tc main_arg7)) (by back_to_first_entry m ρ c main_arg7)
    (Eq.trans (b := W0 m ρ c (Proc.devRef .tc main_arg7)) (by host_keeps hostOps0) rfl)
private theorem exit1_arg9 (c : Dev nD) : W7 m ρ c (Proc.devRef .tc main_arg9) = a9 m c :=
  Eq.trans (b := W1 m ρ c (Proc.devRef .tc main_arg9)) (by back_to_first_entry m ρ c main_arg9)
    (Eq.trans (b := W0 m ρ c (Proc.devRef .tc main_arg9)) (by host_keeps hostOps0) rfl)

/-- The four one-row arrays made from list arguments before the first region: each is its list, as one row. -/
private theorem entry0_v19 (c : Dev nD) :
    (W1 m ρ c (Proc.devRef .tc main_v19) : S1x96.Idx → EReal) = shapeCast S1x96 (a8 m c) shapeCasts_S96_S1x96 := by
  show StableHlo.after hostOps0 (W0 m ρ c) (Proc.devRef .tc main_v19) = _
  after_results
  rfl
private theorem entry0_v20 (c : Dev nD) :
    (W1 m ρ c (Proc.devRef .tc main_v20) : S1x96.Idx → EReal) = shapeCast S1x96 (a10 m c) shapeCasts_S96_S1x96 := by
  show StableHlo.after hostOps0 (W0 m ρ c) (Proc.devRef .tc main_v20) = _
  after_results
  rfl
private theorem entry0_v21 (c : Dev nD) :
    (W1 m ρ c (Proc.devRef .tc main_v21) : S1x96.Idx → EReal) = shapeCast S1x96 (a11 m c) shapeCasts_S96_S1x96 := by
  show StableHlo.after hostOps0 (W0 m ρ c) (Proc.devRef .tc main_v21) = _
  after_results
  rfl
private theorem entry0_v22 (c : Dev nD) :
    (W1 m ρ c (Proc.devRef .tc main_v22) : S1x96.Idx → EReal) = shapeCast S1x96 (a12 m c) shapeCasts_S96_S1x96 := by
  show StableHlo.after hostOps0 (W0 m ρ c) (Proc.devRef .tc main_v22) = _
  after_results
  rfl

/-! ## The scatter, entry by entry -/

/-- Two 96-column tables laid side by side read, at a column of the left half, the left table there. -/
private theorem side_left (vs ms : S800000x96.Idx → EReal) (e : Fin 800000) (q : Fin 96) (k : Fin 192) (hk : k.val = q.val) :
    concatenate S800000x192 1 [⟨S800000x96, vs⟩, ⟨S800000x96, ms⟩] concatenates_S800000x96_S800000x96_S800000x192_d1
      (ix2 e k) = vs (ix2 e q) :=
  concatenate_pair_apply_left (1 : Fin 2) vs ms concatenates_S800000x96_S800000x96_S800000x192_d1 (ix2 e k) rfl (ix2 e q)
    (fun b => match b with
      | ⟨0, _⟩ => rfl
      | ⟨1, _⟩ => hk.symm)

/-- …and, at a column of the right half, the right table 96 columns earlier. -/
private theorem side_right (vs ms : S800000x96.Idx → EReal) (e : Fin 800000) (q : Fin 96) (k : Fin 192) (hk : k.val = 96 + q.val) :
    concatenate S800000x192 1 [⟨S800000x96, vs⟩, ⟨S800000x96, ms⟩] concatenates_S800000x96_S800000x96_S800000x192_d1
      (ix2 e k) = ms (ix2 e q) :=
  concatenate_pair_apply_right (1 : Fin 2) vs ms concatenates_S800000x96_S800000x96_S800000x192_d1 (ix2 e k) rfl rfl (ix2 e q)
    (fun b hb => match b, hb with
      | ⟨0, _⟩, _ => rfl
      | ⟨1, _⟩, hb => absurd rfl hb)
    (by show q.val + 96 = k.val; omega)

/-- A list of words stood up as a one-column table reads, at row `e`, the list's word `e`. -/
private theorem col_apply (dst : S800000.Idx → BitVec 32) (e : Fin 800000) :
    broadcastInDim S800000x1 ![0] bcast_S800000_S800000x1_0 dst (ix2 e (0 : Fin 1)) = dst (ix1 e) :=
  broadcastInDim_apply ![0] bcast_S800000_S800000x1_0 dst (ix2 e (0 : Fin 1)) (ix1 e) (fun a => match a with
    | ⟨0, _⟩ => rfl)

/-- The table of zeros is zero everywhere. -/
private theorem zeros_apply (n : Fin 50000) (k : Fin 192) :
    broadcastInDim S50000x192 ![] bcast_S_S50000x192 (constant (F := Ideal) S_ .f32 0x00000000#32) (ix2 n k) = 0 := by
  rw [broadcastInDim_scalar_apply, constant_apply, Ideal.ofBits_zero_f32]

/-- What lands on the nodes: a table of zeros to which every row of `upd` is added at the row its destination word
    names. -/
private def landed (dst : S800000.Idx → BitVec 32) (upd : S800000x192.Idx → EReal) : S50000x192.Idx → EReal :=
  Host.scatterAdd (F := Ideal) scatter_S50000x192_S800000x1_S800000x192_1_0_0_1
    (broadcastInDim S50000x192 ![] bcast_S_S50000x192 (constant (F := Ideal) S_ .f32 0x00000000#32))
    (broadcastInDim S800000x1 ![0] bcast_S800000_S800000x1_0 dst) upd

/-- It is the exact sum of the colliding updates, and its dimension numbers are those of a scatter of rows. -/
private theorem landed_eq (dst : S800000.Idx → BitVec 32) (upd : S800000x192.Idx → EReal) :
    landed dst upd = Ideal.hostScatterAdd
      (Cert.Gcn.rowScatterDims 50000 800000 192 scatter_S50000x192_S800000x1_S800000x192_1_0_0_1_wf)
      (broadcastInDim S50000x192 ![] bcast_S_S50000x192 (constant (F := Ideal) S_ .f32 0x00000000#32))
      (broadcastInDim S800000x1 ![0] bcast_S800000_S800000x1_0 dst) upd := rfl

/-- Entry `(n, k)` of it is the sum of the entries `k` of the rows whose destination word, read signed, is `n`. -/
private theorem landed_apply (dst : S800000.Idx → BitVec 32) (upd : S800000x192.Idx → EReal) (n : Fin 50000) (k : Fin 192) :
    landed dst upd (ix2 n k)
      = ∑ e ∈ Finset.univ.filter (fun e : Fin 800000 => (dst (ix1 e)).toInt = (n.val : ℤ)), upd (ix2 e k) := by
  rw [landed_eq, Cert.Gcn.scatterAdd_rows_apply, zeros_apply, zero_add]
  exact Finset.sum_congr (Finset.filter_congr fun e _ => by rw [col_apply dst e]) fun _ _ => rfl

/-- The left half of what lands, with the two tables side by side as the updates: the sums of the left table's rows. -/
private theorem landed_left (dst : S800000.Idx → BitVec 32) (vs ms : S800000x96.Idx → EReal) (n : Fin 50000) (q : Fin 96) :
    extractStridedSlice S50000x96 ![0, 0]
        (landed dst (concatenate S800000x192 1 [⟨S800000x96, vs⟩, ⟨S800000x96, ms⟩]
          concatenates_S800000x96_S800000x96_S800000x192_d1))
        slices_S50000x192_S50000x96_0_0 (ix2 n q)
      = ∑ e ∈ Finset.univ.filter (fun e : Fin 800000 => (dst (ix1 e)).toInt = (n.val : ℤ)), vs (ix2 e q) := by
  refine (slice2_axis1_apply 0 _ slices_S50000x192_S50000x96_0_0 n q ⟨q.val, by omega⟩ (Nat.zero_add _).symm).trans ?_
  refine (landed_apply dst _ n _).trans ?_
  exact Finset.sum_congr rfl fun e _ => side_left vs ms e q _ rfl

/-- The right half: the sums of the right table's rows. -/
private theorem landed_right (dst : S800000.Idx → BitVec 32) (vs ms : S800000x96.Idx → EReal) (n : Fin 50000) (q : Fin 96) :
    extractStridedSlice S50000x96 ![0, 96]
        (landed dst (concatenate S800000x192 1 [⟨S800000x96, vs⟩, ⟨S800000x96, ms⟩]
          concatenates_S800000x96_S800000x96_S800000x192_d1))
        slices_S50000x192_S50000x96_0_96 (ix2 n q)
      = ∑ e ∈ Finset.univ.filter (fun e : Fin 800000 => (dst (ix1 e)).toInt = (n.val : ℤ)), ms (ix2 e q) := by
  refine (slice2_axis1_apply 96 _ slices_S50000x192_S50000x96_0_96 n q ⟨96 + q.val, by omega⟩ rfl).trans ?_
  refine (landed_apply dst _ n _).trans ?_
  exact Finset.sum_congr rfl fun e _ => side_right vs ms e q _ rfl

/-! ## The third stretch's results over the second region's exit -/

private theorem entry2_v41 (c : Dev nD) : (W8 m ρ c (Proc.devRef .tc main_v41) : S50000x96.Idx → EReal)
    = extractStridedSlice S50000x96 ![0, 0]
        (landed (W7 m ρ c (Proc.devRef .tc main_v1))
          (concatenate S800000x192 1 [⟨S800000x96, W7 m ρ c (Proc.devRef .tc main_v33)⟩,
              ⟨S800000x96, W7 m ρ c (Proc.devRef .tc main_v36_0)⟩]
            concatenates_S800000x96_S800000x96_S800000x192_d1))
        slices_S50000x192_S50000x96_0_0 := by
  show StableHlo.after hostOps2 (W7 m ρ c) (Proc.devRef .tc main_v41) = _
  after_results
  rfl
private theorem entry2_v42 (c : Dev nD) : (W8 m ρ c (Proc.devRef .tc main_v42) : S50000x96.Idx → EReal)
    = extractStridedSlice S50000x96 ![0, 96]
        (landed (W7 m ρ c (Proc.devRef .tc main_v1))
          (concatenate S800000x192 1 [⟨S800000x96, W7 m ρ c (Proc.devRef .tc main_v33)⟩,
              ⟨S800000x96, W7 m ρ c (Proc.devRef .tc main_v36_0)⟩]
            concatenates_S800000x96_S800000x96_S800000x192_d1))
        slices_S50000x192_S50000x96_0_96 := by
  show StableHlo.after hostOps2 (W7 m ρ c) (Proc.devRef .tc main_v42) = _
  after_results
  rfl
private theorem entry2_v43 (c : Dev nD) : (W8 m ρ c (Proc.devRef .tc main_v43) : S96x96.Idx → EReal)
    = transpose S96x96 [1, 0] (a7 m c) transposes_S96x96_S96x96_1_0 := by
  show StableHlo.after hostOps2 (W7 m ρ c) (Proc.devRef .tc main_v43) = _
  after_results
  rw [exit1_arg7]
private theorem entry2_v44 (c : Dev nD) : (W8 m ρ c (Proc.devRef .tc main_v44) : S96x96.Idx → EReal)
    = transpose S96x96 [1, 0] (a9 m c) transposes_S96x96_S96x96_1_0 := by
  show StableHlo.after hostOps2 (W7 m ρ c) (Proc.devRef .tc main_v44) = _
  after_results
  rw [exit1_arg9]

/-- The landing edges of a node, and the two sums over them, as the layer's statement spells them. -/
private theorem sAgg_eq (c : Dev nD) (n : Fin 50000) (q : Fin 96) :
    sAgg m c n q = ∑ e ∈ intoOf (a2 m c) n, sVal m c (rsOf (a2 m c) e) q := rfl
private theorem sEagg_eq (c : Dev nD) (n : Fin 50000) (q : Fin 96) :
    sEagg m c n q = ∑ e ∈ intoOf (a2 m c) n, sMsg m c e q := rfl
private theorem intoOf_eq (A2 : S2x800000.Idx → BitVec 32) (n : Fin 50000) :
    intoOf A2 n = Finset.univ.filter fun e : Fin 800000 => (A2 (ix2 (0 : Fin 2) e)).toInt = (n.val : ℤ) := rfl

/-! ## The third region's entry arrays -/

theorem stage4_agg (c : Dev nD) (h : Ok m c) (n : Fin 50000) (q : Fin 96) :
    V8 (F := Ideal) m ρ c main_v41 (ix2 n q) = sAgg m c n q := by
  have hd : ∀ e : Fin 800000, (W7 m ρ c (Proc.devRef .tc main_v1) : S800000.Idx → BitVec 32) (ix1 e)
      = a2 m c (ix2 (0 : Fin 2) e) := fun e => stage3_dst m ρ c e
  have hv : ∀ e : Fin 800000, (W7 m ρ c (Proc.devRef .tc main_v33) : S800000x96.Idx → EReal) (ix2 e q)
      = sVal m c (rsOf (a2 m c) e) q := fun e => stage3_vs m ρ c h e q
  refine (congrFun (entry2_v41 m ρ c) (ix2 n q)).trans ?_
  refine (landed_left _ _ _ n q).trans ?_
  rw [sAgg_eq, intoOf_eq]
  exact Finset.sum_congr (Finset.filter_congr fun e _ => by rw [hd e]) fun e _ => hv e
theorem stage4_eagg (c : Dev nD) (h : Ok m c) (n : Fin 50000) (q : Fin 96) :
    V8 (F := Ideal) m ρ c main_v42 (ix2 n q) = sEagg m c n q := by
  have hd : ∀ e : Fin 800000, (W7 m ρ c (Proc.devRef .tc main_v1) : S800000.Idx → BitVec 32) (ix1 e)
      = a2 m c (ix2 (0 : Fin 2) e) := fun e => stage3_dst m ρ c e
  have hm : ∀ e : Fin 800000, (W7 m ρ c (Proc.devRef .tc main_v36_0) : S800000x96.Idx → EReal) (ix2 e q)
      = sMsg m c e q := fun e => stage3_msg m ρ c h e q
  refine (congrFun (entry2_v42 m ρ c) (ix2 n q)).trans ?_
  refine (landed_right _ _ _ n q).trans ?_
  rw [sEagg_eq, intoOf_eq]
  exact Finset.sum_congr (Finset.filter_congr fun e _ => by rw [hd e]) fun e _ => hm e
theorem stage4_edge (c : Dev nD) (h : Ok m c) (e : Fin 800000) (q : Fin 96) :
    V8 (F := Ideal) m ρ c main_v36_1 (ix2 e q) = sEdge m c e q := by
  have hk : (W8 m ρ c (Proc.devRef .tc main_v36_1) : S800000x96.Idx → EReal) = W7 m ρ c (Proc.devRef .tc main_v36_1) := by
    host_keeps hostOps2
  exact (congrFun hk (ix2 e q)).trans (stage3_edge m ρ c h e q)
theorem e2_x (c : Dev nD) : V8 (F := Ideal) m ρ c main_arg0 = a0 m c :=
  calc W8 (F := Ideal) m ρ c (Proc.devRef .tc main_arg0)
    _ = W7 m ρ c (Proc.devRef .tc main_arg0) := by host_keeps hostOps2
    _ = W6 m ρ c (Proc.devRef .tc main_arg0) := W7_of_ne m ρ c main_arg0 (by decide)
    _ = W5 m ρ c (Proc.devRef .tc main_arg0) := by host_keeps hostOps1_3
    _ = W4 m ρ c (Proc.devRef .tc main_arg0) := by host_keeps hostOps1_2
    _ = W3 m ρ c (Proc.devRef .tc main_arg0) := by host_keeps hostOps1_1
    _ = W2 m ρ c (Proc.devRef .tc main_arg0) := by host_keeps hostOps1
    _ = W1 m ρ c (Proc.devRef .tc main_arg0) :=
        (W2_arr m ρ c 0).trans (((dat0 (V1 m ρ) c).arrAt_in 0 rfl _).trans (A_eq0 (V1 m ρ) c 0))
    _ = W0 m ρ c (Proc.devRef .tc main_arg0) := by host_keeps hostOps0
    _ = a0 m c := rfl
theorem e2_clw (c : Dev nD) (k j : Fin 96) : V8 (F := Ideal) m ρ c main_v43 (ix2 k j) = a7 m c (ix2 j k) :=
  (congrFun (entry2_v43 m ρ c) (ix2 k j)).trans (transpose_ix2_apply (a7 m c) transposes_S96x96_S96x96_1_0 k j)
theorem e2_clb (c : Dev nD) (j : Fin 96) : V8 (F := Ideal) m ρ c main_v19 (ix2 (0 : Fin 1) j) = a8 m c (ix1 j) := by
  have hk : (W8 m ρ c (Proc.devRef .tc main_v19) : S1x96.Idx → EReal) = W1 m ρ c (Proc.devRef .tc main_v19) :=
    Eq.trans (b := W7 m ρ c (Proc.devRef .tc main_v19)) (by host_keeps hostOps2) (by back_to_first_entry m ρ c main_v19)
  exact (congrFun (hk.trans (entry0_v19 m ρ c)) _).trans (shapeCast_a_1a_apply (a8 m c) shapeCasts_S96_S1x96 0 j)
theorem e2_nlw (c : Dev nD) (k j : Fin 96) : V8 (F := Ideal) m ρ c main_v44 (ix2 k j) = a9 m c (ix2 j k) :=
  (congrFun (entry2_v44 m ρ c) (ix2 k j)).trans (transpose_ix2_apply (a9 m c) transposes_S96x96_S96x96_1_0 k j)
theorem e2_nlb (c : Dev nD) (j : Fin 96) : V8 (F := Ideal) m ρ c main_v20 (ix2 (0 : Fin 1) j) = a10 m c (ix1 j) := by
  have hk : (W8 m ρ c (Proc.devRef .tc main_v20) : S1x96.Idx → EReal) = W1 m ρ c (Proc.devRef .tc main_v20) :=
    Eq.trans (b := W7 m ρ c (Proc.devRef .tc main_v20)) (by host_keeps hostOps2) (by back_to_first_entry m ρ c main_v20)
  exact (congrFun (hk.trans (entry0_v20 m ρ c)) _).trans (shapeCast_a_1a_apply (a10 m c) shapeCasts_S96_S1x96 0 j)
theorem e2_g (c : Dev nD) (j : Fin 96) : V8 (F := Ideal) m ρ c main_v21 (ix2 (0 : Fin 1) j) = a11 m c (ix1 j) := by
  have hk : (W8 m ρ c (Proc.devRef .tc main_v21) : S1x96.Idx → EReal) = W1 m ρ c (Proc.devRef .tc main_v21) :=
    Eq.trans (b := W7 m ρ c (Proc.devRef .tc main_v21)) (by host_keeps hostOps2) (by back_to_first_entry m ρ c main_v21)
  exact (congrFun (hk.trans (entry0_v21 m ρ c)) _).trans (shapeCast_a_1a_apply (a11 m c) shapeCasts_S96_S1x96 0 j)
theorem e2_b (c : Dev nD) (j : Fin 96) : V8 (F := Ideal) m ρ c main_v22 (ix2 (0 : Fin 1) j) = a12 m c (ix1 j) := by
  have hk : (W8 m ρ c (Proc.devRef .tc main_v22) : S1x96.Idx → EReal) = W1 m ρ c (Proc.devRef .tc main_v22) :=
    Eq.trans (b := W7 m ρ c (Proc.devRef .tc main_v22)) (by host_keeps hostOps2) (by back_to_first_entry m ρ c main_v22)
  exact (congrFun (hk.trans (entry0_v22 m ρ c)) _).trans (shapeCast_a_1a_apply (a12 m c) shapeCasts_S96_S1x96 0 j)

end Cert.KernelIdeal.Val

end
-- ==== Proof.Stage5.lean ====
/-
  After the third region: the node result is the spec's, entry by entry, and the edge result is still what the second
  region left.

  The third region's result row is the normalised "node row plus the second dense map of (summed values plus the first
  dense map of the summed messages)"; at its entry the summed values and messages are the spec's sums over the landing
  edges, and the weights, biases, gain and shift are the arguments (the weight tables transposed), so the row is the
  spec's.
-/
import proofs.«420450_j53833120088741_2_alg».proof.Proof.KDefs
import proofs.«420450_j53833120088741_2_alg».proof.Proof.Region2
import proofs.«420450_j53833120088741_2_alg».proof.Proof.Stage4

set_option maxRecDepth 16384

noncomputable section

namespace Cert.KernelIdeal.Val

open Cert.KernelIdeal Cert.KernelIdeal.Gen Cert.Mp
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-- An index of a 50000 × 96 table by its coordinates. -/
private theorem split2 {a b : Nat} (i : (⟨2, ![a, b]⟩ : Shape).Idx) : ∃ (p : Fin a) (q : Fin b), i = ix2 p q :=
  ⟨i 0, i 1, eq_ix2 i⟩

/-- The summed values and messages at the region's entry are real numbers. -/
private theorem agg_real (c : Dev nD) (h : Ok m c) (i : S50000x96.Idx) : IsReal (r2agg (V8 (F := Ideal) m ρ) c i) := by
  obtain ⟨n, k, rfl⟩ := split2 i
  show IsReal (V8 (F := Ideal) m ρ c main_v41 (ix2 n k))
  rw [stage4_agg m ρ c h n k]
  exact agg_isReal _ _ _ _ _ (fun n k => h.r0 _) (fun j k => h.r3 _) (fun j => h.r4 _) n k
private theorem eagg_real (c : Dev nD) (h : Ok m c) (i : S50000x96.Idx) : IsReal (r2eagg (V8 (F := Ideal) m ρ) c i) := by
  obtain ⟨n, k, rfl⟩ := split2 i
  show IsReal (V8 (F := Ideal) m ρ c main_v42 (ix2 n k))
  rw [stage4_eagg m ρ c h n k]
  exact eagg_isReal _ _ _ _ _ _ _ _ _ (fun n k => h.r0 _) (fun e k => h.r1 _) (fun j k => h.r3 _) (fun j => h.r4 _)
    (fun j k => h.r5 _) (fun j => h.r6 _) n k
private theorem clw_real (c : Dev nD) (h : Ok m c) (i : S96x96.Idx) : IsReal (r2clw (V8 (F := Ideal) m ρ) c i) := by
  obtain ⟨k, j, rfl⟩ := split2 i
  show IsReal (V8 (F := Ideal) m ρ c main_v43 (ix2 k j))
  rw [e2_clw m ρ c k j]; exact h.r7 _
private theorem nlw_real (c : Dev nD) (h : Ok m c) (i : S96x96.Idx) : IsReal (r2nlw (V8 (F := Ideal) m ρ) c i) := by
  obtain ⟨k, j, rfl⟩ := split2 i
  show IsReal (V8 (F := Ideal) m ρ c main_v44 (ix2 k j))
  rw [e2_nlw m ρ c k j]; exact h.r9 _
private theorem clb_real (c : Dev nD) (h : Ok m c) (i : S1x96.Idx) : IsReal (r2clb (V8 (F := Ideal) m ρ) c i) := by
  obtain ⟨z, j, rfl⟩ := split2 i
  obtain rfl : z = 0 := Subsingleton.elim _ _
  show IsReal (V8 (F := Ideal) m ρ c main_v19 (ix2 (0 : Fin 1) j))
  rw [e2_clb m ρ c j]; exact h.r8 _

/-- The two sums joined, at the region's entry, are the spec's. -/
private theorem joined_eq (c : Dev nD) (h : Ok m c) (n : Fin 50000) :
    r2joined (V8 (F := Ideal) m ρ) c n
      = joined (cur2 (a0 m c)) (cur2 (a1 m c)) (rdOf (a2 m c)) (rsOf (a2 m c)) (intoOf (a2 m c)) (cur2 (a3 m c)) (cur1 (a4 m c))
          (cur2 (a5 m c)) (cur1 (a6 m c)) (cur2 (a7 m c)) (cur1 (a8 m c)) n := by
  funext k
  unfold r2joined joined
  have e1 : r2agg (V8 (F := Ideal) m ρ) c (ix2 n k) = sAgg m c n k := stage4_agg m ρ c h n k
  have e2 : (fun k' => r2eagg (V8 (F := Ideal) m ρ) c (ix2 n k')) = sEagg m c n := funext fun k' => stage4_eagg m ρ c h n k'
  have e3 : (fun (j k' : Fin 96) => r2clw (V8 (F := Ideal) m ρ) c (ix2 k' j)) = cur2 (a7 m c) :=
    funext fun j => funext fun k' => e2_clw m ρ c k' j
  have e4 : (fun j : Fin 96 => r2clb (V8 (F := Ideal) m ρ) c (ix2 (0 : Fin 1) j)) = cur1 (a8 m c) := funext fun j => e2_clb m ρ c j
  rw [e1, e2, e3, e4]

theorem stage5_node (c : Dev nD) (h : Ok m c) (p : Fin 50000) (q : Fin 96) :
    V9 (F := Ideal) m ρ c main_v45 (ix2 p q) = sNode m c p q := by
  have hw : V9 (F := Ideal) m ρ c main_v45 = (dat2 (F := Ideal) (V8 m ρ) c).arrAt 9 cfg2.N := W9_arr m ρ c 9
  rw [hw, region2_node (V8 (F := Ideal) m ρ) c (agg_real m ρ c h) (eagg_real m ρ c h) (clw_real m ρ c h) (clb_real m ρ c h)
    (nlw_real m ρ c h) p q]
  have en : r2node (V8 (F := Ideal) m ρ) c p
      = node (cur2 (a0 m c)) (cur2 (a1 m c)) (rdOf (a2 m c)) (rsOf (a2 m c)) (intoOf (a2 m c)) (cur2 (a3 m c)) (cur1 (a4 m c))
          (cur2 (a5 m c)) (cur1 (a6 m c)) (cur2 (a7 m c)) (cur1 (a8 m c)) (cur2 (a9 m c)) (cur1 (a10 m c)) p := by
    funext j
    unfold r2node node
    have e0 : r2x (V8 (F := Ideal) m ρ) c (ix2 p j) = cur2 (a0 m c) p j := congrFun (e2_x m ρ c) (ix2 p j)
    have e3 : (fun (j k : Fin 96) => r2nlw (V8 (F := Ideal) m ρ) c (ix2 k j)) = cur2 (a9 m c) :=
      funext fun j => funext fun k => e2_nlw m ρ c k j
    have e4 : (fun j : Fin 96 => r2nlb (V8 (F := Ideal) m ρ) c (ix2 (0 : Fin 1) j)) = cur1 (a10 m c) := funext fun j => e2_nlb m ρ c j
    rw [e0, joined_eq m ρ c h p, e3, e4]
  have eg : (fun j : Fin 96 => r2g (V8 (F := Ideal) m ρ) c (ix2 (0 : Fin 1) j)) = cur1 (a11 m c) := funext fun j => e2_g m ρ c j
  have eb : (fun j : Fin 96 => r2b (V8 (F := Ideal) m ρ) c (ix2 (0 : Fin 1) j)) = cur1 (a12 m c) := funext fun j => e2_b m ρ c j
  rw [en, eg, eb]
  rfl

theorem stage5_edge (c : Dev nD) (h : Ok m c) (e : Fin 800000) (q : Fin 96) :
    V9 (F := Ideal) m ρ c main_v36_1 (ix2 e q) = sEdge m c e q := by
  have hw : V9 (F := Ideal) m ρ c main_v36_1 = V8 (F := Ideal) m ρ c main_v36_1 := W9_of_ne m ρ c main_v36_1 (by decide)
  rw [hw]
  exact stage4_edge m ρ c h e q

end Cert.KernelIdeal.Val

end
-- ==== Proof.KernelValue.lean ====
/-
  The idealized kernel's run, with its two results named by the layer's specification.

  Every weakly fair execution ends with the node result buffer holding, at every entry (p, q), the layer's node result
  of the argument arrays, the edge result buffer the layer's edge result, and the arguments as launched — whenever every
  float argument holds real numbers and every index word names a node row.
-/
import proofs.«420450_j53833120088741_2_alg».proof.Proof.KDefs
import proofs.«420450_j53833120088741_2_alg».proof.Proof.KernelRun
import proofs.«420450_j53833120088741_2_alg».proof.Proof.Stage5

set_option maxRecDepth 16384

noncomputable section

namespace Cert.KernelIdeal.Val

open Cert.KernelIdeal Cert.KernelIdeal.Gen Cert.Mp
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

theorem run (hok : ∀ c : Dev nD, Ok m c) :
    θ_run defs (onTc (τ := τ) (main (F := Ideal))) ⟨m, fun _ => 0, ρ⟩ (fun r => ∀ c : Dev nD,
      r.2.mem ((c.tc : Thread nD τ).loc main_v45) = (fun i => sNode m c (i 0) (i 1))
      ∧ r.2.mem ((c.tc : Thread nD τ).loc main_v36_1) = (fun i => sEdge m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      ⟨(h c).1.trans (funext fun i => (congrArg (W9 (F := Ideal) m ρ c (Proc.devRef .tc main_v45)) (eq_ix2 i)).trans
          (stage5_node m ρ c (hok c) (i 0) (i 1))),
       (h c).2.1.trans (funext fun i => (congrArg (W9 (F := Ideal) m ρ c (Proc.devRef .tc main_v36_1)) (eq_ix2 i)).trans
          (stage5_edge m ρ c (hok c) (i 0) (i 1))),
       (h c).2.2⟩)
    (run_named (F := Ideal) m ρ)

end Cert.KernelIdeal.Val

end
-- ==== Proof.RefMsg.lean ====
/-
  The reference's stages up to the edge messages, entry by entry.

  The reference multiplies the node table by the packed 288 × 96 weight table once and cuts the product in three; it
  does the same with the edge table and the packed 192 × 96 table, cut in two. An entry of a cut is the affine map
  through the corresponding 96 weight rows. Each edge then reads its destination's and its source's rows by index and
  forms its message.
-/
import proofs.«420450_j53833120088741_2_alg».proof.Proof.Gen.ReferenceIdeal.Read
import proofs.«420450_j53833120088741_2_alg».proof.Proof.Spec
import proofs.«420450_j53833120088741_2_alg».proof.Proof.LibRowGatherScatter
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Cert.Mp
open Idealize.ShloMosaic Idealize.ShloMosaic.TcCoe Idealize.ShloMosaic.ValueIdx Idealize.SL.Sem
open scoped BigOperators

variable (x0 : (⟨S50000x96, .f32⟩ : BufTy).Contents (Elt Ideal)) (x1 : (⟨S800000x96, .f32⟩ : BufTy).Contents (Elt Ideal))
  (x2 : (⟨S2x800000, .i32⟩ : BufTy).Contents (Elt Ideal)) (x3 : (⟨S288x96, .f32⟩ : BufTy).Contents (Elt Ideal))
  (x4 : (⟨S288, .f32⟩ : BufTy).Contents (Elt Ideal)) (x5 : (⟨S192x96, .f32⟩ : BufTy).Contents (Elt Ideal))
  (x6 : (⟨S192, .f32⟩ : BufTy).Contents (Elt Ideal)) (x7 : (⟨S96x96, .f32⟩ : BufTy).Contents (Elt Ideal))
  (x8 : (⟨S96, .f32⟩ : BufTy).Contents (Elt Ideal)) (x9 : (⟨S96x96, .f32⟩ : BufTy).Contents (Elt Ideal))
  (x10 x11 x12 x13 x14 : (⟨S96, .f32⟩ : BufTy).Contents (Elt Ideal))

/-! ## The two packed products, entry by entry -/

/-- Entry `(p, j)` of the node table times the transposed packed weights, plus the packed bias: the node's row
    against weight row `j`, plus bias entry `j`. -/
private theorem packedNode (p : Fin 50000) (j : Fin 288) :
    val_main_v4 (F := Ideal) x0 x3 x4 (ix2 p j)
      = (∑ k : Fin 96, x0 (ix2 p k) * x3 (ix2 j k)) + x4 (ix1 j) := by
  have el : ∀ k : Fin 96, lidx_main_v1 (ix2 p j) k = ix2 p k := fun k => funext fun a => Fin.ext (by
    match a with
    | ⟨0, _⟩ => rfl
    | ⟨1, _⟩ => rfl)
  have er : ∀ k : Fin 96, idx_main_v0 (ridx_main_v1 (ix2 p j) k) = ix2 j k := fun k => funext fun a => Fin.ext (by
    match a with
    | ⟨0, _⟩ => rfl
    | ⟨1, _⟩ => rfl)
  have eb : idx_main_v2 (idx_main_v3 (ix2 p j)) = ix1 j := funext fun a => Fin.ext (by
    match a with
    | ⟨0, _⟩ => rfl)
  rw [val_main_v4_apply, val_main_v1_apply, val_main_v3_apply, val_main_v2_apply, eb, Ideal.addf_def]
  congr 1
  refine Finset.sum_congr rfl fun k _ => ?_
  rw [val_main_v0_apply, el k, er k]

/-- Entry `(e, j)` of the edge table times the transposed packed edge weights, plus the packed bias. -/
private theorem packedEdge (e : Fin 800000) (j : Fin 192) :
    val_main_v12 (F := Ideal) x1 x5 x6 (ix2 e j)
      = (∑ k : Fin 96, x1 (ix2 e k) * x5 (ix2 j k)) + x6 (ix1 j) := by
  have el : ∀ k : Fin 96, lidx_main_v9 (ix2 e j) k = ix2 e k := fun k => funext fun a => Fin.ext (by
    match a with
    | ⟨0, _⟩ => rfl
    | ⟨1, _⟩ => rfl)
  have er : ∀ k : Fin 96, idx_main_v8 (ridx_main_v9 (ix2 e j) k) = ix2 j k := fun k => funext fun a => Fin.ext (by
    match a with
    | ⟨0, _⟩ => rfl
    | ⟨1, _⟩ => rfl)
  have eb : idx_main_v10 (idx_main_v11 (ix2 e j)) = ix1 j := funext fun a => Fin.ext (by
    match a with
    | ⟨0, _⟩ => rfl)
  rw [val_main_v12_apply, val_main_v9_apply, val_main_v11_apply, val_main_v10_apply, eb, Ideal.addf_def]
  congr 1
  refine Finset.sum_congr rfl fun k _ => ?_
  rw [val_main_v8_apply, el k, er k]

/-! ## The cuts -/

/-- The three cuts of the packed node product (operations 5, 6, 7) are the spec's query, key and value tables. -/
theorem qry_eq (p : Fin 50000) (q : Fin 96) :
    val_main_v5 (F := Ideal) x0 x3 x4 (ix2 p q) = qry (cur2 x0) (cur2 x3) (cur1 x4) p q := by
  have e : idx_main_v5 (ix2 p q) = ix2 p (off 0 (by norm_num) q) := funext fun a => Fin.ext (by
    match a with
    | ⟨0, _⟩ => rfl
    | ⟨1, _⟩ => exact (Nat.zero_add q.val).symm)
  rw [val_main_v5_apply, e, packedNode]
  rfl
theorem key_eq (p : Fin 50000) (q : Fin 96) :
    val_main_v6 (F := Ideal) x0 x3 x4 (ix2 p q) = key (cur2 x0) (cur2 x3) (cur1 x4) p q := by
  have e : idx_main_v6 (ix2 p q) = ix2 p (off 96 (by norm_num) q) := funext fun a => Fin.ext (by
    match a with
    | ⟨0, _⟩ => rfl
    | ⟨1, _⟩ => rfl)
  rw [val_main_v6_apply, e, packedNode]
  rfl
theorem val_eq (p : Fin 50000) (q : Fin 96) :
    val_main_v7 (F := Ideal) x0 x3 x4 (ix2 p q) = val (cur2 x0) (cur2 x3) (cur1 x4) p q := by
  have e : idx_main_v7 (ix2 p q) = ix2 p (off 192 (by norm_num) q) := funext fun a => Fin.ext (by
    match a with
    | ⟨0, _⟩ => rfl
    | ⟨1, _⟩ => rfl)
  rw [val_main_v7_apply, e, packedNode]
  rfl

/-- The two cuts of the packed edge product (operations 15, 17: the product regrouped as 2 × 96 per edge, its first
    and second group) are the spec's two edge projections. -/
private theorem escale_eq (e : Fin 800000) (q : Fin 96) :
    val_main_v15 (F := Ideal) x1 x5 x6 (ix2 e q) = escale (cur2 x1) (cur2 x5) (cur1 x6) e q := by
  have he := e.isLt
  have hq := q.isLt
  have e3 : idx_main_v13 (idx_main_v14 (idx_main_v15 (ix2 e q))) = ix2 e (off 0 (by norm_num) q) :=
    funext fun a => Fin.ext (by
      match a with
      | ⟨0, _⟩ =>
        show (((e.val * 96 + q.val) / 96 * 2 + 0) * 96 + (e.val * 96 + q.val) % 96) / 192 = e.val
        omega
      | ⟨1, _⟩ =>
        show (((e.val * 96 + q.val) / 96 * 2 + 0) * 96 + (e.val * 96 + q.val) % 96) % 192 = 0 + q.val
        omega)
  rw [val_main_v15_apply, val_main_v14_apply, val_main_v13_apply, e3, packedEdge]
  rfl
private theorem eshift_eq (e : Fin 800000) (q : Fin 96) :
    val_main_v17 (F := Ideal) x1 x5 x6 (ix2 e q) = eshift (cur2 x1) (cur2 x5) (cur1 x6) e q := by
  have he := e.isLt
  have hq := q.isLt
  have e3 : idx_main_v13 (idx_main_v16 (idx_main_v17 (ix2 e q))) = ix2 e (off 96 (by norm_num) q) :=
    funext fun a => Fin.ext (by
      match a with
      | ⟨0, _⟩ =>
        show (((e.val * 96 + q.val) / 96 * 2 + (1 + 0)) * 96 + (e.val * 96 + q.val) % 96) / 192 = e.val
        omega
      | ⟨1, _⟩ =>
        show (((e.val * 96 + q.val) / 96 * 2 + (1 + 0)) * 96 + (e.val * 96 + q.val) % 96) % 192 = 96 + q.val
        omega)
  rw [val_main_v17_apply, val_main_v16_apply, val_main_v13_apply, e3, packedEdge]
  rfl

/-! ## The rows an edge reads -/

/-- The index column the first gather reads holds, for edge `e`, the wrapped destination word. -/
private theorem dstWord (e : Fin 800000) :
    val_main_v27 (F := Ideal) x2 (ix2 e (0 : Fin 1)) = wrapIdx (x2 (ix2 (0 : Fin 2) e)) := by
  have e1 : idx_main_v27 (ix2 e (0 : Fin 1)) = ix1 e := funext fun a => Fin.ext (by
    match a with
    | ⟨0, _⟩ => rfl)
  have e2 : idx_main_v18 (idx_main_v19 (ix1 e)) = ix2 (0 : Fin 2) e := funext fun a => Fin.ext (by
    match a with
    | ⟨0, _⟩ => rfl
    | ⟨1, _⟩ => exact Nat.mod_eq_of_lt e.isLt)
  have h19 : val_main_v19 (F := Ideal) x2 (ix1 e) = x2 (ix2 (0 : Fin 2) e) := by
    rw [val_main_v19_apply, val_main_v18_apply, e2]
  rw [val_main_v27_apply, e1, val_main_v26_apply, val_main_v23_apply, val_main_v25_apply, val_main_v22_apply,
    val_main_v24_apply, val_main_c_apply, val_main_c_0_apply, h19]
  rfl

/-- The index column the second gather reads holds, for edge `e`, the wrapped source word. -/
private theorem srcWord (e : Fin 800000) :
    val_main_v34 (F := Ideal) x2 (ix2 e (0 : Fin 1)) = wrapIdx (x2 (ix2 (1 : Fin 2) e)) := by
  have e1 : idx_main_v34 (ix2 e (0 : Fin 1)) = ix1 e := funext fun a => Fin.ext (by
    match a with
    | ⟨0, _⟩ => rfl)
  have e2 : idx_main_v20 (idx_main_v21 (ix1 e)) = ix2 (1 : Fin 2) e := funext fun a => Fin.ext (by
    match a with
    | ⟨0, _⟩ => rfl
    | ⟨1, _⟩ => exact Nat.mod_eq_of_lt e.isLt)
  have h21 : val_main_v21 (F := Ideal) x2 (ix1 e) = x2 (ix2 (1 : Fin 2) e) := by
    rw [val_main_v21_apply, val_main_v20_apply, e2]
  rw [val_main_v34_apply, e1, val_main_v33_apply, val_main_v30_apply, val_main_v32_apply, val_main_v29_apply,
    val_main_v31_apply, val_main_c_1_apply, val_main_c_2_apply, h21]
  rfl

/-- A gather of rows of a 50000 × 96 table by an 800000 × 1 index column reads, at `(e, q)`, entry `q` of the row
    the index word `w` of edge `e` names, read signed and clamped into the table. -/
private theorem gatherRow (t : (⟨S50000x96, .f32⟩ : BufTy).Contents (Elt Ideal))
    (idx : (⟨S800000x1, .i32⟩ : BufTy).Contents (Elt Ideal)) (e : Fin 800000) (q : Fin 96)
    (w : BitVec 32) (hw : idx (ix2 e (0 : Fin 1)) = w) :
    Host.gather gather_S50000x96_S800000x1_S800000x96_1_0_n_n_0_1_196 t idx (ix2 e q)
      = t (ix2 ⟨min w.toInt.toNat (50000 - 1), by omega⟩ q) := by
  subst hw
  exact Cert.Gcn.gather_rows_apply (N := 50000) (E := 800000) (C := 96) (by norm_num)
    gather_S50000x96_S800000x1_S800000x96_1_0_n_n_0_1_196_wf t idx e q

/-- The destination's query row and the source's key row, as the edge reads them. -/
private theorem gatherQ (e : Fin 800000) (q : Fin 96) :
    val_main_v28 (F := Ideal) x0 x2 x3 x4 (ix2 e q) = qry (cur2 x0) (cur2 x3) (cur1 x4) (rdOf x2 e) q := by
  unfold val_main_v28
  rw [gatherRow _ _ e q _ (dstWord x2 e)]
  exact qry_eq x0 x3 x4 (rdOf x2 e) q
private theorem gatherK (e : Fin 800000) (q : Fin 96) :
    val_main_v35 (F := Ideal) x0 x2 x3 x4 (ix2 e q) = key (cur2 x0) (cur2 x3) (cur1 x4) (rsOf x2 e) q := by
  unfold val_main_v35
  rw [gatherRow _ _ e q _ (srcWord x2 e)]
  exact key_eq x0 x3 x4 (rsOf x2 e) q

/-! ## The message -/

/-- The rectified message (operation 43) is the spec's. -/
theorem msg_eq (e : Fin 800000) (q : Fin 96) :
    val_main_v43 (F := Ideal) x0 x1 x2 x3 x4 x5 x6 (ix2 e q)
      = msg (cur2 x0) (cur2 x1) (rdOf x2) (rsOf x2) (cur2 x3) (cur1 x4) (cur2 x5) (cur1 x6) e q := by
  rw [val_main_v43_apply, val_main_v42_apply, val_main_v41_apply, val_main_v38_apply, val_main_v40_apply,
    val_main_v39_apply, val_main_v37_apply, val_main_v36_apply, val_main_call0_v0_apply, val_main_call0_cst_apply,
    gatherQ, gatherK, escale_eq, eshift_eq]
  simp only [Ideal.maximumf_def, Ideal.addf_def, Ideal.mulf_def, Ideal.hostUnary_sign_def, Ideal.hostUnary_sqrt_def,
    Ideal.hostAbsf_def, Ideal.ofBits_def, Ideal.ofBits_zero_f32]
  rfl

end Cert.ReferenceIdeal.RefValue

end
-- ==== Proof.RefEdge.lean ====
/-
  The reference's edge result, entry by entry: the edge row plus its message, normalised.
-/
import proofs.«420450_j53833120088741_2_alg».proof.Proof.Gen.ReferenceIdeal.Read
import proofs.«420450_j53833120088741_2_alg».proof.Proof.Spec
import proofs.«420450_j53833120088741_2_alg».proof.Proof.LibRowGatherScatter
import Idealize.ShloMosaic.Lib.Pipeline.Value
import Idealize.ShloMosaic.Lib.ValueIdx
import Idealize.ShloMosaic.Lib.ValueLayout
import Idealize.ShloMosaic.PureOps.Ideal.Laws
import proofs.«420450_j53833120088741_2_alg».proof.Proof.RefMsg

noncomputable section

namespace Cert.ReferenceIdeal.RefValue

open Cert.ReferenceIdeal Cert.ReferenceIdeal.Gen Cert.ReferenceIdeal.Read Cert.Mp
open Idealize.ShloMosaic Idealize.ShloMosaic.TcCoe Idealize.ShloMosaic.ValueIdx Idealize.SL.Sem
open scoped BigOperators

variable (x0 : (⟨S50000x96, .f32⟩ : BufTy).Contents (Elt Ideal)) (x1 : (⟨S800000x96, .f32⟩ : BufTy).Contents (Elt Ideal))
  (x2 : (⟨S2x800000, .i32⟩ : BufTy).Contents (Elt Ideal)) (x3 : (⟨S288x96, .f32⟩ : BufTy).Contents (Elt Ideal))
  (x4 : (⟨S288, .f32⟩ : BufTy).Contents (Elt Ideal)) (x5 : (⟨S192x96, .f32⟩ : BufTy).Contents (Elt Ideal))
  (x6 : (⟨S192, .f32⟩ : BufTy).Contents (Elt Ideal)) (x7 : (⟨S96x96, .f32⟩ : BufTy).Contents (Elt Ideal))
  (x8 : (⟨S96, .f32⟩ : BufTy).Contents (Elt Ideal)) (x9 : (⟨S96x96, .f32⟩ : BufTy).Contents (Elt Ideal))
  (x10 x11 x12 x13 x14 : (⟨S96, .f32⟩ : BufTy).Contents (Elt Ideal))

/-- The edge's row plus its message: the row that is normalised. -/
private abbrev erow (e : Fin 800000) : Fin 96 → EReal :=
  fun k => cur2 x1 e k + msg (cur2 x0) (cur2 x1) (rdOf x2) (rsOf x2) (cur2 x3) (cur1 x4) (cur2 x5) (cur1 x6) e k

/-- Operation 69 at `(e, k)` is entry `k` of that row. -/
private theorem row_eq (e : Fin 800000) (k : Fin 96) :
    val_main_v69 (F := Ideal) x0 x1 x2 x3 x4 x5 x6 (ix2 e k) = erow x0 x1 x2 x3 x4 x5 x6 e k := by
  rw [val_main_v69_apply, msg_eq, Ideal.addf_def]

/-- The row's mean (operation 97, one entry per edge). -/
private theorem mean_eq (e : Fin 800000) :
    val_main_v97 (F := Ideal) x0 x1 x2 x3 x4 x5 x6 (ix2 e (0 : Fin 1)) = mean (erow x0 x1 x2 x3 x4 x5 x6 e) := by
  have e1 : idx_main_v95 (ix2 e (0 : Fin 1)) = ix1 e := funext fun a => Fin.ext (by
    match a with
    | ⟨0, _⟩ => rfl)
  have e2 : ∀ k : Fin 96, idx_main_v94 (ix1 e) k = ix2 e k := fun k => funext fun a => Fin.ext (by
    match a with
    | ⟨0, _⟩ => rfl
    | ⟨1, _⟩ => rfl)
  rw [val_main_v97_apply, val_main_v95_apply, e1, val_main_v94_apply, val_main_v96_apply, val_main_cst_11_apply,
    val_main_cst_12_apply, Ideal.ofBits_def, Ideal.ofBits_def, Ideal.ofBits_zero_f32, zero_add, Ideal.hostDivf_def]
  unfold mean
  congr 1
  refine Finset.sum_congr rfl fun k _ => ?_
  rw [e2 k, row_eq]

/-- The centred row, as the variance reads it (operation 99) and as the result reads it (operation 106). -/
private theorem centred_eq (e : Fin 800000) (k : Fin 96) :
    val_main_v99 (F := Ideal) x0 x1 x2 x3 x4 x5 x6 (ix2 e k)
      = erow x0 x1 x2 x3 x4 x5 x6 e k - mean (erow x0 x1 x2 x3 x4 x5 x6 e) := by
  have e1 : idx_main_v98 (ix2 e k) = ix2 e (0 : Fin 1) := funext fun a => Fin.ext (by
    match a with
    | ⟨0, _⟩ => rfl
    | ⟨1, _⟩ => rfl)
  rw [val_main_v99_apply, val_main_v98_apply, e1, mean_eq, row_eq, Ideal.subf_def]
private theorem centred_eq' (e : Fin 800000) (k : Fin 96) :
    val_main_v106 (F := Ideal) x0 x1 x2 x3 x4 x5 x6 (ix2 e k)
      = erow x0 x1 x2 x3 x4 x5 x6 e k - mean (erow x0 x1 x2 x3 x4 x5 x6 e) := by
  have e1 : idx_main_v105 (ix2 e k) = ix2 e (0 : Fin 1) := funext fun a => Fin.ext (by
    match a with
    | ⟨0, _⟩ => rfl
    | ⟨1, _⟩ => rfl)
  rw [val_main_v106_apply, val_main_v105_apply, e1, mean_eq, row_eq, Ideal.subf_def]

/-- The row's variance (operation 104, one entry per edge): the mean of the squared centred row. -/
private theorem var_eq (e : Fin 800000) :
    val_main_v104 (F := Ideal) x0 x1 x2 x3 x4 x5 x6 (ix2 e (0 : Fin 1))
      = mean (fun k => (erow x0 x1 x2 x3 x4 x5 x6 e k - mean (erow x0 x1 x2 x3 x4 x5 x6 e))
          * (erow x0 x1 x2 x3 x4 x5 x6 e k - mean (erow x0 x1 x2 x3 x4 x5 x6 e))) := by
  have e1 : idx_main_v102 (ix2 e (0 : Fin 1)) = ix1 e := funext fun a => Fin.ext (by
    match a with
    | ⟨0, _⟩ => rfl)
  have e2 : ∀ k : Fin 96, idx_main_v101 (ix1 e) k = ix2 e k := fun k => funext fun a => Fin.ext (by
    match a with
    | ⟨0, _⟩ => rfl
    | ⟨1, _⟩ => rfl)
  rw [val_main_v104_apply, val_main_v102_apply, e1, val_main_v101_apply, val_main_v103_apply, val_main_cst_13_apply,
    val_main_cst_14_apply, Ideal.ofBits_def, Ideal.ofBits_def, Ideal.ofBits_zero_f32, zero_add, Ideal.hostDivf_def]
  show Ideal.div _ _ = Ideal.div _ _
  congr 1
  refine Finset.sum_congr rfl fun k _ => ?_
  rw [e2 k, val_main_v100_apply, centred_eq, Ideal.mulf_def]

/-- The edge result (operation 117) is the spec's: the edge's row plus its message, normalised. -/
theorem edge_eq (e : Fin 800000) (q : Fin 96) :
    val_main_v117 (F := Ideal) x0 x1 x2 x3 x4 x5 x6 x13 x14 (ix2 e q) = layerEdge x0 x1 x2 x3 x4 x5 x6 x13 x14 e q := by
  have e1 : idx_main_v110 (ix2 e q) = ix2 e (0 : Fin 1) := funext fun a => Fin.ext (by
    match a with
    | ⟨0, _⟩ => rfl
    | ⟨1, _⟩ => rfl)
  have e2 : idx_main_v112 (idx_main_v113 (ix2 e q)) = ix1 q := funext fun a => Fin.ext (by
    match a with
    | ⟨0, _⟩ => rfl)
  have e3 : idx_main_v115 (idx_main_v116 (ix2 e q)) = ix1 q := funext fun a => Fin.ext (by
    match a with
    | ⟨0, _⟩ => rfl)
  rw [val_main_v117_apply, val_main_v114_apply, val_main_v111_apply, val_main_v110_apply, e1, val_main_v109_apply,
    val_main_v108_apply, val_main_v107_apply, val_main_cst_15_apply, val_main_v113_apply, val_main_v112_apply, e2,
    val_main_v116_apply, val_main_v115_apply, e3, centred_eq', var_eq, Ideal.ofBits_def, Ideal.addf_def, Ideal.addf_def,
    Ideal.mulf_def, Ideal.mulf_def, Ideal.hostUnary_rsqrt_def]
  rfl

end Cert.ReferenceIdeal.RefValue

end
-- ==== Proof.RefNode.lean ====
/-
  The reference's node result, entry by entry: the landed value rows and messages, the two dense maps, the node's own
  row added, normalised.

  An edge's gathered value row is the value row of the node its source word names (wrapped, read signed, clamped).
  The two accumulating scatters start from the zero table, so at a node they leave the sum, over the edges whose
  destination word is that node, of the gathered value rows and of the messages. Each dense map is a row times the
  transpose of a 96 × 96 weight table plus a bias: entry by entry the affine map. The row normalisation reads the
  row's mean (once to centre the squares, once to centre the row), the mean of the centred squares and the
  reciprocal root, each broadcast back along the row.
-/
import proofs.«420450_j53833120088741_2_alg».proof.Proof.Gen.ReferenceIdeal.Read
import proofs.«420450_j53833120088741_2_alg».proof.Proof.Spec
import proofs.«420450_j53833120088741_2_alg».proof.Proof.LibRowGatherScatter
import Idealize.ShloMosaic.Lib.Pipeline.Value
import Idealize.ShloMosaic.Lib.ValueIdx
import Idealize.ShloMosaic.Lib.ValueLayout
import Idealize.ShloMosaic.PureOps.Ideal.Laws
import proofs.«420450_j53833120088741_2_alg».proof.Proof.RefMsg

noncomputable section

namespace Cert.ReferenceIdeal.RefValue

open Cert.ReferenceIdeal Cert.ReferenceIdeal.Gen Cert.ReferenceIdeal.Read Cert.Mp
open Idealize.ShloMosaic Idealize.ShloMosaic.TcCoe Idealize.ShloMosaic.ValueIdx Idealize.SL.Sem
open scoped BigOperators

variable (x0 : (⟨S50000x96, .f32⟩ : BufTy).Contents (Elt Ideal)) (x1 : (⟨S800000x96, .f32⟩ : BufTy).Contents (Elt Ideal))
  (x2 : (⟨S2x800000, .i32⟩ : BufTy).Contents (Elt Ideal)) (x3 : (⟨S288x96, .f32⟩ : BufTy).Contents (Elt Ideal))
  (x4 : (⟨S288, .f32⟩ : BufTy).Contents (Elt Ideal)) (x5 : (⟨S192x96, .f32⟩ : BufTy).Contents (Elt Ideal))
  (x6 : (⟨S192, .f32⟩ : BufTy).Contents (Elt Ideal)) (x7 : (⟨S96x96, .f32⟩ : BufTy).Contents (Elt Ideal))
  (x8 : (⟨S96, .f32⟩ : BufTy).Contents (Elt Ideal)) (x9 : (⟨S96x96, .f32⟩ : BufTy).Contents (Elt Ideal))
  (x10 x11 x12 x13 x14 : (⟨S96, .f32⟩ : BufTy).Contents (Elt Ideal))

/-- The printed row gather read at an entry. -/
private theorem gather_read (y : (⟨S50000x96, .f32⟩ : BufTy).Contents (Elt Ideal))
    (idx : (⟨S800000x1, .i32⟩ : BufTy).Contents (Elt Ideal)) (e : Fin 800000) (k : Fin 96) :
    Host.gather gather_S50000x96_S800000x1_S800000x96_1_0_n_n_0_1_196 y idx (ix2 e k)
      = y (ix2 ⟨min (idx (ix2 e (0 : Fin 1))).toInt.toNat (50000 - 1), by omega⟩ k) :=
  Cert.Gcn.gather_rows_apply (N := 50000) (E := 800000) (C := 96) (by norm_num)
    gather_S50000x96_S800000x1_S800000x96_1_0_n_n_0_1_196.wf y idx e k

/-- The same, the row named by any index with that value. -/
private theorem gather_read' (y : (⟨S50000x96, .f32⟩ : BufTy).Contents (Elt Ideal))
    (idx : (⟨S800000x1, .i32⟩ : BufTy).Contents (Elt Ideal)) (e : Fin 800000) (k : Fin 96) (r : Fin 50000)
    (hr : r.val = min (idx (ix2 e (0 : Fin 1))).toInt.toNat (50000 - 1)) :
    Host.gather gather_S50000x96_S800000x1_S800000x96_1_0_n_n_0_1_196 y idx (ix2 e k) = y (ix2 r k) := by
  rw [gather_read]
  exact congrArg (fun r => y (ix2 r k)) (Fin.ext hr.symm)

/-- The printed accumulating row scatter read at an entry. -/
private theorem scatter_read (x : (⟨S50000x96, .f32⟩ : BufTy).Contents (Elt Ideal))
    (idx : (⟨S800000x1, .i32⟩ : BufTy).Contents (Elt Ideal))
    (upd : (⟨S800000x96, .f32⟩ : BufTy).Contents (Elt Ideal)) (i : Fin 50000) (k : Fin 96) :
    Host.scatterAdd (F := Ideal) (φ := .f32) scatter_S50000x96_S800000x1_S800000x96_1_0_0_1 x idx upd (ix2 i k)
      = x (ix2 i k) + ∑ e ∈ Finset.univ.filter (fun e : Fin 800000 => (idx (ix2 e (0 : Fin 1))).toInt = (i.val : ℤ)),
          upd (ix2 e k) :=
  Cert.Gcn.scatterAdd_rows_apply (N := 50000) (E := 800000) (C := 96)
    scatter_S50000x96_S800000x1_S800000x96_1_0_0_1.wf idx x upd i k

/-! ## The two gathers' and scatters' index words -/

/-- The word the two scatters read for edge `e` is its destination word. -/
private theorem v52_read (e : Fin 800000) :
    val_main_v52 (F := Ideal) x2 (ix2 e (0 : Fin 1)) = x2 (ix2 (0 : Fin 2) e) := by
  rw [val_main_v52_apply, val_main_v19_apply, val_main_v18_apply]
  exact congrArg x2 (funext fun a => Fin.ext (by
    match a with
    | ⟨0, _⟩ => rfl
    | ⟨1, _⟩ => exact Nat.mod_eq_of_lt e.isLt))

private theorem v55_read (e : Fin 800000) :
    val_main_v55 (F := Ideal) x2 (ix2 e (0 : Fin 1)) = x2 (ix2 (0 : Fin 2) e) := by
  rw [val_main_v55_apply, val_main_v19_apply, val_main_v18_apply]
  exact congrArg x2 (funext fun a => Fin.ext (by
    match a with
    | ⟨0, _⟩ => rfl
    | ⟨1, _⟩ => exact Nat.mod_eq_of_lt e.isLt))

/-- The word the value gather reads for edge `e` is its source word, wrapped. -/
private theorem v49_read (e : Fin 800000) :
    val_main_v49 (F := Ideal) x2 (ix2 e (0 : Fin 1)) = wrapIdx (x2 (ix2 (1 : Fin 2) e)) := by
  have h21 : val_main_v21 (F := Ideal) x2 (idx_main_v49 (ix2 e (0 : Fin 1))) = x2 (ix2 (1 : Fin 2) e) := by
    rw [val_main_v21_apply, val_main_v20_apply]
    exact congrArg x2 (funext fun a => Fin.ext (by
    match a with
    | ⟨0, _⟩ => rfl
    | ⟨1, _⟩ => exact Nat.mod_eq_of_lt e.isLt))
  rw [val_main_v49_apply, val_main_v48_apply, val_main_v45_apply, val_main_v47_apply, val_main_v44_apply,
    val_main_v46_apply, val_main_c_3_apply, val_main_c_4_apply, h21]
  rfl

/-! ## What lands on a node -/

/-- The gathered value row of edge `e` is the value row of the node its source word names. -/
private theorem v50_read (e : Fin 800000) (k : Fin 96) :
    val_main_v50 (F := Ideal) x0 x2 x3 x4 (ix2 e k) = val (cur2 x0) (cur2 x3) (cur1 x4) (rsOf x2 e) k := by
  unfold val_main_v50
  refine (gather_read' _ _ e k (rsOf x2 e) ?_).trans (val_eq x0 x3 x4 (rsOf x2 e) k)
  rw [v49_read]
  rfl

/-- The first scatter leaves at a node the sum of the value rows of the sources of the edges that land on it. -/
private theorem v53_read (p : Fin 50000) (k : Fin 96) :
    val_main_v53 (F := Ideal) x0 x2 x3 x4 (ix2 p k) = agg (cur2 x0) (rsOf x2) (intoOf x2) (cur2 x3) (cur1 x4) p k := by
  unfold val_main_v53
  rw [scatter_read, val_main_v51_apply, val_main_cst_apply, Ideal.ofBits_def, Ideal.ofBits_zero_f32, zero_add]
  unfold agg intoOf
  exact Finset.sum_congr (Finset.filter_congr fun e _ => by rw [v52_read]) fun e _ => v50_read x0 x2 x3 x4 e k

/-- The second scatter leaves at a node the sum of the messages of the edges that land on it. -/
private theorem v56_read (p : Fin 50000) (k : Fin 96) :
    val_main_v56 (F := Ideal) x0 x1 x2 x3 x4 x5 x6 (ix2 p k) = eagg (cur2 x0) (cur2 x1) (rdOf x2) (rsOf x2) (intoOf x2) (cur2 x3) (cur1 x4) (cur2 x5) (cur1 x6) p k := by
  unfold val_main_v56
  rw [scatter_read, val_main_v54_apply, val_main_cst_5_apply, Ideal.ofBits_def, Ideal.ofBits_zero_f32, zero_add]
  unfold eagg intoOf
  exact Finset.sum_congr (Finset.filter_congr fun e _ => by rw [v55_read]) fun e _ => msg_eq x0 x1 x2 x3 x4 x5 x6 e k

/-! ## The two dense maps -/

/-- A sum of products plus a bias entry is the affine map. -/
private theorem affine_of {a : Fin 96 → EReal} {w : Fin 96 → Fin 96 → EReal} {b : Fin 96 → EReal} {j : Fin 96}
    {s c : EReal} (hs : s = ∑ k : Fin 96, a k * w j k) (hc : c = b j) : s + c = affine a w b j := by
  rw [hs, hc]; rfl

/-- The summed messages through the first 96 × 96 table. -/
private theorem v61_read (p : Fin 50000) (j : Fin 96) :
    val_main_v61 (F := Ideal) x0 x1 x2 x3 x4 x5 x6 x7 x8 (ix2 p j)
      = affine (fun k => val_main_v56 (F := Ideal) x0 x1 x2 x3 x4 x5 x6 (ix2 p k)) (cur2 x7) (cur1 x8) j := by
  rw [val_main_v61_apply, val_main_v58_apply, val_main_v60_apply, val_main_v59_apply, Ideal.addf_def]
  refine affine_of (Finset.sum_congr rfl fun k _ => ?_) ?_
  · rw [val_main_v57_apply]
    exact congrArg₂ (· * ·)
      (congrArg (val_main_v56 (F := Ideal) x0 x1 x2 x3 x4 x5 x6) (funext fun a => Fin.ext (by match a with | ⟨0, _⟩ => rfl | ⟨1, _⟩ => rfl)))
      (congrArg x7 (funext fun a => Fin.ext (by match a with | ⟨0, _⟩ => rfl | ⟨1, _⟩ => rfl)))
  · exact congrArg x8 (funext fun a => Fin.ext (by match a with | ⟨0, _⟩ => rfl))

/-- The two sums joined. -/
private theorem v62_read (p : Fin 50000) (j : Fin 96) :
    val_main_v62 (F := Ideal) x0 x1 x2 x3 x4 x5 x6 x7 x8 (ix2 p j) = joined (cur2 x0) (cur2 x1) (rdOf x2) (rsOf x2) (intoOf x2) (cur2 x3) (cur1 x4) (cur2 x5) (cur1 x6) (cur2 x7) (cur1 x8) p j := by
  rw [val_main_v62_apply, v53_read, v61_read, Ideal.addf_def]
  simp only [v56_read]
  rfl

/-- The joined row through the second 96 × 96 table. -/
private theorem v67_read (p : Fin 50000) (j : Fin 96) :
    val_main_v67 (F := Ideal) x0 x1 x2 x3 x4 x5 x6 x7 x8 x9 x10 (ix2 p j)
      = affine (fun k => val_main_v62 (F := Ideal) x0 x1 x2 x3 x4 x5 x6 x7 x8 (ix2 p k)) (cur2 x9) (cur1 x10) j := by
  rw [val_main_v67_apply, val_main_v64_apply, val_main_v66_apply, val_main_v65_apply, Ideal.addf_def]
  refine affine_of (Finset.sum_congr rfl fun k _ => ?_) ?_
  · rw [val_main_v63_apply]
    exact congrArg₂ (· * ·)
      (congrArg (val_main_v62 (F := Ideal) x0 x1 x2 x3 x4 x5 x6 x7 x8) (funext fun a => Fin.ext (by match a with | ⟨0, _⟩ => rfl | ⟨1, _⟩ => rfl)))
      (congrArg x9 (funext fun a => Fin.ext (by match a with | ⟨0, _⟩ => rfl | ⟨1, _⟩ => rfl)))
  · exact congrArg x10 (funext fun a => Fin.ext (by match a with | ⟨0, _⟩ => rfl))

/-- The node's row before it is normalised. -/
private theorem v68_read (p : Fin 50000) (j : Fin 96) :
    val_main_v68 (F := Ideal) x0 x1 x2 x3 x4 x5 x6 x7 x8 x9 x10 (ix2 p j) = node (cur2 x0) (cur2 x1) (rdOf x2) (rsOf x2) (intoOf x2) (cur2 x3) (cur1 x4) (cur2 x5) (cur1 x6) (cur2 x7) (cur1 x8) (cur2 x9) (cur1 x10) p j := by
  rw [val_main_v68_apply, v67_read, Ideal.addf_def]
  simp only [v62_read]
  rfl

/-! ## The row normalisation -/

private theorem mean_eq (v : Fin 96 → EReal) :
    mean v = Ideal.div (∑ k : Fin 96, v k) (Ideal.ofBits .f32 0x42C00000#32) := rfl

/-- The broadcast mean of row `p`. -/
private theorem v73_read (p : Fin 50000) :
    val_main_v73 (F := Ideal) x0 x1 x2 x3 x4 x5 x6 x7 x8 x9 x10 (ix2 p (0 : Fin 1)) = mean (fun k => val_main_v68 (F := Ideal) x0 x1 x2 x3 x4 x5 x6 x7 x8 x9 x10 (ix2 p k)) := by
  rw [val_main_v73_apply, val_main_v71_apply, val_main_v70_apply, val_main_v72_apply, val_main_cst_7_apply,
    val_main_cst_6_apply, Ideal.hostDivf_def, Ideal.ofBits_def, Ideal.ofBits_def, Ideal.ofBits_zero_f32, zero_add,
    mean_eq]
  exact congrArg (fun s => Ideal.div s (Ideal.ofBits .f32 0x42C00000#32))
    (Finset.sum_congr rfl fun k _ => congrArg (val_main_v68 (F := Ideal) x0 x1 x2 x3 x4 x5 x6 x7 x8 x9 x10) (funext fun a => Fin.ext (by match a with | ⟨0, _⟩ => rfl | ⟨1, _⟩ => rfl)))

/-- The row centred for the squares. -/
private theorem v75_read (p : Fin 50000) (k : Fin 96) :
    val_main_v75 (F := Ideal) x0 x1 x2 x3 x4 x5 x6 x7 x8 x9 x10 (ix2 p k) = val_main_v68 (F := Ideal) x0 x1 x2 x3 x4 x5 x6 x7 x8 x9 x10 (ix2 p k) - mean (fun k => val_main_v68 (F := Ideal) x0 x1 x2 x3 x4 x5 x6 x7 x8 x9 x10 (ix2 p k)) := by
  rw [val_main_v75_apply, val_main_v74_apply, Ideal.subf_def,
    show idx_main_v74 (ix2 p k) = ix2 p (0 : Fin 1) from (funext fun a => Fin.ext (by match a with | ⟨0, _⟩ => rfl | ⟨1, _⟩ => rfl)), v73_read]

/-- The row centred for the result. -/
private theorem v82_read (p : Fin 50000) (k : Fin 96) :
    val_main_v82 (F := Ideal) x0 x1 x2 x3 x4 x5 x6 x7 x8 x9 x10 (ix2 p k) = val_main_v68 (F := Ideal) x0 x1 x2 x3 x4 x5 x6 x7 x8 x9 x10 (ix2 p k) - mean (fun k => val_main_v68 (F := Ideal) x0 x1 x2 x3 x4 x5 x6 x7 x8 x9 x10 (ix2 p k)) := by
  rw [val_main_v82_apply, val_main_v81_apply, Ideal.subf_def,
    show idx_main_v81 (ix2 p k) = ix2 p (0 : Fin 1) from (funext fun a => Fin.ext (by match a with | ⟨0, _⟩ => rfl | ⟨1, _⟩ => rfl)), v73_read]

/-- The mean of the centred squares of row `p`. -/
private theorem v80_read (p : Fin 50000) :
    val_main_v80 (F := Ideal) x0 x1 x2 x3 x4 x5 x6 x7 x8 x9 x10 (ix2 p (0 : Fin 1))
      = mean (fun k => (val_main_v68 (F := Ideal) x0 x1 x2 x3 x4 x5 x6 x7 x8 x9 x10 (ix2 p k) - mean (fun k => val_main_v68 (F := Ideal) x0 x1 x2 x3 x4 x5 x6 x7 x8 x9 x10 (ix2 p k))) * (val_main_v68 (F := Ideal) x0 x1 x2 x3 x4 x5 x6 x7 x8 x9 x10 (ix2 p k) - mean (fun k => val_main_v68 (F := Ideal) x0 x1 x2 x3 x4 x5 x6 x7 x8 x9 x10 (ix2 p k)))) := by
  rw [val_main_v80_apply, val_main_v78_apply, val_main_v77_apply, val_main_v79_apply, val_main_cst_9_apply,
    val_main_cst_8_apply, Ideal.hostDivf_def, Ideal.ofBits_def, Ideal.ofBits_def, Ideal.ofBits_zero_f32, zero_add,
    mean_eq (fun k => (val_main_v68 (F := Ideal) x0 x1 x2 x3 x4 x5 x6 x7 x8 x9 x10 (ix2 p k) - mean (fun k => val_main_v68 (F := Ideal) x0 x1 x2 x3 x4 x5 x6 x7 x8 x9 x10 (ix2 p k))) * (val_main_v68 (F := Ideal) x0 x1 x2 x3 x4 x5 x6 x7 x8 x9 x10 (ix2 p k) - mean (fun k => val_main_v68 (F := Ideal) x0 x1 x2 x3 x4 x5 x6 x7 x8 x9 x10 (ix2 p k))))]
  refine congrArg (fun s => Ideal.div s (Ideal.ofBits .f32 0x42C00000#32)) (Finset.sum_congr rfl fun k _ => ?_)
  rw [show idx_main_v77 (idx_main_v78 (ix2 p (0 : Fin 1))) k = ix2 p k from (funext fun a => Fin.ext (by match a with | ⟨0, _⟩ => rfl | ⟨1, _⟩ => rfl)),
    val_main_v76_apply, v75_read, Ideal.mulf_def]

/-- The normalised row. -/
private theorem v93_read (p : Fin 50000) (q : Fin 96) :
    val_main_v93 (F := Ideal) x0 x1 x2 x3 x4 x5 x6 x7 x8 x9 x10 x11 x12 (ix2 p q) = lnorm (fun k => val_main_v68 (F := Ideal) x0 x1 x2 x3 x4 x5 x6 x7 x8 x9 x10 (ix2 p k)) (cur1 x11) (cur1 x12) q := by
  rw [val_main_v93_apply, val_main_v90_apply, val_main_v87_apply, v82_read, val_main_v86_apply,
    show idx_main_v86 (ix2 p q) = ix2 p (0 : Fin 1) from (funext fun a => Fin.ext (by match a with | ⟨0, _⟩ => rfl | ⟨1, _⟩ => rfl)),
    val_main_v85_apply, val_main_v84_apply, v80_read, val_main_v83_apply, val_main_cst_10_apply,
    val_main_v89_apply, val_main_v88_apply, val_main_v92_apply, val_main_v91_apply,
    show idx_main_v88 (idx_main_v89 (ix2 p q)) = ix1 q from (funext fun a => Fin.ext (by match a with | ⟨0, _⟩ => rfl)),
    show idx_main_v91 (idx_main_v92 (ix2 p q)) = ix1 q from (funext fun a => Fin.ext (by match a with | ⟨0, _⟩ => rfl)),
    Ideal.addf_def, Ideal.addf_def, Ideal.mulf_def, Ideal.mulf_def, Ideal.hostUnary_rsqrt_def, Ideal.ofBits_def]
  rfl

theorem node_eq (p : Fin 50000) (q : Fin 96) :
    val_main_v93 (F := Ideal) x0 x1 x2 x3 x4 x5 x6 x7 x8 x9 x10 x11 x12 (ix2 p q)
      = layerNode x0 x1 x2 x3 x4 x5 x6 x7 x8 x9 x10 x11 x12 p q := by
  rw [v93_read]
  simp only [v68_read]
  rfl

end Cert.ReferenceIdeal.RefValue

end
-- ==== Proof.RefRun.lean ====
/-
  The idealized reference's run, with its two results named by the layer's specification: every weakly fair execution
  ends with the node result at the layer's node result of the argument arrays, entry by entry, the edge result at the
  layer's edge result, and the arguments as launched.
-/
import proofs.«420450_j53833120088741_2_alg».proof.Proof.Gen.ReferenceIdeal.Run
import proofs.«420450_j53833120088741_2_alg».proof.Proof.Gen.ReferenceIdeal.Read
import proofs.«420450_j53833120088741_2_alg».proof.Proof.Spec
import proofs.«420450_j53833120088741_2_alg».proof.Proof.RefEdge
import proofs.«420450_j53833120088741_2_alg».proof.Proof.RefNode
import Idealize.ShloMosaic.Lib.ValueIdx

noncomputable section

namespace Cert.ReferenceIdeal.RefValue

open Cert.ReferenceIdeal Cert.ReferenceIdeal.Gen Cert.ReferenceIdeal.Read Cert.Mp
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem run :
    θ_run defs (onTc (τ := τ) (main (F := Ideal))) ⟨m, fun _ => 0, ρ⟩ (fun r => ∀ c : Dev nD,
      r.2.mem ((c.tc : Thread nD τ).loc main_v93)
        = (fun i => layerNode (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
            (m ((c.tc : Thread nD τ).loc main_arg11)) (m ((c.tc : Thread nD τ).loc main_arg12)) (i 0) (i 1))
      ∧ r.2.mem ((c.tc : Thread nD τ).loc main_v117)
        = (fun i => layerEdge (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg13))
            (m ((c.tc : Thread nD τ).loc main_arg14)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      ⟨(h c).1.trans ((val_main_v93_eq (F := Ideal) m c).trans (funext fun i =>
          (congrArg (val_main_v93 (F := Ideal) _ _ _ _ _ _ _ _ _ _ _ _ _) (eq_ix2 i)).trans (node_eq _ _ _ _ _ _ _ _ _ _ _ _ _ (i 0) (i 1)))),
       (h c).2.1.trans ((val_main_v117_eq (F := Ideal) m c).trans (funext fun i =>
          (congrArg (val_main_v117 (F := Ideal) _ _ _ _ _ _ _ _ _) (eq_ix2 i)).trans (edge_eq _ _ _ _ _ _ _ _ _ (i 0) (i 1)))),
       (h c).2.2⟩)
    (Cert.ReferenceIdeal.Value.run (F := Ideal) m ρ)

end Cert.ReferenceIdeal.RefValue

end
-- ==== Proof.lean ====
/-
  The kernel and its reference compute one message-passing layer: the same function of the fifteen argument arrays,
  entry by entry, on the extended reals.

  The layer (Proof/Spec.lean): every node row goes through three dense maps (query, key, value); every edge forms a
  message from its destination's query row, its source's key row and two projections of its own row (a signed square
  root, rectified); a node adds up the value rows and the messages of the edges that land on it, sends them through
  two more dense maps, adds its own row and normalises; each edge's row plus its message is normalised too.

  The kernel does this in three pipelined regions with host gathers and one scatter-add between them
  (Proof/Region0–2.lean, Proof/Stage1–5.lean): it multiplies in three passes (an operand, and what is left of an
  operand after the operand is taken away — nothing, on real numbers), gathers key and value rows side by side, and
  scatters values and messages side by side. The reference multiplies the packed tables once and cuts the products
  (Proof/RefMsg.lean, RefEdge.lean, RefNode.lean). Both are the layer wherever every float argument holds real
  numbers — the three-pass products need it of every operand, and every intermediate of the layer is then a real
  number — and every index word names one of the 50000 node rows, which is where the kernel's gather keeps the row
  it reads (Proof/PreDecode.lean reads both facts off the precondition).

  The three frames are the generated ones (the reference's its generated run with the results dropped); each rewrite
  of the idealization is its rule's statement.
-/
import proofs.«420450_j53833120088741_2_alg».proof.Defs
import proofs.«420450_j53833120088741_2_alg».proof.Proof.Gen.Kernel
import proofs.«420450_j53833120088741_2_alg».proof.Proof.Gen.Kernel.Frame
import proofs.«420450_j53833120088741_2_alg».proof.Proof.Gen.KernelIdeal
import proofs.«420450_j53833120088741_2_alg».proof.Proof.Gen.KernelIdeal.Frame
import proofs.«420450_j53833120088741_2_alg».proof.Proof.Gen.ReferenceIdeal
import proofs.«420450_j53833120088741_2_alg».proof.Proof.Gen.ReferenceIdeal.Run
import proofs.«420450_j53833120088741_2_alg».proof.Proof.Gen.ReferenceIdeal.Read
import proofs.«420450_j53833120088741_2_alg».proof.Proof.Gen.Pre_finite_inputs
import proofs.«420450_j53833120088741_2_alg».proof.Proof.PreDecode
import proofs.«420450_j53833120088741_2_alg».proof.Proof.KernelValue
import proofs.«420450_j53833120088741_2_alg».proof.Proof.RefRun
import Idealize.ShloMosaic.Adequacy
import Idealize.ShloMosaic.Init

noncomputable section

namespace Cert.Proof

open Idealize.ShloMosaic Idealize.SL.Sem

/-- What the precondition says of one core's argument arrays. -/
theorem ok_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.Val.Ok m c := by
  obtain ⟨h0, h1, h2, h3, h4, h5, h6, h7, h8, h9, h10, h11, h12, h13, h14⟩ :=
    Cert.PreDecode.decode _ _ _ _ _ _ _ _ _ _ _ _ _ _ _ (h c)
  exact ⟨h0, h1, h2, h3, h4, h5, h6, h7, h8, h9, h10, h11, h12, h13, h14⟩

theorem frame_k : Cert.frame_Kernel := fun m ρ _ => Cert.Kernel.Gen.frame m ρ
theorem frame_ki : Cert.frame_KernelIdeal := fun m ρ _ => Cert.KernelIdeal.Gen.frame m ρ
/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Each rewrite of the idealization — fourteen round trips through the narrower float format removed, one sign-bit
    read replaced by a comparison with zero — is its rule's statement at the site's shape. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.sign_bit.statement _ .f32,
   IdealRules.truncf_extf.statement _ .f32 .bf16, IdealRules.truncf_extf.statement _ .f32 .bf16,
   IdealRules.truncf_extf.statement _ .f32 .bf16, IdealRules.truncf_extf.statement _ .f32 .bf16⟩

/-- From memories that agree on the arguments both programs end with the layer's two results of those arguments. -/
theorem algebraic : Cert.algebraic_KernelIdeal_ReferenceIdeal := by
  intro m ρ m' ρ' hpre hagree
  refine ⟨fun c i => Cert.KernelIdeal.Val.sNode m c (i 0) (i 1), fun c i => Cert.KernelIdeal.Val.sEdge m c (i 0) (i 1),
    Cert.KernelIdeal.Val.run m ρ (ok_of_pre m hpre), ?_⟩
  refine (θ_run Cert.ReferenceIdeal.defs _ _).mono (fun r h c => ⟨(h c).1.trans ?_, (h c).2.1.trans ?_, (h c).2.2⟩)
    (Cert.ReferenceIdeal.RefValue.run m' ρ')
  · obtain ⟨e0, e1, e2, e3, e4, e5, e6, e7, e8, e9, e10, e11, e12, e13, e14⟩ := hagree c
    rw [e0, e1, e2, e3, e4, e5, e6, e7, e8, e9, e10, e11, e12]
    rfl
  · obtain ⟨e0, e1, e2, e3, e4, e5, e6, e7, e8, e9, e10, e11, e12, e13, e14⟩ := hagree c
    rw [e0, e1, e2, e3, e4, e5, e6, e13, e14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
